-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x32 : Shape := ⟨2, ![1600000, 32]⟩
abbrev S100000 : Shape := ⟨1, ![100000]⟩
abbrev S64x64 : Shape := ⟨2, ![64, 64]⟩
abbrev S64 : Shape := ⟨1, ![64]⟩
abbrev S32x64 : Shape := ⟨2, ![32, 64]⟩
abbrev S2x128x64 : Shape := ⟨3, ![2, 128, 64]⟩
abbrev S2x64 : Shape := ⟨2, ![2, 64]⟩
abbrev S64x1 : Shape := ⟨2, ![64, 1]⟩
abbrev S1 : Shape := ⟨1, ![1]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S2x128x64 : S_.BroadcastsInDim S2x128x64 (![] : Fin 0 → Fin S2x128x64.rank)
  reducesTo_S2x128x64_S_d0_1_2 : S2x128x64.ReducesTo [0, 1, 2] S_
  bcast_S_S2x64 : S_.BroadcastsInDim S2x64 (![] : Fin 0 → Fin S2x64.rank)
  reducesTo_S2x64_S_d0_1 : S2x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_v64 : IVec S_ 1) (main_v68 : IVec S1600000 1) : IVec S_ 1 :=
  let main_c_25 : IVec S_ 1 := constantI S_ 1 1#1
  let main_v69 : IVec S_ 1 := (fun x v => Host.reduce IntOp.andi x v reducesTo_S1600000_S_d0 h_S_) main_v68 main_c_25
  let main_v70 : IVec S_ 1 := andi main_v64 main_v69
  main_v70

def fn_part3 {F : FTy → Type} [FloatOps F] (main_arg1 : IVec S2x1600000 32) (main_arg13 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : IVec S1x1600000 32 := (extractStridedSlice S1x1600000 ![0, 0] · slices_S2x1600000_S1x1600000_0_0) main_arg1
  let main_v60 : IVec S1600000 32 := shapeCast S1600000 main_v59 shapeCasts_S1x1600000_S1600000
  let main_c_22 : IVec S_ 32 := constantI S_ 32 4294867296#32
  let main_v61 : IVec S1600000 32 := broadcastInDim S1600000 ![] bcast_S_S1600000 main_c_22
  let main_v62 : IVec S1600000 1 := cmpi .sge main_v60 main_v61
  let main_c_23 : IVec S_ 1 := constantI S_ 1 1#1
  let main_v63 : IVec S_ 1 := (fun x v => Host.reduce IntOp.andi x v reducesTo_S1600000_S_d0 h_S_) main_v62 main_c_23
  let main_v64 : IVec S_ 1 := andi main_v58 main_v63
  let main_v65 : IVec S1x1600000 32 := (extractStridedSlice S1x1600000 ![0, 0] · slices_S2x1600000_S1x1600000_0_0) main_arg1
  let main_v66 : IVec S1600000 32 := shapeCast S1600000 main_v65 shapeCasts_S1x1600000_S1600000
  let main_c_24 : IVec S_ 32 := constantI S_ 32 100000#32
  let main_v67 : IVec S1600000 32 := broadcastInDim S1600000 ![] bcast_S_S1600000 main_c_24
  let main_v68 : IVec S1600000 1 := cmpi .slt main_v66 main_v67
  fn_part4 (F := F) main_v64 main_v68

def fn_part2 {F : FTy → Type} [FloatOps F] (main_arg1 : IVec S2x1600000 32) (main_arg9 : FVec F S2x64 .f32) (main_arg10 : FVec F S2x128x64 .f32) (main_arg11 : FVec F S2x64 .f32) (main_arg12 : FVec F S64x1 .f32) (main_arg13 : FVec F S1 .f32) (main_v33 : IVec S_ 1) : IVec S_ 1 :=
  let main_v34 : FVec F S2x64 .f32 := Host.absf main_arg9
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2x128x64 .f32 := Host.absf main_arg10
  let main_cst_14 : FVec F S_ .f32 := constant S_ .f32 0x7F800000#32
  let main_v40 : FVec F S2x128x64 .f32 := broadcastInDim S2x128x64 ![] bcast_S_S2x128x64 main_cst_14
  let main_v41 : IVec S2x128x64 1 := cmpf .olt main_v39 main_v40
  let main_c_15 : IVec S_ 1 := constantI S_ 1 1#1
  let main_v42 : IVec S_ 1 := (fun x v => Host.reduce IntOp.andi x v reducesTo_S2x128x64_S_d0_1_2 h_S_) main_v41 main_c_15
  let main_v43 : IVec S_ 1 := andi main_v38 main_v42
  let main_v44 : FVec F S2x64 .f32 := Host.absf main_arg11
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S64x1 .f32 := Host.absf main_arg12
  let main_cst_18 : FVec F S_ .f32 := constant S_ .f32 0x7F800000#32
  let main_v50 : FVec F S64x1 .f32 := broadcastInDim S64x1 ![] bcast_S_S64x1 main_cst_18
  fn_part3 (F := F) main_arg1 main_arg13 main_v48 main_v49 main_v50

def fn_part1 {F : FTy → Type} [FloatOps F] (main_arg1 : IVec S2x1600000 32) (main_arg6 : FVec F S32x64 .f32) (main_arg7 : FVec F S64 .f32) (main_arg8 : FVec F S2x128x64 .f32) (main_arg9 : FVec F S2x64 .f32) (main_arg10 : FVec F S2x128x64 .f32) (main_arg11 : FVec F S2x64 .f32) (main_arg12 : FVec F S64x1 .f32) (main_arg13 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg6
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x128x64 .f32 := Host.absf main_arg8
  let main_cst_10 : FVec F S_ .f32 := constant S_ .f32 0x7F800000#32
  let main_v30 : FVec F S2x128x64 .f32 := broadcastInDim S2x128x64 ![] bcast_S_S2x128x64 main_cst_10
  let main_v31 : IVec S2x128x64 1 := cmpf .olt main_v29 main_v30
  let main_c_11 : IVec S_ 1 := constantI S_ 1 1#1
  let main_v32 : IVec S_ 1 := (fun x v => Host.reduce IntOp.andi x v reducesTo_S2x128x64_S_d0_1_2 h_S_) main_v31 main_c_11
  let main_v33 : IVec S_ 1 := andi main_v28 main_v32
  fn_part2 (F := F) main_arg1 main_arg9 main_arg10 main_arg11 main_arg12 main_arg13 main_v33

def fn {F : FTy → Type} [FloatOps F] (main_arg0 : FVec F S100000x64 .f32) (main_arg1 : IVec S2x1600000 32) (main_arg2 : FVec F S1600000x32 .f32) (main_arg3 : IVec S100000 1) (main_arg4 : FVec F S64x64 .f32) (main_arg5 : FVec F S64 .f32) (main_arg6 : FVec F S32x64 .f32) (main_arg7 : FVec F S64 .f32) (main_arg8 : FVec F S2x128x64 .f32) (main_arg9 : FVec F S2x64 .f32) (main_arg10 : FVec F S2x128x64 .f32) (main_arg11 : FVec F S2x64 .f32) (main_arg12 : FVec F S64x1 .f32) (main_arg13 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S1600000x32 : Shape := ⟨2, ![1600000, 32]⟩
abbrev S100000 : Shape := ⟨1, ![100000]⟩
abbrev S64x64 : Shape := ⟨2, ![64, 64]⟩
abbrev S64 : Shape := ⟨1, ![64]⟩
abbrev S32x64 : Shape := ⟨2, ![32, 64]⟩
abbrev S2x128x64 : Shape := ⟨3, ![2, 128, 64]⟩
abbrev S2x64 : Shape := ⟨2, ![2, 64]⟩
abbrev S64x1 : Shape := ⟨2, ![64, 1]⟩
abbrev S1 : Shape := ⟨1, ![1]⟩
abbrev S1x64 : Shape := ⟨2, ![1, 64]⟩
abbrev S10000x64 : Shape := ⟨2, ![10000, 64]⟩
abbrev S1600000x64 : Shape := ⟨2, ![1600000, 64]⟩
abbrev S16000x32 : Shape := ⟨2, ![16000, 32]⟩
abbrev S16000x64 : Shape := ⟨2, ![16000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x1 : Shape := ⟨2, ![1, 1]⟩
abbrev S1x64x64 : Shape := ⟨3, ![1, 64, 64]⟩
abbrev S8000x64 : Shape := ⟨2, ![8000, 64]⟩
abbrev S100000x1 : Shape := ⟨2, ![100000, 1]⟩
abbrev S10000x1 : Shape := ⟨2, ![10000, 1]⟩

abbrev nBuf : Space → Nat
  | .hbm => 113
  | .vmem => 56
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S100000, .i1⟩
  | .hbm, ⟨4, _⟩ => ⟨S64x64, .f32⟩
  | .hbm, ⟨5, _⟩ => ⟨S64, .f32⟩
  | .hbm, ⟨6, _⟩ => ⟨S32x64, .f32⟩
  | .hbm, ⟨7, _⟩ => ⟨S64, .f32⟩
  | .hbm, ⟨8, _⟩ => ⟨S2x128x64, .f32⟩
  | .hbm, ⟨9, _⟩ => ⟨S2x64, .f32⟩
  | .hbm, ⟨10, _⟩ => ⟨S2x128x64, .f32⟩
  | .hbm, ⟨11, _⟩ => ⟨S2x64, .f32⟩
  | .hbm, ⟨12, _⟩ => ⟨S64x1, .f32⟩
  | .hbm, ⟨13, _⟩ => ⟨S1, .f32⟩
  | .hbm, ⟨14, _⟩ => ⟨S1x64, .f32⟩
  | .hbm, ⟨15, _⟩ => ⟨S100000x64, .f32⟩
  | .hbm, ⟨16, _⟩ => ⟨S1x64, .f32⟩
  | .hbm, ⟨17, _⟩ => ⟨S1600000x64, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1, .i32⟩
  | .hbm, ⟨31, _⟩ => ⟨S_, .i32⟩
  | .hbm, ⟨32, _⟩ => ⟨S1600000x1, .i32⟩
  | .hbm, ⟨33, _⟩ => ⟨S1600000x1, .i1⟩
  | .hbm, ⟨34, _⟩ => ⟨S1x1, .i32⟩
  | .hbm, ⟨35, _⟩ => ⟨S1600000x1, .i32⟩
  | .hbm, ⟨36, _⟩ => ⟨S1600000x1, .i1⟩
  | .hbm, ⟨37, _⟩ => ⟨S1600000x1, .i1⟩
  | .hbm, ⟨38, _⟩ => ⟨S_, .i1⟩
  | .hbm, ⟨39, _⟩ => ⟨S1600000, .i1⟩
  | .hbm, ⟨40, _⟩ => ⟨S1600000x64, .f32⟩
  | .hbm, ⟨41, _⟩ => ⟨S1600000x64, .i1⟩
  | .hbm, ⟨42, _⟩ => ⟨S_, .f32⟩
  | .hbm, ⟨43, _⟩ => ⟨S1600000x64, .f32⟩
  | .hbm, ⟨44, _⟩ => ⟨S1600000x64, .f32⟩
  | .hbm, ⟨45, _⟩ => ⟨S1x64x64, .f32⟩
  | .hbm, ⟨46, _⟩ => ⟨S64x64, .f32⟩
  | .hbm, ⟨47, _⟩ => ⟨S1x64x64, .f32⟩
  | .hbm, ⟨48, _⟩ => ⟨S64x64, .f32⟩
  | .hbm, ⟨49, _⟩ => ⟨S1x64, .f32⟩
  | .hbm, ⟨50, _⟩ => ⟨S64, .f32⟩
  | .hbm, ⟨51, _⟩ => ⟨S1x64, .f32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S1x64x64, .f32⟩
  | .hbm, ⟨58, _⟩ => ⟨S64x64, .f32⟩
  | .hbm, ⟨59, _⟩ => ⟨S1x64x64, .f32⟩
  | .hbm, ⟨60, _⟩ => ⟨S64x64, .f32⟩
  | .hbm, ⟨61, _⟩ => ⟨S1x64, .f32⟩
  | .hbm, ⟨62, _⟩ => ⟨S64, .f32⟩
  | .hbm, ⟨63, _⟩ => ⟨S1x64, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1, .i32⟩
  | .hbm, ⟨74, _⟩ => ⟨S_, .i32⟩
  | .hbm, ⟨75, _⟩ => ⟨S1600000x1, .i32⟩
  | .hbm, ⟨76, _⟩ => ⟨S1600000x1, .i1⟩
  | .hbm, ⟨77, _⟩ => ⟨S1x1, .i32⟩
  | .hbm, ⟨78, _⟩ => ⟨S1600000x1, .i32⟩
  | .hbm, ⟨79, _⟩ => ⟨S1600000x1, .i1⟩
  | .hbm, ⟨80, _⟩ => ⟨S1600000x1, .i1⟩
  | .hbm, ⟨81, _⟩ => ⟨S_, .i1⟩
  | .hbm, ⟨82, _⟩ => ⟨S1600000, .i1⟩
  | .hbm, ⟨83, _⟩ => ⟨S1600000x64, .f32⟩
  | .hbm, ⟨84, _⟩ => ⟨S1600000x64, .i1⟩
  | .hbm, ⟨85, _⟩ => ⟨S_, .f32⟩
  | .hbm, ⟨86, _⟩ => ⟨S1600000x64, .f32⟩
  | .hbm, ⟨87, _⟩ => ⟨S1600000x64, .f32⟩
  | .hbm, ⟨88, _⟩ => ⟨S1x64x64, .f32⟩
  | .hbm, ⟨89, _⟩ => ⟨S64x64, .f32⟩
  | .hbm, ⟨90, _⟩ => ⟨S1x64x64, .f32⟩
  | .hbm, ⟨91, _⟩ => ⟨S64x64, .f32⟩
  | .hbm, ⟨92, _⟩ => ⟨S1x64, .f32⟩
  | .hbm, ⟨93, _⟩ => ⟨S64, .f32⟩
  | .hbm, ⟨94, _⟩ => ⟨S1x64, .f32⟩
  | .hbm, ⟨95, _⟩ => ⟨S1600000x64, .f32⟩
  | .hbm, ⟨96, _⟩ => ⟨S_, .f32⟩
  | .hbm, ⟨97, _⟩ => ⟨S100000x64, .f32⟩
  | .hbm, ⟨98, _⟩ => ⟨S1600000x1, .i32⟩
  | .hbm, ⟨99, _⟩ => ⟨S100000x64, .f32⟩
  | .hbm, ⟨100, _⟩ => ⟨S1x64x64, .f32⟩
  | .hbm, ⟨101, _⟩ => ⟨S64x64, .f32⟩
  | .hbm, ⟨102, _⟩ => ⟨S1x64x64, .f32⟩
  | .hbm, ⟨103, _⟩ => ⟨S64x64, .f32⟩
  | .hbm, ⟨104, _⟩ => ⟨S1x64, .f32⟩
  | .hbm, ⟨105, _⟩ => ⟨S64, .f32⟩
  | .hbm, ⟨106, _⟩ => ⟨S1x64, .f32⟩
  | .hbm, ⟨107, _⟩ => ⟨S100000x64, .f32⟩
  | .hbm, ⟨108, _⟩ => ⟨S100000, .i32⟩
  | .hbm, ⟨109, _⟩ => ⟨S1x1, .f32⟩
  | .hbm, ⟨110, _⟩ => ⟨S100000x1, .i32⟩
  | .hbm, ⟨111, _⟩ => ⟨S100000x1, .f32⟩
  | .hbm, ⟨112, _⟩ => ⟨S100000, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S16000x32, .f32⟩
  | .local _ .vmem, ⟨7, _⟩ => ⟨S16000x32, .f32⟩
  | .local _ .vmem, ⟨8, _⟩ => ⟨S32x64, .f32⟩
  | .local _ .vmem, ⟨9, _⟩ => ⟨S1x64, .f32⟩
  | .local _ .vmem, ⟨10, _⟩ => ⟨S16000x64, .f32⟩
  | .local _ .vmem, ⟨11, _⟩ => ⟨S16000x64, .f32⟩
  | .local _ .vmem, ⟨12, _⟩ => ⟨S8000x64, .f32⟩
  | .local _ .vmem, ⟨13, _⟩ => ⟨S8000x64, .f32⟩
  | .local _ .vmem, ⟨14, _⟩ => ⟨S64x64, .f32⟩
  | .local _ .vmem, ⟨15, _⟩ => ⟨S8000x64, .f32⟩
  | .local _ .vmem, ⟨16, _⟩ => ⟨S8000x64, .f32⟩
  | .local _ .vmem, ⟨17, _⟩ => ⟨S64x64, .f32⟩
  | .local _ .vmem, ⟨18, _⟩ => ⟨S1x64, .f32⟩
  | .local _ .vmem, ⟨19, _⟩ => ⟨S8000x64, .f32⟩
  | .local _ .vmem, ⟨20, _⟩ => ⟨S8000x64, .f32⟩
  | .local _ .vmem, ⟨21, _⟩ => ⟨S10000x64, .f32⟩
  | .local _ .vmem, ⟨22, _⟩ => ⟨S10000x64, .f32⟩
  | .local _ .vmem, ⟨23, _⟩ => ⟨S64x64, .f32⟩
  | .local _ .vmem, ⟨24, _⟩ => ⟨S10000x64, .f32⟩
  | .local _ .vmem, ⟨25, _⟩ => ⟨S10000x64, .f32⟩
  | .local _ .vmem, ⟨26, _⟩ => ⟨S64x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S8000x64, .f32⟩
  | .local _ .vmem, ⟨31, _⟩ => ⟨S8000x64, .f32⟩
  | .local _ .vmem, ⟨32, _⟩ => ⟨S64x64, .f32⟩
  | .local _ .vmem, ⟨33, _⟩ => ⟨S8000x64, .f32⟩
  | .local _ .vmem, ⟨34, _⟩ => ⟨S8000x64, .f32⟩
  | .local _ .vmem, ⟨35, _⟩ => ⟨S64x64, .f32⟩
  | .local _ .vmem, ⟨36, _⟩ => ⟨S1x64, .f32⟩
  | .local _ .vmem, ⟨37, _⟩ => ⟨S8000x64, .f32⟩
  | .local _ .vmem, ⟨38, _⟩ => ⟨S8000x64, .f32⟩
  | .local _ .vmem, ⟨39, _⟩ => ⟨S10000x64, .f32⟩
  | .local _ .vmem, ⟨40, _⟩ => ⟨S10000x64, .f32⟩
  | .local _ .vmem, ⟨41, _⟩ => ⟨S64x64, .f32⟩
  | .local _ .vmem, ⟨42, _⟩ => ⟨S10000x64, .f32⟩
  | .local _ .vmem, ⟨43, _⟩ => ⟨S10000x64, .f32⟩
  | .local _ .vmem, ⟨44, _⟩ => ⟨S64x64, .f32⟩
  | .local _ .vmem, ⟨45, _⟩ => ⟨S1x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S64x1, .f32⟩
  | .local _ .vmem, ⟨51, _⟩ => ⟨S1x1, .f32⟩
  | .local _ .vmem, ⟨52, _⟩ => ⟨S10000x1, .i32⟩
  | .local _ .vmem, ⟨53, _⟩ => ⟨S10000x1, .i32⟩
  | .local _ .vmem, ⟨54, _⟩ => ⟨S10000x1, .f32⟩
  | .local _ .vmem, ⟨55, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_cst : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_cst_0 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg5_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc6_stg4_0 : Ref sig .tc := ⟨.vmem, 54, rfl⟩
abbrev cc6_stg4_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem5_0 : DmaSem sig := 37
abbrev cc4_sem5_1 : DmaSem sig := 38
abbrev cc5_sem0_0 : DmaSem sig := 39
abbrev cc5_sem0_1 : DmaSem sig := 40
abbrev cc5_sem1_0 : DmaSem sig := 41
abbrev cc5_sem2_0 : DmaSem sig := 42
abbrev cc5_sem2_1 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53
abbrev cc6_sem4_0 : DmaSem sig := 54
abbrev cc6_sem4_1 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S8000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S8000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x1 .i32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S10000x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S16000x32_S16000x32_0_0 : ∀ a, (![0, 0] : Fin 2 → Nat) a + S16000x32.size a ≤ S16000x32.size a
  h_S16000x32 : 0 < S16000x32.numel
  inb_S32x64_S32x64_0_0 : ∀ a, (![0, 0] : Fin 2 → Nat) a + S32x64.size a ≤ S32x64.size a
  h_S32x64 : 0 < S32x64.numel
  broadcasts_S1x64_S16000x64 : S1x64.Broadcasts S16000x64
  inb_S16000x64_S16000x64_0_0 : ∀ a, (![0, 0] : Fin 2 → Nat) a + S16000x64.size a ≤ S16000x64.size a
  h_S16000x64 : 0 < S16000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  slices_S2x128x64_S1x64x64_0_0_0 : S2x128x64.Slices ![0, 0, 0] S1x64x64
  shapeCasts_S1x64x64_S64x64 : S1x64x64.ShapeCasts S64x64
  slices_S2x128x64_S1x64x64_0_64_0 : S2x128x64.Slices ![0, 64, 0] S1x64x64
  slices_S2x64_S1x64_0_0 : S2x64.Slices ![0, 0] S1x64
  shapeCasts_S1x64_S64 : S1x64.ShapeCasts S64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  shapeCasts_S64x64_S64x64 : S64x64.ShapeCasts S64x64
  broadcasts_S1x64_S8000x64 : S1x64.Broadcasts S8000x64
  bcast_S_S100000x64 : S_.BroadcastsInDim S100000x64 (![] : Fin 0 → Fin S100000x64.rank)
  shapeCasts_S10000x64_S10000x64 : S10000x64.ShapeCasts S10000x64
  slices_S2x128x64_S1x64x64_1_0_0 : S2x128x64.Slices ![1, 0, 0] S1x64x64
  slices_S2x128x64_S1x64x64_1_64_0 : S2x128x64.Slices ![1, 64, 0] S1x64x64
  slices_S2x64_S1x64_1_0 : S2x64.Slices ![1, 0] S1x64
  natLt_1_32 : 1 < 32
  shapeCasts_S1_S1x1 : S1.ShapeCasts S1x1
  shapeCasts_S100000_S100000x1 : S100000.ShapeCasts S100000x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  shapeCasts_S100000x1_S100000 : S100000x1.ShapeCasts S100000
  dot_S10000x64_S64x64_S10000x64_1_0_0_1_n_n_wf : DotDims.WF S10000x64 S64x64 S10000x64 [1] [0] [0] [1] [] []
  dot_S16000x32_S32x64_S16000x64_1_0_0_1_n_n_wf : DotDims.WF S16000x32 S32x64 S16000x64 [1] [0] [0] [1] [] []
  gather_S100000x64_S1600000x1_S1600000x64_1_0_n_n_0_1_164_wf : GatherDims.WF S100000x64 S1600000x1 S1600000x64 [1] [0] [] [0] [] 1 ![1, 64]
  dot_S8000x64_S64x64_S8000x64_1_0_0_1_n_n_wf : DotDims.WF S8000x64 S64x64 S8000x64 [1] [0] [0] [1] [] []
  scatter_S100000x64_S1600000x1_S1600000x64_1_0_0_1_wf : ScatterDims.WF S100000x64 S1600000x1 S1600000x64 [1] [0] [0] 1
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x32.size a ≤ S1600000x32.size a
  hwx1_0 : ∀ i : grid1.Coords, EltTy.bits .f32 = 32 ∨ (Rect.block (s := S1600000x32) S16000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x64.size a ≤ S32x64.size a
  hwx1_1 : ∀ i : grid1.Coords, EltTy.bits .f32 = 32 ∨ (Rect.block (s := S32x64) S32x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16000x64.size a ≤ S1600000x64.size a
  hwx1_3 : ∀ i : grid1.Coords, EltTy.bits .f32 = 32 ∨ (Rect.block (s := S1600000x64) S16000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1600000x64.size a
  hwx2_0 : ∀ i : grid2.Coords, EltTy.bits .f32 = 32 ∨ (Rect.block (s := S1600000x64) S8000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S1600000x64.size a
  hwx2_2 : ∀ i : grid2.Coords, EltTy.bits .f32 = 32 ∨ (Rect.block (s := S1600000x64) S8000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x64.size a ≤ S1600000x64.size a
  hwx2_5 : ∀ i : grid2.Coords, EltTy.bits .f32 = 32 ∨ (Rect.block (s := S1600000x64) S8000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S1600000x64.size a
  hwx4_0 : ∀ i : grid4.Coords, EltTy.bits .f32 = 32 ∨ (Rect.block (s := S1600000x64) S8000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x64.size a ≤ S1600000x64.size a
  hwx4_2 : ∀ i : grid4.Coords, EltTy.bits .f32 = 32 ∨ (Rect.block (s := S1600000x64) S8000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8000x64.size a ≤ S1600000x64.size a
  hwx4_5 : ∀ i : grid4.Coords, EltTy.bits .f32 = 32 ∨ (Rect.block (s := S1600000x64) S8000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x1.size a ≤ S64x1.size a
  hwx6_1 : ∀ i : grid6.Coords, EltTy.bits .f32 = 32 ∨ (Rect.block (s := S64x1) S64x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x1.size a ≤ S100000x1.size a
  hwx6_3 : ∀ i : grid6.Coords, EltTy.bits .i32 = 32 ∨ (Rect.block (s := S100000x1) S10000x1.size (cc6_transform_3 i) (hinb6_3 i)).WholeWords (EltTy.packing .i32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x1.size a ≤ S100000x1.size a
  hwx6_4 : ∀ i : grid6.Coords, EltTy.bits .f32 = 32 ∨ (Rect.block (s := S100000x1) S10000x1.size (cc6_transform_4 i) (hinb6_4 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S16000x32_S32x64_S16000x64_1_0_0_1_n_n : DotDims S16000x32 S32x64 S16000x64 where
  lhsContracting := [1]
  rhsContracting := [0]
  lhsNonContracting := [0]
  rhsNonContracting := [1]
  lhsBatch := []
  rhsBatch := []
  wf := dot_S16000x32_S32x64_S16000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S16000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S32x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S16000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S8000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S8000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v1) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v19) S10000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v23) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v26) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v27) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v28) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v3) S8000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v32) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v35) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v36) S8000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v27) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v41) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v39) S10000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v43) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v46) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v47) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v47) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S64x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v49) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v50) S10000x1.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v51) S10000x1.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x32 : Shape := ⟨2, ![1600000, 32]⟩
abbrev S100000 : Shape := ⟨1, ![100000]⟩
abbrev S64x64 : Shape := ⟨2, ![64, 64]⟩
abbrev S64 : Shape := ⟨1, ![64]⟩
abbrev S32x64 : Shape := ⟨2, ![32, 64]⟩
abbrev S2x128x64 : Shape := ⟨3, ![2, 128, 64]⟩
abbrev S2x64 : Shape := ⟨2, ![2, 64]⟩
abbrev S64x1 : Shape := ⟨2, ![64, 1]⟩
abbrev S1 : Shape := ⟨1, ![1]⟩
abbrev S1x64 : Shape := ⟨2, ![1, 64]⟩
abbrev S_ : Shape := ⟨0, ![]⟩
abbrev S1600000x64 : Shape := ⟨2, ![1600000, 64]⟩
abbrev S1x1600000 : Shape := ⟨2, ![1, 1600000]⟩
abbrev S1600000 : Shape := ⟨1, ![1600000]⟩
abbrev S1600000x1 : Shape := ⟨2, ![1600000, 1]⟩
abbrev S1x64x64 : Shape := ⟨3, ![1, 64, 64]⟩
abbrev S100000x1 : Shape := ⟨2, ![100000, 1]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S100000, .i1⟩
  | .hbm, ⟨4, _⟩ => ⟨S64x64, .f32⟩
  | .hbm, ⟨5, _⟩ => ⟨S64, .f32⟩
  | .hbm, ⟨6, _⟩ => ⟨S32x64, .f32⟩
  | .hbm, ⟨7, _⟩ => ⟨S64, .f32⟩
  | .hbm, ⟨8, _⟩ => ⟨S2x128x64, .f32⟩
  | .hbm, ⟨9, _⟩ => ⟨S2x64, .f32⟩
  | .hbm, ⟨10, _⟩ => ⟨S2x128x64, .f32⟩
  | .hbm, ⟨11, _⟩ => ⟨S2x64, .f32⟩
  | .hbm, ⟨12, _⟩ => ⟨S64x1, .f32⟩
  | .hbm, ⟨13, _⟩ => ⟨S1, .f32⟩
  | .hbm, ⟨14, _⟩ => ⟨S100000x64, .f32⟩
  | .hbm, ⟨15, _⟩ => ⟨S1x64, .f32⟩
  | .hbm, ⟨16, _⟩ => ⟨S100000x64, .f32⟩
  | .hbm, ⟨17, _⟩ => ⟨S100000x64, .f32⟩
  | .hbm, ⟨18, _⟩ => ⟨S_, .f32⟩
  | .hbm, ⟨19, _⟩ => ⟨S100000x64, .f32⟩
  | .hbm, ⟨20, _⟩ => ⟨S100000x64, .f32⟩
  | .hbm, ⟨21, _⟩ => ⟨S1600000x64, .f32⟩
  | .hbm, ⟨22, _⟩ => ⟨S1x64, .f32⟩
  | .hbm, ⟨23, _⟩ => ⟨S1600000x64, .f32⟩
  | .hbm, ⟨24, _⟩ => ⟨S1600000x64, .f32⟩
  | .hbm, ⟨25, _⟩ => ⟨S_, .f32⟩
  | .hbm, ⟨26, _⟩ => ⟨S1600000x64, .f32⟩
  | .hbm, ⟨27, _⟩ => ⟨S1600000x64, .f32⟩
  | .hbm, ⟨28, _⟩ => ⟨S1x1600000, .i32⟩
  | .hbm, ⟨29, _⟩ => ⟨S1600000, .i32⟩
  | .hbm, ⟨30, _⟩ => ⟨S1x1600000, .i32⟩
  | .hbm, ⟨31, _⟩ => ⟨S1600000, .i32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S1x64x64, .f32⟩
  | .hbm, ⟨42, _⟩ => ⟨S64x64, .f32⟩
  | .hbm, ⟨43, _⟩ => ⟨S1600000x64, .f32⟩
  | .hbm, ⟨44, _⟩ => ⟨S1x64x64, .f32⟩
  | .hbm, ⟨45, _⟩ => ⟨S64x64, .f32⟩
  | .hbm, ⟨46, _⟩ => ⟨S1600000x64, .f32⟩
  | .hbm, ⟨47, _⟩ => ⟨S1600000x64, .f32⟩
  | .hbm, ⟨48, _⟩ => ⟨S1x64, .f32⟩
  | .hbm, ⟨49, _⟩ => ⟨S64, .f32⟩
  | .hbm, ⟨50, _⟩ => ⟨S1x64, .f32⟩
  | .hbm, ⟨51, _⟩ => ⟨S1600000x64, .f32⟩
  | .hbm, ⟨52, _⟩ => ⟨S1600000x64, .f32⟩
  | .hbm, ⟨53, _⟩ => ⟨S_, .f32⟩
  | .hbm, ⟨54, _⟩ => ⟨S1600000x64, .f32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S1x64x64, .f32⟩
  | .hbm, ⟨61, _⟩ => ⟨S64x64, .f32⟩
  | .hbm, ⟨62, _⟩ => ⟨S100000x64, .f32⟩
  | .hbm, ⟨63, _⟩ => ⟨S1x64x64, .f32⟩
  | .hbm, ⟨64, _⟩ => ⟨S64x64, .f32⟩
  | .hbm, ⟨65, _⟩ => ⟨S100000x64, .f32⟩
  | .hbm, ⟨66, _⟩ => ⟨S100000x64, .f32⟩
  | .hbm, ⟨67, _⟩ => ⟨S1x64, .f32⟩
  | .hbm, ⟨68, _⟩ => ⟨S64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x64, .f32⟩
  | .hbm, ⟨84, _⟩ => ⟨S1x64x64, .f32⟩
  | .hbm, ⟨85, _⟩ => ⟨S64x64, .f32⟩
  | .hbm, ⟨86, _⟩ => ⟨S1600000x64, .f32⟩
  | .hbm, ⟨87, _⟩ => ⟨S1x64x64, .f32⟩
  | .hbm, ⟨88, _⟩ => ⟨S64x64, .f32⟩
  | .hbm, ⟨89, _⟩ => ⟨S1600000x64, .f32⟩
  | .hbm, ⟨90, _⟩ => ⟨S1600000x64, .f32⟩
  | .hbm, ⟨91, _⟩ => ⟨S1x64, .f32⟩
  | .hbm, ⟨92, _⟩ => ⟨S64, .f32⟩
  | .hbm, ⟨93, _⟩ => ⟨S1x64, .f32⟩
  | .hbm, ⟨94, _⟩ => ⟨S1600000x64, .f32⟩
  | .hbm, ⟨95, _⟩ => ⟨S1600000x64, .f32⟩
  | .hbm, ⟨96, _⟩ => ⟨S_, .f32⟩
  | .hbm, ⟨97, _⟩ => ⟨S1600000x64, .f32⟩
  | .hbm, ⟨98, _⟩ => ⟨S1600000x64, .f32⟩
  | .hbm, ⟨99, _⟩ => ⟨S_, .f32⟩
  | .hbm, ⟨100, _⟩ => ⟨S100000x64, .f32⟩
  | .hbm, ⟨101, _⟩ => ⟨S1600000x1, .i32⟩
  | .hbm, ⟨102, _⟩ => ⟨S100000x64, .f32⟩
  | .hbm, ⟨103, _⟩ => ⟨S1x64x64, .f32⟩
  | .hbm, ⟨104, _⟩ => ⟨S64x64, .f32⟩
  | .hbm, ⟨105, _⟩ => ⟨S100000x64, .f32⟩
  | .hbm, ⟨106, _⟩ => ⟨S1x64x64, .f32⟩
  | .hbm, ⟨107, _⟩ => ⟨S64x64, .f32⟩
  | .hbm, ⟨108, _⟩ => ⟨S100000x64, .f32⟩
  | .hbm, ⟨109, _⟩ => ⟨S100000x64, .f32⟩
  | .hbm, ⟨110, _⟩ => ⟨S1x64, .f32⟩
  | .hbm, ⟨111, _⟩ => ⟨S64, .f32⟩
  | .hbm, ⟨112, _⟩ => ⟨S1x64, .f32⟩
  | .hbm, ⟨113, _⟩ => ⟨S100000x64, .f32⟩
  | .hbm, ⟨114, _⟩ => ⟨S100000x64, .f32⟩
  | .hbm, ⟨115, _⟩ => ⟨S_, .f32⟩
  | .hbm, ⟨116, _⟩ => ⟨S100000x64, .f32⟩
  | .hbm, ⟨117, _⟩ => ⟨S100000x64, .f32⟩
  | .hbm, ⟨118, _⟩ => ⟨S100000x1, .f32⟩
  | .hbm, ⟨119, _⟩ => ⟨S1x1, .f32⟩
  | .hbm, ⟨120, _⟩ => ⟨S100000x1, .f32⟩
  | .hbm, ⟨121, _⟩ => ⟨S100000x1, .f32⟩
  | .hbm, ⟨122, _⟩ => ⟨S100000, .f32⟩
  | .hbm, ⟨123, _⟩ => ⟨S_, .f32⟩
  | .hbm, ⟨124, _⟩ => ⟨S_, .f32⟩
  | .hbm, ⟨125, _⟩ => ⟨S100000, .f32⟩
  | .hbm, ⟨126, _⟩ => ⟨S100000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_cst : Ref sig .tc := ⟨.hbm, 25, rfl⟩
abbrev main_call1_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call2_cst : Ref sig .tc := ⟨.hbm, 53, rfl⟩
abbrev main_call2_v0 : Ref sig .tc := ⟨.hbm, 54, rfl⟩
abbrev main_v33 : Ref sig .tc := ⟨.hbm, 55, rfl⟩
abbrev main_cst : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call3_cst : Ref sig .tc := ⟨.hbm, 72, rfl⟩
abbrev main_call3_v0 : Ref sig .tc := ⟨.hbm, 73, rfl⟩
abbrev main_v49 : Ref sig .tc := ⟨.hbm, 74, rfl⟩
abbrev main_c_1 : Ref sig .tc := ⟨.hbm, 75, rfl⟩
abbrev main_v50 : Ref sig .tc := ⟨.hbm, 76, rfl⟩
abbrev main_v51 : Ref sig .tc := ⟨.hbm, 77, rfl⟩
abbrev main_c_2 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call4_cst : Ref sig .tc := ⟨.hbm, 96, rfl⟩
abbrev main_call4_v0 : Ref sig .tc := ⟨.hbm, 97, rfl⟩
abbrev main_v69 : Ref sig .tc := ⟨.hbm, 98, rfl⟩
abbrev main_cst_3 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_call5_cst : Ref sig .tc := ⟨.hbm, 115, rfl⟩
abbrev main_call5_v0 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_4 : Ref sig .tc := ⟨.hbm, 123, rfl⟩
abbrev main_call6_v0 : Ref sig .tc := ⟨.hbm, 124, rfl⟩
abbrev main_call6_v1 : Ref sig .tc := ⟨.hbm, 125, rfl⟩
abbrev main_v91 : Ref sig .tc := ⟨.hbm, 126, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x128x64_S1x64x64_0_0_0 : S2x128x64.Slices ![0, 0, 0] S1x64x64
  shapeCasts_S1x64x64_S64x64 : S1x64x64.ShapeCasts S64x64
  slices_S2x128x64_S1x64x64_0_64_0 : S2x128x64.Slices ![0, 64, 0] S1x64x64
  slices_S2x64_S1x64_0_0 : S2x64.Slices ![0, 0] S1x64
  shapeCasts_S1x64_S64 : S1x64.ShapeCasts S64
  slices_S2x128x64_S1x64x64_1_0_0 : S2x128x64.Slices ![1, 0, 0] S1x64x64
  slices_S2x128x64_S1x64x64_1_64_0 : S2x128x64.Slices ![1, 64, 0] S1x64x64
  slices_S2x64_S1x64_1_0 : S2x64.Slices ![1, 0] S1x64
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  bcast_S_S100000 : S_.BroadcastsInDim S100000 (![] : Fin 0 → Fin S100000.rank)
  dot_S100000x64_S64x64_S100000x64_1_0_0_1_n_n_wf : DotDims.WF S100000x64 S64x64 S100000x64 [1] [0] [0] [1] [] []
  dot_S1600000x32_S32x64_S1600000x64_1_0_0_1_n_n_wf : DotDims.WF S1600000x32 S32x64 S1600000x64 [1] [0] [0] [1] [] []
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x64_S64x1_S100000x1_1_0_0_1_n_n_wf : DotDims.WF S100000x64 S64x1 S100000x1 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1600000x32_S32x64_S1600000x64_1_0_0_1_n_n : DotDims S1600000x32 S32x64 S1600000x64 where
  lhsContracting := [1]
  rhsContracting := [0]
  lhsNonContracting := [0]
  rhsNonContracting := [1]
  lhsBatch := []
  rhsBatch := []
  wf := dot_S1600000x32_S32x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Spec.lean ====
/-
  The layers of the network, as functions on whole arrays of extended reals, index by index.

  A layer of this message-passing network is an affine map followed by the positive part:
  `x · w + b` for the two encoders, `x₁ · w₁ + x₂ · w₂ + b` for the message and the update layers
  (the product with the two halves of a stacked weight, which is what multiplying the concatenation
  `[x₁ | x₂]` by the stacked weight gives), and for the head the affine map alone, kept where the
  candidate mask is set and replaced by the fill value `-1e9` elsewhere.  Every contraction is over
  one axis, so each entry is a finite sum over `k` of products `x (r, k) * w (k, c)`; the sums are
  written over `Fin K` with the coordinates explicit, which is the form both programs are brought to.
-/
import Idealize.ShloMosaic.PureOps.Ideal
import Idealize.ShloMosaic.Lib.ValueIdx

noncomputable section

open scoped BigOperators

namespace Cert.Spec

open Idealize.ShloMosaic Idealize.ShloMosaic.ValueIdx

/-- Entry `(r, c)` of the matrix product `x · w`: the sum over the one contracted axis. -/
def prod (R K C : Nat) (x : FVec Ideal ⟨2, ![R, K]⟩ .f32) (w : FVec Ideal ⟨2, ![K, C]⟩ .f32) :
    FVec Ideal ⟨2, ![R, C]⟩ .f32 :=
  fun i => ∑ k : Fin K, x (ix2 (i 0) k) * w (ix2 k (i 1))

/-- `max (x · w + b, 0)`, the bias a row vector added to every row. -/
def dense1 (R K C : Nat) (x : FVec Ideal ⟨2, ![R, K]⟩ .f32) (w : FVec Ideal ⟨2, ![K, C]⟩ .f32)
    (b : FVec Ideal ⟨2, ![1, C]⟩ .f32) : FVec Ideal ⟨2, ![R, C]⟩ .f32 :=
  fun i => max (prod R K C x w i + b (ix2 0 (i 1))) 0

/-- `max ((x₁ · w₁ + x₂ · w₂) + b, 0)`: the layer on the concatenation `[x₁ | x₂]`, the stacked weight split
    in its two halves.  The two products are added first, the bias last. -/
def dense2 (R K C : Nat) (x₁ : FVec Ideal ⟨2, ![R, K]⟩ .f32) (w₁ : FVec Ideal ⟨2, ![K, C]⟩ .f32)
    (x₂ : FVec Ideal ⟨2, ![R, K]⟩ .f32) (w₂ : FVec Ideal ⟨2, ![K, C]⟩ .f32)
    (b : FVec Ideal ⟨2, ![1, C]⟩ .f32) : FVec Ideal ⟨2, ![R, C]⟩ .f32 :=
  fun i => max ((prod R K C x₁ w₁ i + prod R K C x₂ w₂ i) + b (ix2 0 (i 1))) 0

/-- The head: `x · w + b` (one output column) where the mask word is not zero, the fill value `-1e9` (the
    float whose pattern is `0xCE6E6B28`) where it is. -/
def head (R K : Nat) (x : FVec Ideal ⟨2, ![R, K]⟩ .f32) (w : FVec Ideal ⟨2, ![K, 1]⟩ .f32)
    (b : FVec Ideal ⟨2, ![1, 1]⟩ .f32) (mask : IVec ⟨2, ![R, 1]⟩ 32) : FVec Ideal ⟨2, ![R, 1]⟩ .f32 :=
  fun i => Scalar.select (IntOp.cmpi .ne (mask i) 0#32) (prod R K 1 x w i + b (ix2 0 (i 1)))
    (Ideal.ofBits .f32 0xCE6E6B28#32)

end Cert.Spec

end
-- ==== Proof.Region0.lean ====
/-
  The node encoder's launch, read as a value: after the ten grid points have run, the output array is
  `max (x · w + b, 0)` of the three arrays the launch reads, whole.

  Grid point `t` is handed rows `10000 t … 10000 t + 9999` of `x`, all of `w` and the one row `b`, and
  writes back the same rows of the output.  Inside the block the product is the matrix unit's, accumulated
  into zero: at the exact values that is the plain sum over the 64 contracted columns, the narrowing of the
  operands to the short format being the identity there.  So entry `(p, q)` of the block is
  `max (∑ k, x (10000 t + p, k) * w (k, q) + b (0, q), 0)`, which is entry `(10000 t + p, q)` of the whole-array
  function; the ten blocks tile the array, so every entry is written, by the point `t = row / 10000`.
-/
import proofs.«400771_j49452253447022_2_alg».proof.Proof.Gen.KernelIdeal.Frame
import proofs.«400771_j49452253447022_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.NodeEnc

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The block product at an index -/

theorem lhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The matrix unit's product of a block with the weight, accumulated into zero, at entry `(p, q)`: the sum over
    the contracted axis. -/
theorem blockProd_apply {φ₁ φ₂ : FTy} (x : FVec Ideal S10000x64 φ₁) (w : FVec Ideal S64x64 φ₂) (p : Fin 10000) (q : Fin 64) :
    FloatOps.matmul dot_S10000x64_S64x64_S10000x64_1_0_0_1_n_n none x w (constant S10000x64 .f32 0x00000000#32) (ix2 p q)
      = ∑ k : Fin 64, x (ix2 p k) * w (ix2 k q) := by
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- What the body stores, at entry `(p, q)` of the block: the affine map's entry, cut at zero. -/
theorem stored_apply (x0 : FVec Ideal S10000x64 .f32) (x1 : FVec Ideal S64x64 .f32) (x2 : FVec Ideal S1x64 .f32)
    (p : Fin 10000) (q : Fin 64) :
    k0_pay1 (F := Ideal) x0 x1 x2 (ix2 p q) = max ((∑ k : Fin 64, x0 (ix2 p k) * x1 (ix2 k q)) + x2 (ix2 0 q)) 0 := by
  unfold k0_pay1
  show max (FloatOps.matmul dot_S10000x64_S64x64_S10000x64_1_0_0_1_n_n none (truncf .bf16 x0 bitsLt_bf16_f32) (truncf .bf16 x1 bitsLt_bf16_f32)
        (constant S10000x64 .f32 0x00000000#32) (ix2 p q)
      + broadcastTo S10000x64 (shapeCast S1x64 x2 shapeCasts_S1x64_S1x64) broadcasts_S1x64_S10000x64 (ix2 p q))
    (Ideal.ofBits .f32 0x00000000#32) = _
  rw [blockProd_apply, broadcastTo_1b_ab_apply, shapeCast_self, Ideal.ofBits_zero_f32]
  rfl

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row blocks of the input and of the output move with the point, the
    weight and the bias stay. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 10 := Nat.lt_of_lt_of_eq t.isLt N_0

/-- The input block at a point is the point's rows of the input array. -/
theorem readX (c : Dev nD) (t : Fin cfg0.N) (p : Fin 10000) (k : Fin 64) (h : t.val * 10000 + p.val < 100000) :
    iblk0 V c 0 t (ix2 p k) = V c main_arg0 (ix2 ⟨t.val * 10000 + p.val, h⟩ k) := by
  show V c main_arg0 (((cfg0.win 0).blk t).view.emb (ix2 p k)) = _
  obtain ⟨e0, e1, -⟩ := blockIndex t
  refine congrArg (V c main_arg0) (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

/-- The weight block at every point is the whole weight. -/
theorem readW (c : Dev nD) (t : Fin cfg0.N) (k : Fin 64) (q : Fin 64) :
    iblk0 V c 1 t (ix2 k q) = V c main_arg4 (ix2 k q) := by
  show V c main_arg4 (((cfg0.win 1).blk t).view.emb (ix2 k q)) = _
  obtain ⟨-, -, e0, e1, -⟩ := blockIndex t
  refine congrArg (V c main_arg4) (funext fun a => Fin.ext ?_)
  match a with
  | ⟨0, _⟩ => show win0_1.index t (0 : Fin 2) * 64 + 1 * k.val = k.val; rw [e0]; omega
  | ⟨1, _⟩ => show win0_1.index t (1 : Fin 2) * 64 + 1 * q.val = q.val; rw [e1]; omega

/-- The bias block at every point is the whole bias row. -/
theorem readB (c : Dev nD) (t : Fin cfg0.N) (q : Fin 64) :
    iblk0 V c 2 t (ix2 (0 : Fin 1) q) = V c main_v0 (ix2 (0 : Fin 1) q) := by
  show V c main_v0 (((cfg0.win 2).blk t).view.emb (ix2 (0 : Fin 1) q)) = _
  obtain ⟨-, -, -, -, e0, e1, -⟩ := blockIndex t
  refine congrArg (V c main_v0) (funext fun a => Fin.ext ?_)
  match a with
  | ⟨0, _⟩ => show win0_2.index t (0 : Fin 2) * 1 + 1 * 0 = 0; rw [e0]
  | ⟨1, _⟩ => show win0_2.index t (1 : Fin 2) * 64 + 1 * q.val = q.val; rw [e1]; omega

/-- Entry `(p, q)` of the output block of point `t` sits at row `10000 t + p` of the array. -/
theorem outAt (t : Fin cfg0.N) (p : Fin 10000) (q : Fin 64) (h : t.val * 10000 + p.val < 100000) :
    ((cfg0.win 3).blk t).view.emb (ix2 p q) = (ix2 ⟨t.val * 10000 + p.val, h⟩ q : S100000x64.Idx) := by
  obtain ⟨-, -, -, -, -, -, e0, e1⟩ := blockIndex t
  refine funext fun a => Fin.ext ?_
  match a with
  | ⟨0, _⟩ => show win0_3.index t (0 : Fin 2) * 10000 + 1 * p.val = t.val * 10000 + p.val; rw [e0]; omega
  | ⟨1, _⟩ => show win0_3.index t (1 : Fin 2) * 64 + 1 * q.val = q.val; rw [e1]; omega

/-- WHAT POINT `t` WRITES BACK is block `t` of the layer's whole-array function of the arrays as the launch finds them. -/
theorem flushed_eq (c : Dev nD) (t : Fin cfg0.N) :
    (dat0 V c).flushed 3 t = ((cfg0.win 3).blk t).view.read (Elt Ideal)
      (Cert.Spec.dense1 100000 64 64 (V c main_arg0) (V c main_arg4) (V c main_v0)) := by
  show (cfg0.win 3).cut (grid0.coords t) ((dat0 V c).after 3 t) = _
  rw [after0_3]
  unfold out0_3
  rw [View.canon_unit_zero origin]
  simp only [View.ld_unit_zero (S := S10000x64) origin, View.ld_unit_zero (S := S64x64) origin, View.ld_unit_zero (S := S1x64) origin]
  funext j
  obtain ⟨p, q, rfl⟩ : ∃ (p : Fin 10000) (q : Fin 64), j = ix2 p q := ⟨j 0, j 1, eq_ix2 j⟩
  have hrow : t.val * 10000 + p.val < 100000 := by have := point_lt t; have := p.isLt; omega
  show k0_pay1 (F := Ideal) (iblk0 V c 0 t) (iblk0 V c 1 t) (iblk0 V c 2 t) (ix2 p q)
    = Cert.Spec.dense1 100000 64 64 (V c main_arg0) (V c main_arg4) (V c main_v0) (((cfg0.win 3).blk t).view.emb (ix2 p q))
  rw [outAt t p q hrow]
  refine (stored_apply (iblk0 V c 0 t) (iblk0 V c 1 t) (iblk0 V c 2 t) p q).trans ?_
  unfold Cert.Spec.dense1 Cert.Spec.prod
  rw [readB V c t q]
  refine congrArg (fun s => max (s + V c main_v0 (ix2 (0 : Fin 1) q)) 0) (Finset.sum_congr rfl fun k _ => ?_)
  rw [readX V c t p k hrow, readW V c t k q]

/-- An index of the array is in point `t`'s output block iff each coordinate is in the block's range on its axis. -/
theorem mem_block (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v1).slice (win0_3.rect t)).set ↔ _
  rw [View.set_slice_whole, Rect.mem_set_unit]
  exact Iff.rfl

/-- Every entry of the output is in the block of the point `row / 10000`. -/
theorem covered (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := ⟨(i 0).val / 10000, by rw [show cfg0.N = 10 from N_0]; omega⟩
  have ht : t.val = (i 0).val / 10000 := rfl
  obtain ⟨-, -, -, -, -, -, e0, e1⟩ := blockIndex t
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; rw [e0, ht]; omega
  | ⟨1, _⟩ => show win0_3.index t (1 : Fin 2) * 64 ≤ (i 1).val ∧ (i 1).val < win0_3.index t (1 : Fin 2) * 64 + 64; rw [e1]; omega

/-- THE OUTPUT ARRAY after the launch: the layer's function of the three arrays the launch reads, whole. -/
theorem final (c : Dev nD) :
    (dat0 V c).arrAt 3 cfg0.N = Cert.Spec.dense1 100000 64 64 (V c main_arg0) (V c main_arg4) (V c main_v0) :=
  (dat0 V c).arrAt_eq_of_cover 3 _ (fun t _ => flushed_eq V c t) (covered)

end Cert.KernelIdeal.NodeEnc

end
-- ==== Proof.Region1.lean ====
/-
  The edge encoder's launch, read as a value: after the hundred grid points have run, the output array is
  `max (x · w + b, 0)` of the three arrays the launch reads, whole.  Grid point `t` is handed rows
  `16000 t … 16000 t + 15999` of `x` (32 columns), all of `w` and the one row `b`; the product is the plain sum
  over the 32 contracted columns; the hundred blocks tile the array.
-/
import proofs.«400771_j49452253447022_2_alg».proof.Proof.Gen.KernelIdeal.Frame
import proofs.«400771_j49452253447022_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.EdgeEnc

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The block product at an index -/

theorem lhs_axis0 (i : S16000x64.Idx) (q : dot_S16000x32_S32x64_S16000x64_1_0_0_1_n_n.contr.Idx) :
    (dot_S16000x32_S32x64_S16000x64_1_0_0_1_n_n.lhsIdx i q 0).val = (i 0).val := by
  unfold DotDims.lhsIdx
  rw [dif_neg (show ¬(0 : Fin S16000x32.rank) ∈ dot_S16000x32_S32x64_S16000x64_1_0_0_1_n_n.lhsBatch by decide), dif_pos (show (0 : Fin S16000x32.rank) ∈ dot_S16000x32_S32x64_S16000x64_1_0_0_1_n_n.lhsNonContracting by decide)]
  rfl
theorem lhs_axis1 (i : S16000x64.Idx) (q : dot_S16000x32_S32x64_S16000x64_1_0_0_1_n_n.contr.Idx) :
    (dot_S16000x32_S32x64_S16000x64_1_0_0_1_n_n.lhsIdx i q 1).val = (q ⟨0, by decide⟩).val :=
  dot_S16000x32_S32x64_S16000x64_1_0_0_1_n_n.lhsIdx_val_of_single rfl i q
theorem rhs_axis0 (i : S16000x64.Idx) (q : dot_S16000x32_S32x64_S16000x64_1_0_0_1_n_n.contr.Idx) :
    (dot_S16000x32_S32x64_S16000x64_1_0_0_1_n_n.rhsIdx i q 0).val = (q ⟨0, by decide⟩).val :=
  dot_S16000x32_S32x64_S16000x64_1_0_0_1_n_n.rhsIdx_val_of_single rfl i q
theorem rhs_axis1 (i : S16000x64.Idx) (q : dot_S16000x32_S32x64_S16000x64_1_0_0_1_n_n.contr.Idx) :
    (dot_S16000x32_S32x64_S16000x64_1_0_0_1_n_n.rhsIdx i q 1).val = (i 1).val := by
  unfold DotDims.rhsIdx
  rw [dif_neg (show ¬(1 : Fin S32x64.rank) ∈ dot_S16000x32_S32x64_S16000x64_1_0_0_1_n_n.rhsBatch by decide), dif_pos (show (1 : Fin S32x64.rank) ∈ dot_S16000x32_S32x64_S16000x64_1_0_0_1_n_n.rhsNonContracting by decide)]
  rfl

/-- The matrix unit's product of a block with the weight, accumulated into zero, at entry `(p, q)`: the sum over
    the contracted axis. -/
theorem blockProd_apply {φ₁ φ₂ : FTy} (x : FVec Ideal S16000x32 φ₁) (w : FVec Ideal S32x64 φ₂) (p : Fin 16000) (q : Fin 64) :
    FloatOps.matmul dot_S16000x32_S32x64_S16000x64_1_0_0_1_n_n none x w (constant S16000x64 .f32 0x00000000#32) (ix2 p q)
      = ∑ k : Fin 32, x (ix2 p k) * w (ix2 k q) := by
  rw [Ideal.matmul_constant_zero_apply, ← Equiv.sum_comp (contrEquiv1 dot_S16000x32_S32x64_S16000x64_1_0_0_1_n_n 32 rfl rfl).symm]
  refine Finset.sum_congr rfl fun k _ => ?_
  have hk := contrEquiv1_symm_val dot_S16000x32_S32x64_S16000x64_1_0_0_1_n_n 32 rfl rfl k
  have el : dot_S16000x32_S32x64_S16000x64_1_0_0_1_n_n.lhsIdx (ix2 p q) ((contrEquiv1 dot_S16000x32_S32x64_S16000x64_1_0_0_1_n_n 32 rfl rfl).symm k) = ix2 p k := funext fun a => Fin.ext (by
    match a with
    | ⟨0, _⟩ => exact lhs_axis0 _ _
    | ⟨1, _⟩ => exact (lhs_axis1 _ _).trans hk)
  have er : dot_S16000x32_S32x64_S16000x64_1_0_0_1_n_n.rhsIdx (ix2 p q) ((contrEquiv1 dot_S16000x32_S32x64_S16000x64_1_0_0_1_n_n 32 rfl rfl).symm k) = ix2 k q := funext fun a => Fin.ext (by
    match a with
    | ⟨0, _⟩ => exact (rhs_axis0 _ _).trans hk
    | ⟨1, _⟩ => exact rhs_axis1 _ _)
  rw [el, er]

/-- What the body stores, at entry `(p, q)` of the block: the affine map's entry, cut at zero. -/
theorem stored_apply (x0 : FVec Ideal S16000x32 .f32) (x1 : FVec Ideal S32x64 .f32) (x2 : FVec Ideal S1x64 .f32)
    (p : Fin 16000) (q : Fin 64) :
    k1_pay1 (F := Ideal) x0 x1 x2 (ix2 p q) = max ((∑ k : Fin 32, x0 (ix2 p k) * x1 (ix2 k q)) + x2 (ix2 0 q)) 0 := by
  unfold k1_pay1
  show max (FloatOps.matmul dot_S16000x32_S32x64_S16000x64_1_0_0_1_n_n none (truncf .bf16 x0 bitsLt_bf16_f32) (truncf .bf16 x1 bitsLt_bf16_f32)
        (constant S16000x64 .f32 0x00000000#32) (ix2 p q)
      + broadcastTo S16000x64 (shapeCast S1x64 x2 shapeCasts_S1x64_S1x64) broadcasts_S1x64_S16000x64 (ix2 p q))
    (Ideal.ofBits .f32 0x00000000#32) = _
  rw [blockProd_apply, broadcastTo_1b_ab_apply, shapeCast_self, Ideal.ofBits_zero_f32]
  rfl

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row blocks of the input and of the output move with the point, the
    weight and the bias stay. -/
theorem blockIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 100 := Nat.lt_of_lt_of_eq t.isLt N_1

/-- The input block at a point is the point's rows of the input array. -/
theorem readX (c : Dev nD) (t : Fin cfg1.N) (p : Fin 16000) (k : Fin 32) (h : t.val * 16000 + p.val < 1600000) :
    iblk1 V c 0 t (ix2 p k) = V c main_arg2 (ix2 ⟨t.val * 16000 + p.val, h⟩ k) := by
  show V c main_arg2 (((cfg1.win 0).blk t).view.emb (ix2 p k)) = _
  obtain ⟨e0, e1, -⟩ := blockIndex t
  refine congrArg (V c main_arg2) (funext fun a => Fin.ext ?_)
  match a with
  | ⟨0, _⟩ => show win1_0.index t (0 : Fin 2) * 16000 + 1 * p.val = t.val * 16000 + p.val; rw [e0]; omega
  | ⟨1, _⟩ => show win1_0.index t (1 : Fin 2) * 32 + 1 * k.val = k.val; rw [e1]; omega

/-- The weight block at every point is the whole weight. -/
theorem readW (c : Dev nD) (t : Fin cfg1.N) (k : Fin 32) (q : Fin 64) :
    iblk1 V c 1 t (ix2 k q) = V c main_arg6 (ix2 k q) := by
  show V c main_arg6 (((cfg1.win 1).blk t).view.emb (ix2 k q)) = _
  obtain ⟨-, -, e0, e1, -⟩ := blockIndex t
  refine congrArg (V c main_arg6) (funext fun a => Fin.ext ?_)
  match a with
  | ⟨0, _⟩ => show win1_1.index t (0 : Fin 2) * 32 + 1 * k.val = k.val; rw [e0]; omega
  | ⟨1, _⟩ => show win1_1.index t (1 : Fin 2) * 64 + 1 * q.val = q.val; rw [e1]; omega

/-- The bias block at every point is the whole bias row. -/
theorem readB (c : Dev nD) (t : Fin cfg1.N) (q : Fin 64) :
    iblk1 V c 2 t (ix2 (0 : Fin 1) q) = V c main_v2 (ix2 (0 : Fin 1) q) := by
  show V c main_v2 (((cfg1.win 2).blk t).view.emb (ix2 (0 : Fin 1) q)) = _
  obtain ⟨-, -, -, -, e0, e1, -⟩ := blockIndex t
  refine congrArg (V c main_v2) (funext fun a => Fin.ext ?_)
  match a with
  | ⟨0, _⟩ => show win1_2.index t (0 : Fin 2) * 1 + 1 * 0 = 0; rw [e0]
  | ⟨1, _⟩ => show win1_2.index t (1 : Fin 2) * 64 + 1 * q.val = q.val; rw [e1]; omega

/-- Entry `(p, q)` of the output block of point `t` sits at row `16000 t + p` of the array. -/
theorem outAt (t : Fin cfg1.N) (p : Fin 16000) (q : Fin 64) (h : t.val * 16000 + p.val < 1600000) :
    ((cfg1.win 3).blk t).view.emb (ix2 p q) = (ix2 ⟨t.val * 16000 + p.val, h⟩ q : S1600000x64.Idx) := by
  obtain ⟨-, -, -, -, -, -, e0, e1⟩ := blockIndex t
  refine funext fun a => Fin.ext ?_
  match a with
  | ⟨0, _⟩ => show win1_3.index t (0 : Fin 2) * 16000 + 1 * p.val = t.val * 16000 + p.val; rw [e0]; omega
  | ⟨1, _⟩ => show win1_3.index t (1 : Fin 2) * 64 + 1 * q.val = q.val; rw [e1]; omega

/-- WHAT POINT `t` WRITES BACK is block `t` of the layer's whole-array function of the arrays as the launch finds them. -/
theorem flushed_eq (c : Dev nD) (t : Fin cfg1.N) :
    (dat1 V c).flushed 3 t = ((cfg1.win 3).blk t).view.read (Elt Ideal)
      (Cert.Spec.dense1 1600000 32 64 (V c main_arg2) (V c main_arg6) (V c main_v2)) := by
  show (cfg1.win 3).cut (grid1.coords t) ((dat1 V c).after 3 t) = _
  rw [after1_3]
  unfold out1_3
  rw [View.canon_unit_zero origin]
  simp only [View.ld_unit_zero (S := S16000x32) origin, View.ld_unit_zero (S := S32x64) origin, View.ld_unit_zero (S := S1x64) origin]
  funext j
  obtain ⟨p, q, rfl⟩ : ∃ (p : Fin 16000) (q : Fin 64), j = ix2 p q := ⟨j 0, j 1, eq_ix2 j⟩
  have hrow : t.val * 16000 + p.val < 1600000 := by have := point_lt t; have := p.isLt; omega
  show k1_pay1 (F := Ideal) (iblk1 V c 0 t) (iblk1 V c 1 t) (iblk1 V c 2 t) (ix2 p q)
    = Cert.Spec.dense1 1600000 32 64 (V c main_arg2) (V c main_arg6) (V c main_v2) (((cfg1.win 3).blk t).view.emb (ix2 p q))
  rw [outAt t p q hrow]
  refine (stored_apply (iblk1 V c 0 t) (iblk1 V c 1 t) (iblk1 V c 2 t) p q).trans ?_
  unfold Cert.Spec.dense1 Cert.Spec.prod
  rw [readB V c t q]
  refine congrArg (fun s => max (s + V c main_v2 (ix2 (0 : Fin 1) q)) 0) (Finset.sum_congr rfl fun k _ => ?_)
  rw [readX V c t p k hrow, readW V c t k q]

/-- An index of the array is in point `t`'s output block iff each coordinate is in the block's range on its axis. -/
theorem mem_block (t : Fin cfg1.N) (i : S1600000x64.Idx) :
    i ∈ ((cfg1.win 3).blk t).view.set ↔ ∀ a : Fin 2, win1_3.index t a * S16000x64.size a ≤ (i a).val ∧ (i a).val < win1_3.index t a * S16000x64.size a + S16000x64.size a := by
  show i ∈ ((View.whole main_v3).slice (win1_3.rect t)).set ↔ _
  rw [View.set_slice_whole, Rect.mem_set_unit]
  exact Iff.rfl

/-- Every entry of the output is in the block of the point `row / 16000`. -/
theorem covered (i : S1600000x64.Idx) : ∃ t : Fin cfg1.N, (cfg1.win 3).flush t = true ∧ i ∈ ((cfg1.win 3).blk t).view.set := by
  have hi0 : (i 0).val < 1600000 := (i 0).isLt
  have hi1 : (i 1).val < 64 := (i 1).isLt
  let t : Fin cfg1.N := ⟨(i 0).val / 16000, by rw [show cfg1.N = 100 from N_1]; omega⟩
  have ht : t.val = (i 0).val / 16000 := rfl
  obtain ⟨-, -, -, -, -, -, e0, e1⟩ := blockIndex t
  refine ⟨t, flush1_3 t, ?_⟩
  rw [mem_block]
  intro a
  match a with
  | ⟨0, _⟩ => show win1_3.index t (0 : Fin 2) * 16000 ≤ (i 0).val ∧ (i 0).val < win1_3.index t (0 : Fin 2) * 16000 + 16000; rw [e0, ht]; omega
  | ⟨1, _⟩ => show win1_3.index t (1 : Fin 2) * 64 ≤ (i 1).val ∧ (i 1).val < win1_3.index t (1 : Fin 2) * 64 + 64; rw [e1]; omega

/-- THE OUTPUT ARRAY after the launch: the layer's function of the three arrays the launch reads, whole. -/
theorem final (c : Dev nD) :
    (dat1 V c).arrAt 3 cfg1.N = Cert.Spec.dense1 1600000 32 64 (V c main_arg2) (V c main_arg6) (V c main_v2) :=
  (dat1 V c).arrAt_eq_of_cover 3 _ (fun t _ => flushed_eq V c t) (covered)

end Cert.KernelIdeal.EdgeEnc

end
-- ==== Proof.Region2.lean ====
/-
  The first message layer's launch, read as a value: after the two hundred grid points have run, the output array is
  `max ((x₁ · w₁ + x₂ · w₂) + b, 0)` of the five arrays the launch reads, whole.  Grid point `t` is handed rows
  `8000 t … 8000 t + 7999` of the gathered node rows `x₁` and of the edge states `x₂`, both weights whole and the one
  row `b`; each product is the plain sum over the 64 contracted columns; the two hundred blocks tile the array.
-/
import proofs.«400771_j49452253447022_2_alg».proof.Proof.Region0

set_option maxRecDepth 16384

noncomputable section

open scoped BigOperators

namespace Cert.KernelIdeal.Message0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The block product at an index -/

theorem lhs_axis0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs_axis1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs_axis0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs_axis1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- The matrix unit's product of a block with the weight, accumulated into zero, at entry `(p, q)`: the sum over
    the contracted axis. -/
theorem blockProd_apply {φ₁ φ₂ : FTy} (x : FVec Ideal S8000x64 φ₁) (w : FVec Ideal S64x64 φ₂) (p : Fin 8000) (q : Fin 64) :
    FloatOps.matmul dot_S8000x64_S64x64_S8000x64_1_0_0_1_n_n none x w (constant S8000x64 .f32 0x00000000#32) (ix2 p q)
      = ∑ k : Fin 64, x (ix2 p k) * w (ix2 k q) := by
  rw [Ideal.matmul_constant_zero_apply, ← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 p q) ((contrEquiv1 dot_S8000x64_S64x64_S8000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S8000x64_S64x64_S8000x64_1_0_0_1_n_n.rhsIdx (ix2 p q) ((contrEquiv1 dot_S8000x64_S64x64_S8000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- What the body stores, at entry `(p, q)` of the block: the two products' entries added, then the bias, cut at zero. -/
theorem stored_apply (x1 : FVec Ideal S8000x64 .f32) (w1 : FVec Ideal S64x64 .f32) (x2 : FVec Ideal S8000x64 .f32)
    (w2 : FVec Ideal S64x64 .f32) (b : FVec Ideal S1x64 .f32) (p : Fin 8000) (q : Fin 64) :
    k2_pay1 (F := Ideal) x1 w1 x2 w2 b (ix2 p q)
      = max (((∑ k : Fin 64, x1 (ix2 p k) * w1 (ix2 k q)) + (∑ k : Fin 64, x2 (ix2 p k) * w2 (ix2 k q))) + b (ix2 0 q)) 0 := by
  unfold k2_pay1
  show max ((FloatOps.matmul dot_S8000x64_S64x64_S8000x64_1_0_0_1_n_n none
          (truncf .bf16 (shapeCast S8000x64 x1 shapeCasts_S8000x64_S8000x64) bitsLt_bf16_f32)
          (truncf .bf16 (shapeCast S64x64 w1 shapeCasts_S64x64_S64x64) bitsLt_bf16_f32)
          (constant S8000x64 .f32 0x00000000#32) (ix2 p q)
        + FloatOps.matmul dot_S8000x64_S64x64_S8000x64_1_0_0_1_n_n none
          (truncf .bf16 (shapeCast S8000x64 x2 shapeCasts_S8000x64_S8000x64) bitsLt_bf16_f32)
          (truncf .bf16 (shapeCast S64x64 w2 shapeCasts_S64x64_S64x64) bitsLt_bf16_f32)
          (constant S8000x64 .f32 0x00000000#32) (ix2 p q))
      + broadcastTo S8000x64 (shapeCast S1x64 b shapeCasts_S1x64_S1x64) broadcasts_S1x64_S8000x64 (ix2 p q))
    (Ideal.ofBits .f32 0x00000000#32) = _
  rw [blockProd_apply, blockProd_apply, broadcastTo_1b_ab_apply, Ideal.ofBits_zero_f32]
  simp only [shapeCast_self]
  rfl

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row blocks of the two inputs and of the output move with the point,
    the weights and the bias stay. -/
theorem blockIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem point_lt (t : Fin cfg2.N) : t.val < 200 := Nat.lt_of_lt_of_eq t.isLt N_2

/-- The first input's block at a point is the point's rows of its array. -/
theorem readX1 (c : Dev nD) (t : Fin cfg2.N) (p : Fin 8000) (k : Fin 64) (h : t.val * 8000 + p.val < 1600000) :
    iblk2 V c 0 t (ix2 p k) = V c main_v8 (ix2 ⟨t.val * 8000 + p.val, h⟩ k) := by
  show V c main_v8 (((cfg2.win 0).blk t).view.emb (ix2 p k)) = _
  obtain ⟨e0, e1, -⟩ := blockIndex t
  refine congrArg (V c main_v8) (funext fun a => Fin.ext ?_)
  match a with
  | ⟨0, _⟩ => show win2_0.index t (0 : Fin 2) * 8000 + 1 * p.val = t.val * 8000 + p.val; rw [e0]; omega
  | ⟨1, _⟩ => show win2_0.index t (1 : Fin 2) * 64 + 1 * k.val = k.val; rw [e1]; omega

/-- The first weight's block at every point is the whole weight. -/
theorem readW1 (c : Dev nD) (t : Fin cfg2.N) (k : Fin 64) (q : Fin 64) :
    iblk2 V c 1 t (ix2 k q) = V c main_v10 (ix2 k q) := by
  show V c main_v10 (((cfg2.win 1).blk t).view.emb (ix2 k q)) = _
  obtain ⟨-, -, e0, e1, -⟩ := blockIndex t
  refine congrArg (V c main_v10) (funext fun a => Fin.ext ?_)
  match a with
  | ⟨0, _⟩ => show win2_1.index t (0 : Fin 2) * 64 + 1 * k.val = k.val; rw [e0]; omega
  | ⟨1, _⟩ => show win2_1.index t (1 : Fin 2) * 64 + 1 * q.val = q.val; rw [e1]; omega

/-- The second input's block at a point is the point's rows of its array. -/
theorem readX2 (c : Dev nD) (t : Fin cfg2.N) (p : Fin 8000) (k : Fin 64) (h : t.val * 8000 + p.val < 1600000) :
    iblk2 V c 2 t (ix2 p k) = V c main_v3 (ix2 ⟨t.val * 8000 + p.val, h⟩ k) := by
  show V c main_v3 (((cfg2.win 2).blk t).view.emb (ix2 p k)) = _
  obtain ⟨-, -, -, -, e0, e1, -⟩ := blockIndex t
  refine congrArg (V c main_v3) (funext fun a => Fin.ext ?_)
  match a with
  | ⟨0, _⟩ => show win2_2.index t (0 : Fin 2) * 8000 + 1 * p.val = t.val * 8000 + p.val; rw [e0]; omega
  | ⟨1, _⟩ => show win2_2.index t (1 : Fin 2) * 64 + 1 * k.val = k.val; rw [e1]; omega

/-- The second weight's block at every point is the whole weight. -/
theorem readW2 (c : Dev nD) (t : Fin cfg2.N) (k : Fin 64) (q : Fin 64) :
    iblk2 V c 3 t (ix2 k q) = V c main_v12 (ix2 k q) := by
  show V c main_v12 (((cfg2.win 3).blk t).view.emb (ix2 k q)) = _
  obtain ⟨-, -, -, -, -, -, e0, e1, -⟩ := blockIndex t
  refine congrArg (V c main_v12) (funext fun a => Fin.ext ?_)
  match a with
  | ⟨0, _⟩ => show win2_3.index t (0 : Fin 2) * 64 + 1 * k.val = k.val; rw [e0]; omega
  | ⟨1, _⟩ => show win2_3.index t (1 : Fin 2) * 64 + 1 * q.val = q.val; rw [e1]; omega

/-- The bias block at every point is the whole bias row. -/
theorem readB (c : Dev nD) (t : Fin cfg2.N) (q : Fin 64) :
    iblk2 V c 4 t (ix2 (0 : Fin 1) q) = V c main_v15 (ix2 (0 : Fin 1) q) := by
  show V c main_v15 (((cfg2.win 4).blk t).view.emb (ix2 (0 : Fin 1) q)) = _
  obtain ⟨-, -, -, -, -, -, -, -, e0, e1, -⟩ := blockIndex t
  refine congrArg (V c main_v15) (funext fun a => Fin.ext ?_)
  match a with
  | ⟨0, _⟩ => show win2_4.index t (0 : Fin 2) * 1 + 1 * 0 = 0; rw [e0]
  | ⟨1, _⟩ => show win2_4.index t (1 : Fin 2) * 64 + 1 * q.val = q.val; rw [e1]; omega

/-- Entry `(p, q)` of the output block of point `t` sits at row `8000 t + p` of the array. -/
theorem outAt (t : Fin cfg2.N) (p : Fin 8000) (q : Fin 64) (h : t.val * 8000 + p.val < 1600000) :
    ((cfg2.win 5).blk t).view.emb (ix2 p q) = (ix2 ⟨t.val * 8000 + p.val, h⟩ q : S1600000x64.Idx) := by
  obtain ⟨-, -, -, -, -, -, -, -, -, -, e0, e1⟩ := blockIndex t
  refine funext fun a => Fin.ext ?_
  match a with
  | ⟨0, _⟩ => show win2_5.index t (0 : Fin 2) * 8000 + 1 * p.val = t.val * 8000 + p.val; rw [e0]; omega
  | ⟨1, _⟩ => show win2_5.index t (1 : Fin 2) * 64 + 1 * q.val = q.val; rw [e1]; omega

/-- WHAT POINT `t` WRITES BACK is block `t` of the layer's whole-array function of the arrays as the launch finds them. -/
theorem flushed_eq (c : Dev nD) (t : Fin cfg2.N) :
    (dat2 V c).flushed 5 t = ((cfg2.win 5).blk t).view.read (Elt Ideal)
      (Cert.Spec.dense2 1600000 64 64 (V c main_v8) (V c main_v10) (V c main_v3) (V c main_v12) (V c main_v15)) := by
  show (cfg2.win 5).cut (grid2.coords t) ((dat2 V c).after 5 t) = _
  rw [after2_5]
  unfold out2_5
  rw [View.canon_unit_zero origin]
  simp only [View.ld_unit_zero (S := S8000x64) origin, View.ld_unit_zero (S := S64x64) origin, View.ld_unit_zero (S := S1x64) origin]
  funext j
  obtain ⟨p, q, rfl⟩ : ∃ (p : Fin 8000) (q : Fin 64), j = ix2 p q := ⟨j 0, j 1, eq_ix2 j⟩
  have hrow : t.val * 8000 + p.val < 1600000 := by have := point_lt t; have := p.isLt; omega
  show k2_pay1 (F := Ideal) (iblk2 V c 0 t) (iblk2 V c 1 t) (iblk2 V c 2 t) (iblk2 V c 3 t) (iblk2 V c 4 t) (ix2 p q)
    = Cert.Spec.dense2 1600000 64 64 (V c main_v8) (V c main_v10) (V c main_v3) (V c main_v12) (V c main_v15) (((cfg2.win 5).blk t).view.emb (ix2 p q))
  rw [outAt t p q hrow]
  refine (stored_apply (iblk2 V c 0 t) (iblk2 V c 1 t) (iblk2 V c 2 t) (iblk2 V c 3 t) (iblk2 V c 4 t) p q).trans ?_
  unfold Cert.Spec.dense2 Cert.Spec.prod
  rw [readB V c t q]
  refine congrArg (fun s => max (s + V c main_v15 (ix2 (0 : Fin 1) q)) 0) ?_
  refine congrArg₂ (fun s₁ s₂ : EReal => s₁ + s₂) (Finset.sum_congr rfl fun k _ => ?_) (Finset.sum_congr rfl fun k _ => ?_)
  · rw [readX1 V c t p k hrow, readW1 V c t k q]
  · rw [readX2 V c t p k hrow, readW2 V c t k q]

/-- An index of the array is in point `t`'s output block iff each coordinate is in the block's range on its axis. -/
theorem mem_block (t : Fin cfg2.N) (i : S1600000x64.Idx) :
    i ∈ ((cfg2.win 5).blk t).view.set ↔ ∀ a : Fin 2, win2_5.index t a * S8000x64.size a ≤ (i a).val ∧ (i a).val < win2_5.index t a * S8000x64.size a + S8000x64.size a := by
  show i ∈ ((View.whole main_v16).slice (win2_5.rect t)).set ↔ _
  rw [View.set_slice_whole, Rect.mem_set_unit]
  exact Iff.rfl

/-- Every entry of the output is in the block of the point `row / 8000`. -/
theorem covered (i : S1600000x64.Idx) : ∃ t : Fin cfg2.N, (cfg2.win 5).flush t = true ∧ i ∈ ((cfg2.win 5).blk t).view.set := by
  have hi0 : (i 0).val < 1600000 := (i 0).isLt
  have hi1 : (i 1).val < 64 := (i 1).isLt
  let t : Fin cfg2.N := ⟨(i 0).val / 8000, by rw [show cfg2.N = 200 from N_2]; omega⟩
  have ht : t.val = (i 0).val / 8000 := rfl
  obtain ⟨-, -, -, -, -, -, -, -, -, -, e0, e1⟩ := blockIndex t
  refine ⟨t, flush2_5 t, ?_⟩
  rw [mem_block]
  intro a
  match a with
  | ⟨0, _⟩ => show win2_5.index t (0 : Fin 2) * 8000 ≤ (i 0).val ∧ (i 0).val < win2_5.index t (0 : Fin 2) * 8000 + 8000; rw [e0, ht]; omega
  | ⟨1, _⟩ => show win2_5.index t (1 : Fin 2) * 64 ≤ (i 1).val ∧ (i 1).val < win2_5.index t (1 : Fin 2) * 64 + 64; rw [e1]; omega

/-- THE OUTPUT ARRAY after the launch: the layer's function of the five arrays the launch reads, whole. -/
theorem final (c : Dev nD) :
    (dat2 V c).arrAt 5 cfg2.N
      = Cert.Spec.dense2 1600000 64 64 (V c main_v8) (V c main_v10) (V c main_v3) (V c main_v12) (V c main_v15) :=
  (dat2 V c).arrAt_eq_of_cover 5 _ (fun t _ => flushed_eq V c t) (covered)

end Cert.KernelIdeal.Message0

end
-- ==== Proof.Region3.lean ====
/-
  The first node-update layer's launch, read as a value: after the ten grid points have run, the output
  array is `max ((x₁ · w₁ + x₂ · w₂) + b, 0)` of the five arrays the launch reads, whole.

  Grid point `t` is handed rows `10000 t … 10000 t + 9999` of `x₁` and of `x₂`, both weights whole and the
  one row `b`, and writes back the same rows of the output.  Each product is the matrix unit's, accumulated into
  zero: at the exact values the plain sum over the 64 contracted columns.  The two products are added first and
  the bias row last, as the whole-array function has them, so entry `(p, q)` of the block is entry
  `(10000 t + p, q)` of that function; the ten blocks tile the array, so every entry is written, by the point
  `t = row / 10000`.
-/
import proofs.«400771_j49452253447022_2_alg».proof.Proof.Region0

set_option maxRecDepth 16384

noncomputable section

open scoped BigOperators

namespace Cert.KernelIdeal.Update0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- What the body stores, at entry `(p, q)` of the block: the two products' entries added, then the bias, cut at zero. -/
theorem stored_apply (x1 : FVec Ideal S10000x64 .f32) (w1 : FVec Ideal S64x64 .f32) (x2 : FVec Ideal S10000x64 .f32)
    (w2 : FVec Ideal S64x64 .f32) (b : FVec Ideal S1x64 .f32) (p : Fin 10000) (q : Fin 64) :
    k3_pay1 (F := Ideal) x1 w1 x2 w2 b (ix2 p q)
      = max (((∑ k : Fin 64, x1 (ix2 p k) * w1 (ix2 k q)) + (∑ k : Fin 64, x2 (ix2 p k) * w2 (ix2 k q))) + b (ix2 0 q)) 0 := by
  unfold k3_pay1
  show max ((FloatOps.matmul dot_S10000x64_S64x64_S10000x64_1_0_0_1_n_n none
          (truncf .bf16 (shapeCast S10000x64 x1 shapeCasts_S10000x64_S10000x64) bitsLt_bf16_f32)
          (truncf .bf16 (shapeCast S64x64 w1 shapeCasts_S64x64_S64x64) bitsLt_bf16_f32)
          (constant S10000x64 .f32 0x00000000#32) (ix2 p q)
        + FloatOps.matmul dot_S10000x64_S64x64_S10000x64_1_0_0_1_n_n none
          (truncf .bf16 (shapeCast S10000x64 x2 shapeCasts_S10000x64_S10000x64) bitsLt_bf16_f32)
          (truncf .bf16 (shapeCast S64x64 w2 shapeCasts_S64x64_S64x64) bitsLt_bf16_f32)
          (constant S10000x64 .f32 0x00000000#32) (ix2 p q))
      + broadcastTo S10000x64 (shapeCast S1x64 b shapeCasts_S1x64_S1x64) broadcasts_S1x64_S10000x64 (ix2 p q))
    (Ideal.ofBits .f32 0x00000000#32) = _
  rw [NodeEnc.blockProd_apply, NodeEnc.blockProd_apply, broadcastTo_1b_ab_apply, Ideal.ofBits_zero_f32]
  simp only [shapeCast_self]
  rfl

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row blocks of the two inputs and of the output move with the point,
    the weights and the bias stay. -/
theorem blockIndex : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem point_lt (t : Fin cfg3.N) : t.val < 10 := Nat.lt_of_lt_of_eq t.isLt N_3

/-- The first input's block at a point is the point's rows of its array. -/
theorem readX1 (c : Dev nD) (t : Fin cfg3.N) (p : Fin 10000) (k : Fin 64) (h : t.val * 10000 + p.val < 100000) :
    iblk3 V c 0 t (ix2 p k) = V c main_v1 (ix2 ⟨t.val * 10000 + p.val, h⟩ k) := by
  show V c main_v1 (((cfg3.win 0).blk t).view.emb (ix2 p k)) = _
  obtain ⟨e0, e1, -⟩ := blockIndex t
  refine congrArg (V c main_v1) (funext fun a => Fin.ext ?_)
  match a with
  | ⟨0, _⟩ => show win3_0.index t (0 : Fin 2) * 10000 + 1 * p.val = t.val * 10000 + p.val; rw [e0]; omega
  | ⟨1, _⟩ => show win3_0.index t (1 : Fin 2) * 64 + 1 * k.val = k.val; rw [e1]; omega

/-- The first weight's block at every point is the whole weight. -/
theorem readW1 (c : Dev nD) (t : Fin cfg3.N) (k : Fin 64) (q : Fin 64) :
    iblk3 V c 1 t (ix2 k q) = V c main_v21 (ix2 k q) := by
  show V c main_v21 (((cfg3.win 1).blk t).view.emb (ix2 k q)) = _
  obtain ⟨-, -, e0, e1, -⟩ := blockIndex t
  refine congrArg (V c main_v21) (funext fun a => Fin.ext ?_)
  match a with
  | ⟨0, _⟩ => show win3_1.index t (0 : Fin 2) * 64 + 1 * k.val = k.val; rw [e0]; omega
  | ⟨1, _⟩ => show win3_1.index t (1 : Fin 2) * 64 + 1 * q.val = q.val; rw [e1]; omega

/-- The second input's block at a point is the point's rows of its array. -/
theorem readX2 (c : Dev nD) (t : Fin cfg3.N) (p : Fin 10000) (k : Fin 64) (h : t.val * 10000 + p.val < 100000) :
    iblk3 V c 2 t (ix2 p k) = V c main_v19 (ix2 ⟨t.val * 10000 + p.val, h⟩ k) := by
  show V c main_v19 (((cfg3.win 2).blk t).view.emb (ix2 p k)) = _
  obtain ⟨-, -, -, -, e0, e1, -⟩ := blockIndex t
  refine congrArg (V c main_v19) (funext fun a => Fin.ext ?_)
  match a with
  | ⟨0, _⟩ => show win3_2.index t (0 : Fin 2) * 10000 + 1 * p.val = t.val * 10000 + p.val; rw [e0]; omega
  | ⟨1, _⟩ => show win3_2.index t (1 : Fin 2) * 64 + 1 * k.val = k.val; rw [e1]; omega

/-- The second weight's block at every point is the whole weight. -/
theorem readW2 (c : Dev nD) (t : Fin cfg3.N) (k : Fin 64) (q : Fin 64) :
    iblk3 V c 3 t (ix2 k q) = V c main_v23 (ix2 k q) := by
  show V c main_v23 (((cfg3.win 3).blk t).view.emb (ix2 k q)) = _
  obtain ⟨-, -, -, -, -, -, e0, e1, -⟩ := blockIndex t
  refine congrArg (V c main_v23) (funext fun a => Fin.ext ?_)
  match a with
  | ⟨0, _⟩ => show win3_3.index t (0 : Fin 2) * 64 + 1 * k.val = k.val; rw [e0]; omega
  | ⟨1, _⟩ => show win3_3.index t (1 : Fin 2) * 64 + 1 * q.val = q.val; rw [e1]; omega

/-- The bias block at every point is the whole bias row. -/
theorem readB (c : Dev nD) (t : Fin cfg3.N) (q : Fin 64) :
    iblk3 V c 4 t (ix2 (0 : Fin 1) q) = V c main_v26 (ix2 (0 : Fin 1) q) := by
  show V c main_v26 (((cfg3.win 4).blk t).view.emb (ix2 (0 : Fin 1) q)) = _
  obtain ⟨-, -, -, -, -, -, -, -, e0, e1, -⟩ := blockIndex t
  refine congrArg (V c main_v26) (funext fun a => Fin.ext ?_)
  match a with
  | ⟨0, _⟩ => show win3_4.index t (0 : Fin 2) * 1 + 1 * 0 = 0; rw [e0]
  | ⟨1, _⟩ => show win3_4.index t (1 : Fin 2) * 64 + 1 * q.val = q.val; rw [e1]; omega

/-- Entry `(p, q)` of the output block of point `t` sits at row `10000 t + p` of the array. -/
theorem outAt (t : Fin cfg3.N) (p : Fin 10000) (q : Fin 64) (h : t.val * 10000 + p.val < 100000) :
    ((cfg3.win 5).blk t).view.emb (ix2 p q) = (ix2 ⟨t.val * 10000 + p.val, h⟩ q : S100000x64.Idx) := by
  obtain ⟨-, -, -, -, -, -, -, -, -, -, e0, e1⟩ := blockIndex t
  refine funext fun a => Fin.ext ?_
  match a with
  | ⟨0, _⟩ => show win3_5.index t (0 : Fin 2) * 10000 + 1 * p.val = t.val * 10000 + p.val; rw [e0]; omega
  | ⟨1, _⟩ => show win3_5.index t (1 : Fin 2) * 64 + 1 * q.val = q.val; rw [e1]; omega

/-- WHAT POINT `t` WRITES BACK is block `t` of the layer's whole-array function of the arrays as the launch finds them. -/
theorem flushed_eq (c : Dev nD) (t : Fin cfg3.N) :
    (dat3 V c).flushed 5 t = ((cfg3.win 5).blk t).view.read (Elt Ideal)
      (Cert.Spec.dense2 100000 64 64 (V c main_v1) (V c main_v21) (V c main_v19) (V c main_v23) (V c main_v26)) := by
  show (cfg3.win 5).cut (grid3.coords t) ((dat3 V c).after 5 t) = _
  rw [after3_5]
  unfold out3_5
  rw [View.canon_unit_zero origin]
  simp only [View.ld_unit_zero (S := S10000x64) origin, View.ld_unit_zero (S := S64x64) origin, View.ld_unit_zero (S := S1x64) origin]
  funext j
  obtain ⟨p, q, rfl⟩ : ∃ (p : Fin 10000) (q : Fin 64), j = ix2 p q := ⟨j 0, j 1, eq_ix2 j⟩
  have hrow : t.val * 10000 + p.val < 100000 := by have := point_lt t; have := p.isLt; omega
  show k3_pay1 (F := Ideal) (iblk3 V c 0 t) (iblk3 V c 1 t) (iblk3 V c 2 t) (iblk3 V c 3 t) (iblk3 V c 4 t) (ix2 p q)
    = Cert.Spec.dense2 100000 64 64 (V c main_v1) (V c main_v21) (V c main_v19) (V c main_v23) (V c main_v26) (((cfg3.win 5).blk t).view.emb (ix2 p q))
  rw [outAt t p q hrow]
  refine (stored_apply (iblk3 V c 0 t) (iblk3 V c 1 t) (iblk3 V c 2 t) (iblk3 V c 3 t) (iblk3 V c 4 t) p q).trans ?_
  unfold Cert.Spec.dense2 Cert.Spec.prod
  rw [readB V c t q]
  refine congrArg (fun s => max (s + V c main_v26 (ix2 (0 : Fin 1) q)) 0) ?_
  refine congrArg₂ (fun s₁ s₂ : EReal => s₁ + s₂) (Finset.sum_congr rfl fun k _ => ?_) (Finset.sum_congr rfl fun k _ => ?_)
  · rw [readX1 V c t p k hrow, readW1 V c t k q]
  · rw [readX2 V c t p k hrow, readW2 V c t k q]

/-- An index of the array is in point `t`'s output block iff each coordinate is in the block's range on its axis. -/
theorem mem_block (t : Fin cfg3.N) (i : S100000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_v27).slice (win3_5.rect t)).set ↔ _
  rw [View.set_slice_whole, Rect.mem_set_unit]
  exact Iff.rfl

/-- Every entry of the output is in the block of the point `row / 10000`. -/
theorem covered (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  let t : Fin cfg3.N := ⟨(i 0).val / 10000, by rw [show cfg3.N = 10 from N_3]; omega⟩
  have ht : t.val = (i 0).val / 10000 := rfl
  obtain ⟨-, -, -, -, -, -, -, -, -, -, e0, e1⟩ := blockIndex t
  refine ⟨t, flush3_5 t, ?_⟩
  rw [mem_block]
  intro a
  match a with
  | ⟨0, _⟩ => show win3_5.index t (0 : Fin 2) * 10000 ≤ (i 0).val ∧ (i 0).val < win3_5.index t (0 : Fin 2) * 10000 + 10000; rw [e0, ht]; omega
  | ⟨1, _⟩ => show win3_5.index t (1 : Fin 2) * 64 ≤ (i 1).val ∧ (i 1).val < win3_5.index t (1 : Fin 2) * 64 + 64; rw [e1]; omega

/-- THE OUTPUT ARRAY after the launch: the layer's function of the five arrays the launch reads, whole. -/
theorem final (c : Dev nD) :
    (dat3 V c).arrAt 5 cfg3.N
      = Cert.Spec.dense2 100000 64 64 (V c main_v1) (V c main_v21) (V c main_v19) (V c main_v23) (V c main_v26) :=
  (dat3 V c).arrAt_eq_of_cover 5 _ (fun t _ => flushed_eq V c t) (covered)

end Cert.KernelIdeal.Update0

end
-- ==== Proof.Region4.lean ====
/-
  The second message layer's launch, read as a value: as the first message layer's, on the second round's arrays.
-/
import proofs.«400771_j49452253447022_2_alg».proof.Proof.Region2

set_option maxRecDepth 16384

noncomputable section

open scoped BigOperators

namespace Cert.KernelIdeal.Message1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- What the body stores, at entry `(p, q)` of the block: the two products' entries added, then the bias, cut at zero. -/
theorem stored_apply (x1 : FVec Ideal S8000x64 .f32) (w1 : FVec Ideal S64x64 .f32) (x2 : FVec Ideal S8000x64 .f32)
    (w2 : FVec Ideal S64x64 .f32) (b : FVec Ideal S1x64 .f32) (p : Fin 8000) (q : Fin 64) :
    k4_pay1 (F := Ideal) x1 w1 x2 w2 b (ix2 p q)
      = max (((∑ k : Fin 64, x1 (ix2 p k) * w1 (ix2 k q)) + (∑ k : Fin 64, x2 (ix2 p k) * w2 (ix2 k q))) + b (ix2 0 q)) 0 := by
  unfold k4_pay1
  show max ((FloatOps.matmul dot_S8000x64_S64x64_S8000x64_1_0_0_1_n_n none
          (truncf .bf16 (shapeCast S8000x64 x1 shapeCasts_S8000x64_S8000x64) bitsLt_bf16_f32)
          (truncf .bf16 (shapeCast S64x64 w1 shapeCasts_S64x64_S64x64) bitsLt_bf16_f32)
          (constant S8000x64 .f32 0x00000000#32) (ix2 p q)
        + FloatOps.matmul dot_S8000x64_S64x64_S8000x64_1_0_0_1_n_n none
          (truncf .bf16 (shapeCast S8000x64 x2 shapeCasts_S8000x64_S8000x64) bitsLt_bf16_f32)
          (truncf .bf16 (shapeCast S64x64 w2 shapeCasts_S64x64_S64x64) bitsLt_bf16_f32)
          (constant S8000x64 .f32 0x00000000#32) (ix2 p q))
      + broadcastTo S8000x64 (shapeCast S1x64 b shapeCasts_S1x64_S1x64) broadcasts_S1x64_S8000x64 (ix2 p q))
    (Ideal.ofBits .f32 0x00000000#32) = _
  rw [Message0.blockProd_apply, Message0.blockProd_apply, broadcastTo_1b_ab_apply, Ideal.ofBits_zero_f32]
  simp only [shapeCast_self]
  rfl

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row blocks of the two inputs and of the output move with the point,
    the weights and the bias stay. -/
theorem blockIndex : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

theorem point_lt (t : Fin cfg4.N) : t.val < 200 := Nat.lt_of_lt_of_eq t.isLt N_4

/-- The first input's block at a point is the point's rows of its array. -/
theorem readX1 (c : Dev nD) (t : Fin cfg4.N) (p : Fin 8000) (k : Fin 64) (h : t.val * 8000 + p.val < 1600000) :
    iblk4 V c 0 t (ix2 p k) = V c main_v28 (ix2 ⟨t.val * 8000 + p.val, h⟩ k) := by
  show V c main_v28 (((cfg4.win 0).blk t).view.emb (ix2 p k)) = _
  obtain ⟨e0, e1, -⟩ := blockIndex t
  refine congrArg (V c main_v28) (funext fun a => Fin.ext ?_)
  match a with
  | ⟨0, _⟩ => show win4_0.index t (0 : Fin 2) * 8000 + 1 * p.val = t.val * 8000 + p.val; rw [e0]; omega
  | ⟨1, _⟩ => show win4_0.index t (1 : Fin 2) * 64 + 1 * k.val = k.val; rw [e1]; omega

/-- The first weight's block at every point is the whole weight. -/
theorem readW1 (c : Dev nD) (t : Fin cfg4.N) (k : Fin 64) (q : Fin 64) :
    iblk4 V c 1 t (ix2 k q) = V c main_v30 (ix2 k q) := by
  show V c main_v30 (((cfg4.win 1).blk t).view.emb (ix2 k q)) = _
  obtain ⟨-, -, e0, e1, -⟩ := blockIndex t
  refine congrArg (V c main_v30) (funext fun a => Fin.ext ?_)
  match a with
  | ⟨0, _⟩ => show win4_1.index t (0 : Fin 2) * 64 + 1 * k.val = k.val; rw [e0]; omega
  | ⟨1, _⟩ => show win4_1.index t (1 : Fin 2) * 64 + 1 * q.val = q.val; rw [e1]; omega

/-- The second input's block at a point is the point's rows of its array. -/
theorem readX2 (c : Dev nD) (t : Fin cfg4.N) (p : Fin 8000) (k : Fin 64) (h : t.val * 8000 + p.val < 1600000) :
    iblk4 V c 2 t (ix2 p k) = V c main_v3 (ix2 ⟨t.val * 8000 + p.val, h⟩ k) := by
  show V c main_v3 (((cfg4.win 2).blk t).view.emb (ix2 p k)) = _
  obtain ⟨-, -, -, -, e0, e1, -⟩ := blockIndex t
  refine congrArg (V c main_v3) (funext fun a => Fin.ext ?_)
  match a with
  | ⟨0, _⟩ => show win4_2.index t (0 : Fin 2) * 8000 + 1 * p.val = t.val * 8000 + p.val; rw [e0]; omega
  | ⟨1, _⟩ => show win4_2.index t (1 : Fin 2) * 64 + 1 * k.val = k.val; rw [e1]; omega

/-- The second weight's block at every point is the whole weight. -/
theorem readW2 (c : Dev nD) (t : Fin cfg4.N) (k : Fin 64) (q : Fin 64) :
    iblk4 V c 3 t (ix2 k q) = V c main_v32 (ix2 k q) := by
  show V c main_v32 (((cfg4.win 3).blk t).view.emb (ix2 k q)) = _
  obtain ⟨-, -, -, -, -, -, e0, e1, -⟩ := blockIndex t
  refine congrArg (V c main_v32) (funext fun a => Fin.ext ?_)
  match a with
  | ⟨0, _⟩ => show win4_3.index t (0 : Fin 2) * 64 + 1 * k.val = k.val; rw [e0]; omega
  | ⟨1, _⟩ => show win4_3.index t (1 : Fin 2) * 64 + 1 * q.val = q.val; rw [e1]; omega

/-- The bias block at every point is the whole bias row. -/
theorem readB (c : Dev nD) (t : Fin cfg4.N) (q : Fin 64) :
    iblk4 V c 4 t (ix2 (0 : Fin 1) q) = V c main_v35 (ix2 (0 : Fin 1) q) := by
  show V c main_v35 (((cfg4.win 4).blk t).view.emb (ix2 (0 : Fin 1) q)) = _
  obtain ⟨-, -, -, -, -, -, -, -, e0, e1, -⟩ := blockIndex t
  refine congrArg (V c main_v35) (funext fun a => Fin.ext ?_)
  match a with
  | ⟨0, _⟩ => show win4_4.index t (0 : Fin 2) * 1 + 1 * 0 = 0; rw [e0]
  | ⟨1, _⟩ => show win4_4.index t (1 : Fin 2) * 64 + 1 * q.val = q.val; rw [e1]; omega

/-- Entry `(p, q)` of the output block of point `t` sits at row `8000 t + p` of the array. -/
theorem outAt (t : Fin cfg4.N) (p : Fin 8000) (q : Fin 64) (h : t.val * 8000 + p.val < 1600000) :
    ((cfg4.win 5).blk t).view.emb (ix2 p q) = (ix2 ⟨t.val * 8000 + p.val, h⟩ q : S1600000x64.Idx) := by
  obtain ⟨-, -, -, -, -, -, -, -, -, -, e0, e1⟩ := blockIndex t
  refine funext fun a => Fin.ext ?_
  match a with
  | ⟨0, _⟩ => show win4_5.index t (0 : Fin 2) * 8000 + 1 * p.val = t.val * 8000 + p.val; rw [e0]; omega
  | ⟨1, _⟩ => show win4_5.index t (1 : Fin 2) * 64 + 1 * q.val = q.val; rw [e1]; omega

/-- WHAT POINT `t` WRITES BACK is block `t` of the layer's whole-array function of the arrays as the launch finds them. -/
theorem flushed_eq (c : Dev nD) (t : Fin cfg4.N) :
    (dat4 V c).flushed 5 t = ((cfg4.win 5).blk t).view.read (Elt Ideal)
      (Cert.Spec.dense2 1600000 64 64 (V c main_v28) (V c main_v30) (V c main_v3) (V c main_v32) (V c main_v35)) := by
  show (cfg4.win 5).cut (grid4.coords t) ((dat4 V c).after 5 t) = _
  rw [after4_5]
  unfold out4_5
  rw [View.canon_unit_zero origin]
  simp only [View.ld_unit_zero (S := S8000x64) origin, View.ld_unit_zero (S := S64x64) origin, View.ld_unit_zero (S := S1x64) origin]
  funext j
  obtain ⟨p, q, rfl⟩ : ∃ (p : Fin 8000) (q : Fin 64), j = ix2 p q := ⟨j 0, j 1, eq_ix2 j⟩
  have hrow : t.val * 8000 + p.val < 1600000 := by have := point_lt t; have := p.isLt; omega
  show k4_pay1 (F := Ideal) (iblk4 V c 0 t) (iblk4 V c 1 t) (iblk4 V c 2 t) (iblk4 V c 3 t) (iblk4 V c 4 t) (ix2 p q)
    = Cert.Spec.dense2 1600000 64 64 (V c main_v28) (V c main_v30) (V c main_v3) (V c main_v32) (V c main_v35) (((cfg4.win 5).blk t).view.emb (ix2 p q))
  rw [outAt t p q hrow]
  refine (stored_apply (iblk4 V c 0 t) (iblk4 V c 1 t) (iblk4 V c 2 t) (iblk4 V c 3 t) (iblk4 V c 4 t) p q).trans ?_
  unfold Cert.Spec.dense2 Cert.Spec.prod
  rw [readB V c t q]
  refine congrArg (fun s => max (s + V c main_v35 (ix2 (0 : Fin 1) q)) 0) ?_
  refine congrArg₂ (fun s₁ s₂ : EReal => s₁ + s₂) (Finset.sum_congr rfl fun k _ => ?_) (Finset.sum_congr rfl fun k _ => ?_)
  · rw [readX1 V c t p k hrow, readW1 V c t k q]
  · rw [readX2 V c t p k hrow, readW2 V c t k q]

/-- An index of the array is in point `t`'s output block iff each coordinate is in the block's range on its axis. -/
theorem mem_block (t : Fin cfg4.N) (i : S1600000x64.Idx) :
    i ∈ ((cfg4.win 5).blk t).view.set ↔ ∀ a : Fin 2, win4_5.index t a * S8000x64.size a ≤ (i a).val ∧ (i a).val < win4_5.index t a * S8000x64.size a + S8000x64.size a := by
  show i ∈ ((View.whole main_v36).slice (win4_5.rect t)).set ↔ _
  rw [View.set_slice_whole, Rect.mem_set_unit]
  exact Iff.rfl

/-- Every entry of the output is in the block of the point `row / 8000`. -/
theorem covered (i : S1600000x64.Idx) : ∃ t : Fin cfg4.N, (cfg4.win 5).flush t = true ∧ i ∈ ((cfg4.win 5).blk t).view.set := by
  have hi0 : (i 0).val < 1600000 := (i 0).isLt
  have hi1 : (i 1).val < 64 := (i 1).isLt
  let t : Fin cfg4.N := ⟨(i 0).val / 8000, by rw [show cfg4.N = 200 from N_4]; omega⟩
  have ht : t.val = (i 0).val / 8000 := rfl
  obtain ⟨-, -, -, -, -, -, -, -, -, -, e0, e1⟩ := blockIndex t
  refine ⟨t, flush4_5 t, ?_⟩
  rw [mem_block]
  intro a
  match a with
  | ⟨0, _⟩ => show win4_5.index t (0 : Fin 2) * 8000 ≤ (i 0).val ∧ (i 0).val < win4_5.index t (0 : Fin 2) * 8000 + 8000; rw [e0, ht]; omega
  | ⟨1, _⟩ => show win4_5.index t (1 : Fin 2) * 64 ≤ (i 1).val ∧ (i 1).val < win4_5.index t (1 : Fin 2) * 64 + 64; rw [e1]; omega

/-- THE OUTPUT ARRAY after the launch: the layer's function of the five arrays the launch reads, whole. -/
theorem final (c : Dev nD) :
    (dat4 V c).arrAt 5 cfg4.N
      = Cert.Spec.dense2 1600000 64 64 (V c main_v28) (V c main_v30) (V c main_v3) (V c main_v32) (V c main_v35) :=
  (dat4 V c).arrAt_eq_of_cover 5 _ (fun t _ => flushed_eq V c t) (covered)

end Cert.KernelIdeal.Message1

end
-- ==== Proof.Region5.lean ====
/-
  The second node-update layer's launch, read as a value: as the first update layer's, on the second round's arrays.
-/
import proofs.«400771_j49452253447022_2_alg».proof.Proof.Region0

set_option maxRecDepth 16384

noncomputable section

open scoped BigOperators

namespace Cert.KernelIdeal.Update1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- What the body stores, at entry `(p, q)` of the block: the two products' entries added, then the bias, cut at zero. -/
theorem stored_apply (x1 : FVec Ideal S10000x64 .f32) (w1 : FVec Ideal S64x64 .f32) (x2 : FVec Ideal S10000x64 .f32)
    (w2 : FVec Ideal S64x64 .f32) (b : FVec Ideal S1x64 .f32) (p : Fin 10000) (q : Fin 64) :
    k5_pay1 (F := Ideal) x1 w1 x2 w2 b (ix2 p q)
      = max (((∑ k : Fin 64, x1 (ix2 p k) * w1 (ix2 k q)) + (∑ k : Fin 64, x2 (ix2 p k) * w2 (ix2 k q))) + b (ix2 0 q)) 0 := by
  unfold k5_pay1
  show max ((FloatOps.matmul dot_S10000x64_S64x64_S10000x64_1_0_0_1_n_n none
          (truncf .bf16 (shapeCast S10000x64 x1 shapeCasts_S10000x64_S10000x64) bitsLt_bf16_f32)
          (truncf .bf16 (shapeCast S64x64 w1 shapeCasts_S64x64_S64x64) bitsLt_bf16_f32)
          (constant S10000x64 .f32 0x00000000#32) (ix2 p q)
        + FloatOps.matmul dot_S10000x64_S64x64_S10000x64_1_0_0_1_n_n none
          (truncf .bf16 (shapeCast S10000x64 x2 shapeCasts_S10000x64_S10000x64) bitsLt_bf16_f32)
          (truncf .bf16 (shapeCast S64x64 w2 shapeCasts_S64x64_S64x64) bitsLt_bf16_f32)
          (constant S10000x64 .f32 0x00000000#32) (ix2 p q))
      + broadcastTo S10000x64 (shapeCast S1x64 b shapeCasts_S1x64_S1x64) broadcasts_S1x64_S10000x64 (ix2 p q))
    (Ideal.ofBits .f32 0x00000000#32) = _
  rw [NodeEnc.blockProd_apply, NodeEnc.blockProd_apply, broadcastTo_1b_ab_apply, Ideal.ofBits_zero_f32]
  simp only [shapeCast_self]
  rfl

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row blocks of the two inputs and of the output move with the point,
    the weights and the bias stay. -/
theorem blockIndex : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem point_lt (t : Fin cfg5.N) : t.val < 10 := Nat.lt_of_lt_of_eq t.isLt N_5

/-- The first input's block at a point is the point's rows of its array. -/
theorem readX1 (c : Dev nD) (t : Fin cfg5.N) (p : Fin 10000) (k : Fin 64) (h : t.val * 10000 + p.val < 100000) :
    iblk5 V c 0 t (ix2 p k) = V c main_v27 (ix2 ⟨t.val * 10000 + p.val, h⟩ k) := by
  show V c main_v27 (((cfg5.win 0).blk t).view.emb (ix2 p k)) = _
  obtain ⟨e0, e1, -⟩ := blockIndex t
  refine congrArg (V c main_v27) (funext fun a => Fin.ext ?_)
  match a with
  | ⟨0, _⟩ => show win5_0.index t (0 : Fin 2) * 10000 + 1 * p.val = t.val * 10000 + p.val; rw [e0]; omega
  | ⟨1, _⟩ => show win5_0.index t (1 : Fin 2) * 64 + 1 * k.val = k.val; rw [e1]; omega

/-- The first weight's block at every point is the whole weight. -/
theorem readW1 (c : Dev nD) (t : Fin cfg5.N) (k : Fin 64) (q : Fin 64) :
    iblk5 V c 1 t (ix2 k q) = V c main_v41 (ix2 k q) := by
  show V c main_v41 (((cfg5.win 1).blk t).view.emb (ix2 k q)) = _
  obtain ⟨-, -, e0, e1, -⟩ := blockIndex t
  refine congrArg (V c main_v41) (funext fun a => Fin.ext ?_)
  match a with
  | ⟨0, _⟩ => show win5_1.index t (0 : Fin 2) * 64 + 1 * k.val = k.val; rw [e0]; omega
  | ⟨1, _⟩ => show win5_1.index t (1 : Fin 2) * 64 + 1 * q.val = q.val; rw [e1]; omega

/-- The second input's block at a point is the point's rows of its array. -/
theorem readX2 (c : Dev nD) (t : Fin cfg5.N) (p : Fin 10000) (k : Fin 64) (h : t.val * 10000 + p.val < 100000) :
    iblk5 V c 2 t (ix2 p k) = V c main_v39 (ix2 ⟨t.val * 10000 + p.val, h⟩ k) := by
  show V c main_v39 (((cfg5.win 2).blk t).view.emb (ix2 p k)) = _
  obtain ⟨-, -, -, -, e0, e1, -⟩ := blockIndex t
  refine congrArg (V c main_v39) (funext fun a => Fin.ext ?_)
  match a with
  | ⟨0, _⟩ => show win5_2.index t (0 : Fin 2) * 10000 + 1 * p.val = t.val * 10000 + p.val; rw [e0]; omega
  | ⟨1, _⟩ => show win5_2.index t (1 : Fin 2) * 64 + 1 * k.val = k.val; rw [e1]; omega

/-- The second weight's block at every point is the whole weight. -/
theorem readW2 (c : Dev nD) (t : Fin cfg5.N) (k : Fin 64) (q : Fin 64) :
    iblk5 V c 3 t (ix2 k q) = V c main_v43 (ix2 k q) := by
  show V c main_v43 (((cfg5.win 3).blk t).view.emb (ix2 k q)) = _
  obtain ⟨-, -, -, -, -, -, e0, e1, -⟩ := blockIndex t
  refine congrArg (V c main_v43) (funext fun a => Fin.ext ?_)
  match a with
  | ⟨0, _⟩ => show win5_3.index t (0 : Fin 2) * 64 + 1 * k.val = k.val; rw [e0]; omega
  | ⟨1, _⟩ => show win5_3.index t (1 : Fin 2) * 64 + 1 * q.val = q.val; rw [e1]; omega

/-- The bias block at every point is the whole bias row. -/
theorem readB (c : Dev nD) (t : Fin cfg5.N) (q : Fin 64) :
    iblk5 V c 4 t (ix2 (0 : Fin 1) q) = V c main_v46 (ix2 (0 : Fin 1) q) := by
  show V c main_v46 (((cfg5.win 4).blk t).view.emb (ix2 (0 : Fin 1) q)) = _
  obtain ⟨-, -, -, -, -, -, -, -, e0, e1, -⟩ := blockIndex t
  refine congrArg (V c main_v46) (funext fun a => Fin.ext ?_)
  match a with
  | ⟨0, _⟩ => show win5_4.index t (0 : Fin 2) * 1 + 1 * 0 = 0; rw [e0]
  | ⟨1, _⟩ => show win5_4.index t (1 : Fin 2) * 64 + 1 * q.val = q.val; rw [e1]; omega

/-- Entry `(p, q)` of the output block of point `t` sits at row `10000 t + p` of the array. -/
theorem outAt (t : Fin cfg5.N) (p : Fin 10000) (q : Fin 64) (h : t.val * 10000 + p.val < 100000) :
    ((cfg5.win 5).blk t).view.emb (ix2 p q) = (ix2 ⟨t.val * 10000 + p.val, h⟩ q : S100000x64.Idx) := by
  obtain ⟨-, -, -, -, -, -, -, -, -, -, e0, e1⟩ := blockIndex t
  refine funext fun a => Fin.ext ?_
  match a with
  | ⟨0, _⟩ => show win5_5.index t (0 : Fin 2) * 10000 + 1 * p.val = t.val * 10000 + p.val; rw [e0]; omega
  | ⟨1, _⟩ => show win5_5.index t (1 : Fin 2) * 64 + 1 * q.val = q.val; rw [e1]; omega

/-- WHAT POINT `t` WRITES BACK is block `t` of the layer's whole-array function of the arrays as the launch finds them. -/
theorem flushed_eq (c : Dev nD) (t : Fin cfg5.N) :
    (dat5 V c).flushed 5 t = ((cfg5.win 5).blk t).view.read (Elt Ideal)
      (Cert.Spec.dense2 100000 64 64 (V c main_v27) (V c main_v41) (V c main_v39) (V c main_v43) (V c main_v46)) := by
  show (cfg5.win 5).cut (grid5.coords t) ((dat5 V c).after 5 t) = _
  rw [after5_5]
  unfold out5_5
  rw [View.canon_unit_zero origin]
  simp only [View.ld_unit_zero (S := S10000x64) origin, View.ld_unit_zero (S := S64x64) origin, View.ld_unit_zero (S := S1x64) origin]
  funext j
  obtain ⟨p, q, rfl⟩ : ∃ (p : Fin 10000) (q : Fin 64), j = ix2 p q := ⟨j 0, j 1, eq_ix2 j⟩
  have hrow : t.val * 10000 + p.val < 100000 := by have := point_lt t; have := p.isLt; omega
  show k5_pay1 (F := Ideal) (iblk5 V c 0 t) (iblk5 V c 1 t) (iblk5 V c 2 t) (iblk5 V c 3 t) (iblk5 V c 4 t) (ix2 p q)
    = Cert.Spec.dense2 100000 64 64 (V c main_v27) (V c main_v41) (V c main_v39) (V c main_v43) (V c main_v46) (((cfg5.win 5).blk t).view.emb (ix2 p q))
  rw [outAt t p q hrow]
  refine (stored_apply (iblk5 V c 0 t) (iblk5 V c 1 t) (iblk5 V c 2 t) (iblk5 V c 3 t) (iblk5 V c 4 t) p q).trans ?_
  unfold Cert.Spec.dense2 Cert.Spec.prod
  rw [readB V c t q]
  refine congrArg (fun s => max (s + V c main_v46 (ix2 (0 : Fin 1) q)) 0) ?_
  refine congrArg₂ (fun s₁ s₂ : EReal => s₁ + s₂) (Finset.sum_congr rfl fun k _ => ?_) (Finset.sum_congr rfl fun k _ => ?_)
  · rw [readX1 V c t p k hrow, readW1 V c t k q]
  · rw [readX2 V c t p k hrow, readW2 V c t k q]

/-- An index of the array is in point `t`'s output block iff each coordinate is in the block's range on its axis. -/
theorem mem_block (t : Fin cfg5.N) (i : S100000x64.Idx) :
    i ∈ ((cfg5.win 5).blk t).view.set ↔ ∀ a : Fin 2, win5_5.index t a * S10000x64.size a ≤ (i a).val ∧ (i a).val < win5_5.index t a * S10000x64.size a + S10000x64.size a := by
  show i ∈ ((View.whole main_v47).slice (win5_5.rect t)).set ↔ _
  rw [View.set_slice_whole, Rect.mem_set_unit]
  exact Iff.rfl

/-- Every entry of the output is in the block of the point `row / 10000`. -/
theorem covered (i : S100000x64.Idx) : ∃ t : Fin cfg5.N, (cfg5.win 5).flush t = true ∧ i ∈ ((cfg5.win 5).blk t).view.set := by
  have hi0 : (i 0).val < 100000 := (i 0).isLt
  have hi1 : (i 1).val < 64 := (i 1).isLt
  let t : Fin cfg5.N := ⟨(i 0).val / 10000, by rw [show cfg5.N = 10 from N_5]; omega⟩
  have ht : t.val = (i 0).val / 10000 := rfl
  obtain ⟨-, -, -, -, -, -, -, -, -, -, e0, e1⟩ := blockIndex t
  refine ⟨t, flush5_5 t, ?_⟩
  rw [mem_block]
  intro a
  match a with
  | ⟨0, _⟩ => show win5_5.index t (0 : Fin 2) * 10000 ≤ (i 0).val ∧ (i 0).val < win5_5.index t (0 : Fin 2) * 10000 + 10000; rw [e0, ht]; omega
  | ⟨1, _⟩ => show win5_5.index t (1 : Fin 2) * 64 ≤ (i 1).val ∧ (i 1).val < win5_5.index t (1 : Fin 2) * 64 + 64; rw [e1]; omega

/-- THE OUTPUT ARRAY after the launch: the layer's function of the five arrays the launch reads, whole. -/
theorem final (c : Dev nD) :
    (dat5 V c).arrAt 5 cfg5.N
      = Cert.Spec.dense2 100000 64 64 (V c main_v27) (V c main_v41) (V c main_v39) (V c main_v43) (V c main_v46) :=
  (dat5 V c).arrAt_eq_of_cover 5 _ (fun t _ => flushed_eq V c t) (covered)

end Cert.KernelIdeal.Update1

end
-- ==== Proof.Region6.lean ====
/-
  The head's launch, read as a value: after the ten grid points have run, the output column is the affine map
  `x · w + b` of the arrays the launch reads where the mask word is not zero, and the fill value elsewhere, whole.

  Grid point `t` is handed rows `10000 t … 10000 t + 9999` of `x` and of the mask, all of the one-column weight
  `w` and the one bias entry `b`, and writes back the same rows of the output column.  Inside the block the product
  is the matrix unit's, accumulated into zero: at the exact values that is the plain sum over the 64 contracted
  columns, the narrowing of the operands to the short format being the identity there.  The bias entry is spread
  over the rows, and the choice between the sum and the fill is made entry by entry on the mask word.  So entry
  `(p, q)` of the block is `∑ k, x (10000 t + p, k) * w (k, q) + b (0, q)` or the fill, by the mask at
  `(10000 t + p, q)`: entry `(10000 t + p, q)` of the whole-array function.  The ten blocks tile the column, so
  every entry is written, by the point `t = row / 10000`.
-/
import proofs.«400771_j49452253447022_2_alg».proof.Proof.Gen.KernelIdeal.Frame
import proofs.«400771_j49452253447022_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Head

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The block product at an index -/

theorem lhs_axis0 (i : S10000x1.Idx) (q : dot_S10000x64_S64x1_S10000x1_1_0_0_1_n_n.contr.Idx) :
    (dot_S10000x64_S64x1_S10000x1_1_0_0_1_n_n.lhsIdx i q 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl
theorem lhs_axis1 (i : S10000x1.Idx) (q : dot_S10000x64_S64x1_S10000x1_1_0_0_1_n_n.contr.Idx) :
    (dot_S10000x64_S64x1_S10000x1_1_0_0_1_n_n.lhsIdx i q 1).val = (q ⟨0, by decide⟩).val :=
  dot_S10000x64_S64x1_S10000x1_1_0_0_1_n_n.lhsIdx_val_of_single rfl i q
theorem rhs_axis0 (i : S10000x1.Idx) (q : dot_S10000x64_S64x1_S10000x1_1_0_0_1_n_n.contr.Idx) :
    (dot_S10000x64_S64x1_S10000x1_1_0_0_1_n_n.rhsIdx i q 0).val = (q ⟨0, by decide⟩).val :=
  dot_S10000x64_S64x1_S10000x1_1_0_0_1_n_n.rhsIdx_val_of_single rfl i q
theorem rhs_axis1 (i : S10000x1.Idx) (q : dot_S10000x64_S64x1_S10000x1_1_0_0_1_n_n.contr.Idx) :
    (dot_S10000x64_S64x1_S10000x1_1_0_0_1_n_n.rhsIdx i q 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- The matrix unit's product of a block with the one-column weight, accumulated into zero, at entry `(p, q)`: the
    sum over the contracted axis. -/
theorem blockProd_apply {φ₁ φ₂ : FTy} (x : FVec Ideal S10000x64 φ₁) (w : FVec Ideal S64x1 φ₂) (p : Fin 10000) (q : Fin 1) :
    FloatOps.matmul dot_S10000x64_S64x1_S10000x1_1_0_0_1_n_n none x w (constant S10000x1 .f32 0x00000000#32) (ix2 p q)
      = ∑ k : Fin 64, x (ix2 p k) * w (ix2 k q) := by
  rw [Ideal.matmul_constant_zero_apply, ← Equiv.sum_comp (contrEquiv1 dot_S10000x64_S64x1_S10000x1_1_0_0_1_n_n 64 rfl rfl).symm]
  refine Finset.sum_congr rfl fun k _ => ?_
  have hk := contrEquiv1_symm_val dot_S10000x64_S64x1_S10000x1_1_0_0_1_n_n 64 rfl rfl k
  have el : dot_S10000x64_S64x1_S10000x1_1_0_0_1_n_n.lhsIdx (ix2 p q) ((contrEquiv1 dot_S10000x64_S64x1_S10000x1_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S10000x64_S64x1_S10000x1_1_0_0_1_n_n.rhsIdx (ix2 p q) ((contrEquiv1 dot_S10000x64_S64x1_S10000x1_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- What the body stores, at entry `(p, q)` of the block: the affine map's entry where the mask word is not zero, the
    fill value where it is. -/
theorem stored_apply (x0 : FVec Ideal S10000x64 .f32) (x1 : FVec Ideal S64x1 .f32) (x2 : FVec Ideal S1x1 .f32)
    (x3 : IVec S10000x1 32) (p : Fin 10000) (q : Fin 1) :
    k6_pay1 (F := Ideal) x0 x1 x2 x3 (ix2 p q)
      = Scalar.select (IntOp.cmpi .ne (x3 (ix2 p q)) 0#32)
          ((∑ k : Fin 64, x0 (ix2 p k) * x1 (ix2 k q)) + x2 (ix2 0 q)) (Ideal.ofBits .f32 0xCE6E6B28#32) := by
  unfold k6_pay1
  show Scalar.select (IntOp.cmpi .ne (shapeCast S10000x1 x3 shapeCasts_S10000x1_S10000x1 (ix2 p q)) 0#32)
      (FloatOps.matmul dot_S10000x64_S64x1_S10000x1_1_0_0_1_n_n none (truncf .bf16 (shapeCast S10000x64 x0 shapeCasts_S10000x64_S10000x64) bitsLt_bf16_f32)
          (truncf .bf16 x1 bitsLt_bf16_f32) (constant S10000x1 .f32 0x00000000#32) (ix2 p q)
        + broadcastTo S10000x1 (shapeCast S1x1 x2 shapeCasts_S1x1_S1x1) broadcasts_S1x1_S10000x1 (ix2 p q))
      (Ideal.ofBits .f32 0xCE6E6B28#32) = _
  rw [blockProd_apply, broadcastTo_1b_ab_apply, shapeCast_self, shapeCast_self, shapeCast_self]
  rfl

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row blocks of the input, of the mask and of the output move with the
    point, the weight and the bias stay. -/
theorem blockIndex : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

theorem point_lt (t : Fin cfg6.N) : t.val < 10 := Nat.lt_of_lt_of_eq t.isLt N_6

/-- The input block at a point is the point's rows of the input array. -/
theorem readX (c : Dev nD) (t : Fin cfg6.N) (p : Fin 10000) (k : Fin 64) (h : t.val * 10000 + p.val < 100000) :
    iblk6 V c 0 t (ix2 p k) = V c main_v47 (ix2 ⟨t.val * 10000 + p.val, h⟩ k) := by
  show V c main_v47 (((cfg6.win 0).blk t).view.emb (ix2 p k)) = _
  obtain ⟨e0, e1, -⟩ := blockIndex t
  refine congrArg (V c main_v47) (funext fun a => Fin.ext ?_)
  match a with
  | ⟨0, _⟩ => show win6_0.index t (0 : Fin 2) * 10000 + 1 * p.val = t.val * 10000 + p.val; rw [e0]; omega
  | ⟨1, _⟩ => show win6_0.index t (1 : Fin 2) * 64 + 1 * k.val = k.val; rw [e1]; omega

/-- The weight block at every point is the whole weight column. -/
theorem readW (c : Dev nD) (t : Fin cfg6.N) (k : Fin 64) (q : Fin 1) :
    iblk6 V c 1 t (ix2 k q) = V c main_arg12 (ix2 k q) := by
  show V c main_arg12 (((cfg6.win 1).blk t).view.emb (ix2 k q)) = _
  obtain ⟨-, -, e0, e1, -⟩ := blockIndex t
  refine congrArg (V c main_arg12) (funext fun a => Fin.ext ?_)
  match a with
  | ⟨0, _⟩ => show win6_1.index t (0 : Fin 2) * 64 + 1 * k.val = k.val; rw [e0]; omega
  | ⟨1, _⟩ => show win6_1.index t (1 : Fin 2) * 1 + 1 * q.val = q.val; rw [e1]; omega

/-- The bias block at every point is the whole bias, one entry. -/
theorem readB (c : Dev nD) (t : Fin cfg6.N) (q : Fin 1) :
    iblk6 V c 2 t (ix2 (0 : Fin 1) q) = V c main_v49 (ix2 (0 : Fin 1) q) := by
  show V c main_v49 (((cfg6.win 2).blk t).view.emb (ix2 (0 : Fin 1) q)) = _
  obtain ⟨-, -, -, -, e0, e1, -⟩ := blockIndex t
  refine congrArg (V c main_v49) (funext fun a => Fin.ext ?_)
  match a with
  | ⟨0, _⟩ => show win6_2.index t (0 : Fin 2) * 1 + 1 * 0 = 0; rw [e0]
  | ⟨1, _⟩ => show win6_2.index t (1 : Fin 2) * 1 + 1 * q.val = q.val; rw [e1]; omega

/-- The mask block at a point is the point's rows of the mask column. -/
theorem readM (c : Dev nD) (t : Fin cfg6.N) (p : Fin 10000) (q : Fin 1) (h : t.val * 10000 + p.val < 100000) :
    iblk6 V c 3 t (ix2 p q) = V c main_v50 (ix2 ⟨t.val * 10000 + p.val, h⟩ q) := by
  show V c main_v50 (((cfg6.win 3).blk t).view.emb (ix2 p q)) = _
  obtain ⟨-, -, -, -, -, -, e0, e1, -⟩ := blockIndex t
  refine congrArg (V c main_v50) (funext fun a => Fin.ext ?_)
  match a with
  | ⟨0, _⟩ => show win6_3.index t (0 : Fin 2) * 10000 + 1 * p.val = t.val * 10000 + p.val; rw [e0]; omega
  | ⟨1, _⟩ => show win6_3.index t (1 : Fin 2) * 1 + 1 * q.val = q.val; rw [e1]; omega

/-- Entry `(p, q)` of the output block of point `t` sits at row `10000 t + p` of the column. -/
theorem outAt (t : Fin cfg6.N) (p : Fin 10000) (q : Fin 1) (h : t.val * 10000 + p.val < 100000) :
    ((cfg6.win 4).blk t).view.emb (ix2 p q) = (ix2 ⟨t.val * 10000 + p.val, h⟩ q : S100000x1.Idx) := by
  obtain ⟨-, -, -, -, -, -, -, -, e0, e1⟩ := blockIndex t
  refine funext fun a => Fin.ext ?_
  match a with
  | ⟨0, _⟩ => show win6_4.index t (0 : Fin 2) * 10000 + 1 * p.val = t.val * 10000 + p.val; rw [e0]; omega
  | ⟨1, _⟩ => show win6_4.index t (1 : Fin 2) * 1 + 1 * q.val = q.val; rw [e1]; omega

/-- WHAT POINT `t` WRITES BACK is block `t` of the head's whole-array function of the arrays as the launch finds them. -/
theorem flushed_eq (c : Dev nD) (t : Fin cfg6.N) :
    (dat6 V c).flushed 4 t = ((cfg6.win 4).blk t).view.read (Elt Ideal)
      (Cert.Spec.head 100000 64 (V c main_v47) (V c main_arg12) (V c main_v49) (V c main_v50)) := by
  show (cfg6.win 4).cut (grid6.coords t) ((dat6 V c).after 4 t) = _
  rw [after6_4]
  unfold out6_4
  rw [View.canon_unit_zero origin]
  simp only [View.ld_unit_zero (S := S10000x64) origin, View.ld_unit_zero (S := S64x1) origin, View.ld_unit_zero (S := S1x1) origin,
    View.ld_unit_zero (S := S10000x1) origin]
  funext j
  obtain ⟨p, q, rfl⟩ : ∃ (p : Fin 10000) (q : Fin 1), j = ix2 p q := ⟨j 0, j 1, eq_ix2 j⟩
  have hrow : t.val * 10000 + p.val < 100000 := by have := point_lt t; have := p.isLt; omega
  show k6_pay1 (F := Ideal) (iblk6 V c 0 t) (iblk6 V c 1 t) (iblk6 V c 2 t) (iblk6 V c 3 t) (ix2 p q)
    = Cert.Spec.head 100000 64 (V c main_v47) (V c main_arg12) (V c main_v49) (V c main_v50) (((cfg6.win 4).blk t).view.emb (ix2 p q))
  rw [outAt t p q hrow]
  refine (stored_apply (iblk6 V c 0 t) (iblk6 V c 1 t) (iblk6 V c 2 t) (iblk6 V c 3 t) p q).trans ?_
  unfold Cert.Spec.head Cert.Spec.prod
  rw [readB V c t q, readM V c t p q hrow]
  refine congrArg (fun s => Scalar.select (IntOp.cmpi .ne (V c main_v50 (ix2 ⟨t.val * 10000 + p.val, hrow⟩ q)) 0#32)
    (s + V c main_v49 (ix2 (0 : Fin 1) q)) (Ideal.ofBits .f32 0xCE6E6B28#32)) (Finset.sum_congr rfl fun k _ => ?_)
  rw [readX V c t p k hrow, readW V c t k q]

/-- An index of the column is in point `t`'s output block iff each coordinate is in the block's range on its axis. -/
theorem mem_block (t : Fin cfg6.N) (i : S100000x1.Idx) :
    i ∈ ((cfg6.win 4).blk t).view.set ↔ ∀ a : Fin 2, win6_4.index t a * S10000x1.size a ≤ (i a).val ∧ (i a).val < win6_4.index t a * S10000x1.size a + S10000x1.size a := by
  show i ∈ ((View.whole main_v51).slice (win6_4.rect t)).set ↔ _
  rw [View.set_slice_whole, Rect.mem_set_unit]
  exact Iff.rfl

/-- Every entry of the output is in the block of the point `row / 10000`. -/
theorem covered (i : S100000x1.Idx) : ∃ t : Fin cfg6.N, (cfg6.win 4).flush t = true ∧ i ∈ ((cfg6.win 4).blk t).view.set := by
  have hi0 : (i 0).val < 100000 := (i 0).isLt
  have hi1 : (i 1).val < 1 := (i 1).isLt
  let t : Fin cfg6.N := ⟨(i 0).val / 10000, by rw [show cfg6.N = 10 from N_6]; omega⟩
  have ht : t.val = (i 0).val / 10000 := rfl
  obtain ⟨-, -, -, -, -, -, -, -, e0, e1⟩ := blockIndex t
  refine ⟨t, flush6_4 t, ?_⟩
  rw [mem_block]
  intro a
  match a with
  | ⟨0, _⟩ => show win6_4.index t (0 : Fin 2) * 10000 ≤ (i 0).val ∧ (i 0).val < win6_4.index t (0 : Fin 2) * 10000 + 10000; rw [e0, ht]; omega
  | ⟨1, _⟩ => show win6_4.index t (1 : Fin 2) * 1 ≤ (i 1).val ∧ (i 1).val < win6_4.index t (1 : Fin 2) * 1 + 1; rw [e1]; omega

/-- THE OUTPUT COLUMN after the launch: the head's function of the four arrays the launch reads, whole. -/
theorem final (c : Dev nD) :
    (dat6 V c).arrAt 4 cfg6.N = Cert.Spec.head 100000 64 (V c main_v47) (V c main_arg12) (V c main_v49) (V c main_v50) :=
  (dat6 V c).arrAt_eq_of_cover 4 _ (fun t _ => flushed_eq V c t) (covered)

end Cert.KernelIdeal.Head

end
-- ==== Proof.Take.lean ====
/-
  jnp.take in fill mode, against a plain gather. The kernel wraps each index (a negative one gets the table's length,
  100000, added), computes per index the bit "0 ≤ wrapped ≤ 99999", gathers the rows at the wrapped indices and replaces
  the rows whose bit is clear by a fill pattern. When every index lies in [-100000, 100000) the wrapped index lies in
  [0, 99999]: every bit is set, the fill never applies, and the result is the gather itself. The index range is what the
  last two conjuncts of the precondition say of row 0 of the edge list.
-/
import proofs.«400771_j49452253447022_2_alg».proof.Defs
import proofs.«400771_j49452253447022_2_alg».proof.Proof.Gen.Pre_finite_inputs
import proofs.«400771_j49452253447022_2_alg».proof.Proof.Gen.KernelIdeal
import Idealize.ShloMosaic.Lib.ValueIdx
import Idealize.ShloMosaic.Lib.Pipeline.Value
import Idealize.ShloMosaic.Lib.ReduceAll
import Idealize.ShloMosaic.Lib.StableHlo.Predicate

namespace Cert.Take

open Cert.KernelIdeal Cert.KernelIdeal.Facts₀ Idealize.ShloMosaic Idealize.ShloMosaic.ValueIdx

noncomputable section

/-- The start indices jnp.take hands to the gather: a negative index wrapped by the table's length, as a column. -/
def wrapIdx (s : IVec S1600000 32) : IVec S1600000x1 32 :=
  broadcastInDim S1600000x1 ![0] bcast_S1600000_S1600000x1_0
    (select (cmpi .slt s (broadcastInDim S1600000 ![] bcast_S_S1600000 (constantI S_ 32 0#32)))
            (addi s (broadcastInDim S1600000 ![] bcast_S_S1600000 (constantI S_ 32 100000#32))) s)

/-- jnp.take's result as printed: the gathered rows where the wrapped index is in range, the fill pattern elsewhere. -/
def takeFill (x : FVec Ideal S100000x64 .f32) (s : IVec S1600000 32) : FVec Ideal S1600000x64 .f32 :=
  select (broadcastInDim S1600000x64 ![0] bcast_S1600000_S1600000x64_0
      (Host.reduce IntOp.andi
        (andi (cmpi .sge (wrapIdx s) (broadcastInDim S1600000x1 ![] bcast_S_S1600000x1 (constantI S_ 32 0#32)))
              (cmpi .sle (wrapIdx s) (broadcastInDim S1600000x1 ![0, 1] bcast_S1x1_S1600000x1_0_1 (broadcastInDim S1x1 ![1] bcast_S1_S1x1_1 (constantI S1 32 99999#32)))))
        (constantI S_ 1 1#1) reducesTo_S1600000x1_S1600000_d1 h_S_))
    (Host.gather gather_S100000x64_S1600000x1_S1600000x64_1_0_n_n_0_1_164 x (wrapIdx s))
    (broadcastInDim S1600000x64 ![] bcast_S_S1600000x64 (constant (F := Ideal) S_ .f32 0x7FC00000#32))

/-- A fold by `and` from the bit 1 over one-bit words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- The word arithmetic of the wrap: a 32-bit word `w` with `-100000 ≤ w < 100000` (signed), replaced by `w + 100000`
    when negative, lies in `[0, 99999]`. The sum does not overflow: it is between 0 and 99999. -/
theorem wrap_range (w : BitVec 32) (h1 : IntOp.cmpi .sge w 4294867296#32 = 1#1) (h2 : IntOp.cmpi .slt w 100000#32 = 1#1) :
    IntOp.cmpi .sge (Scalar.select (IntOp.cmpi .slt w 0#32) (IntOp.addi w 100000#32) w) 0#32 = 1#1
    ∧ IntOp.cmpi .sle (Scalar.select (IntOp.cmpi .slt w 0#32) (IntOp.addi w 100000#32) w) 99999#32 = 1#1 := by
  rw [IntOp.cmpi_sge, show (4294867296#32 : BitVec 32).toInt = -100000 from by decide] at h1
  rw [IntOp.cmpi_slt, show (100000#32 : BitVec 32).toInt = 100000 from by decide] at h2
  by_cases hneg : IntOp.cmpi .slt w 0#32 = 1#1
  · rw [hneg, select_one, IntOp.cmpi_sge, IntOp.cmpi_sle]
    rw [IntOp.cmpi_slt, show (0#32 : BitVec 32).toInt = 0 from by decide] at hneg
    rw [show (0#32 : BitVec 32).toInt = 0 from by decide, show (99999#32 : BitVec 32).toInt = 99999 from by decide]
    have hadd : (IntOp.addi w 100000#32).toInt = w.toInt + 100000 := by
      show (w + 100000#32).toInt = _
      rw [BitVec.toInt_add, show (100000#32 : BitVec 32).toInt = 100000 from by decide]
      simp only [Int.bmod]
      omega
    rw [hadd]
    omega
  · rw [eq_zero_of_ne_one hneg, select_zero, IntOp.cmpi_sge, IntOp.cmpi_sle]
    have hneg' : ¬ w.toInt < 0 := by
      rw [IntOp.cmpi_slt, show (0#32 : BitVec 32).toInt = 0 from by decide] at hneg
      exact hneg
    rw [show (0#32 : BitVec 32).toInt = 0 from by decide, show (99999#32 : BitVec 32).toInt = 99999 from by decide]
    omega

/-- A row bit broadcast along the rows reads 1 everywhere when every row's bit is 1. -/
theorem bcast_row_one (R : IVec S1600000 1) (hR : ∀ j, R j = 1#1) (i : S1600000x64.Idx) :
    broadcastInDim S1600000x64 ![0] bcast_S1600000_S1600000x64_0 R i = 1#1 := hR _

/-- With every index in `[-100000, 100000)` every wrapped index is in range, the in-range bit is set on every row, and
    jnp.take's fill never applies: its result is the plain gather at the wrapped indices. -/
theorem takeFill_eq_gather (x : FVec Ideal S100000x64 .f32) (s : IVec S1600000 32)
    (hs : ∀ e : S1600000.Idx, IntOp.cmpi .sge (s e) 4294867296#32 = 1#1 ∧ IntOp.cmpi .slt (s e) 100000#32 = 1#1) :
    takeFill x s = Host.gather gather_S100000x64_S1600000x1_S1600000x64_1_0_n_n_0_1_164 x (wrapIdx s) := by
  -- the wrapped word of every index is in range
  have hsel : ∀ e : S1600000.Idx,
      IntOp.cmpi .sge ((select (cmpi .slt s (broadcastInDim S1600000 ![] bcast_S_S1600000 (constantI S_ 32 0#32)))
            (addi s (broadcastInDim S1600000 ![] bcast_S_S1600000 (constantI S_ 32 100000#32))) s) e) 0#32 = 1#1
      ∧ IntOp.cmpi .sle ((select (cmpi .slt s (broadcastInDim S1600000 ![] bcast_S_S1600000 (constantI S_ 32 0#32)))
            (addi s (broadcastInDim S1600000 ![] bcast_S_S1600000 (constantI S_ 32 100000#32))) s) e) 99999#32 = 1#1 :=
    fun e => wrap_range (s e) (hs e).1 (hs e).2
  -- so both compares hold at every entry of the column
  have hbit : ∀ k : S1600000x1.Idx, (andi (cmpi .sge (wrapIdx s) (broadcastInDim S1600000x1 ![] bcast_S_S1600000x1 (constantI S_ 32 0#32)))
              (cmpi .sle (wrapIdx s) (broadcastInDim S1600000x1 ![0, 1] bcast_S1x1_S1600000x1_0_1 (broadcastInDim S1x1 ![1] bcast_S1_S1x1_1 (constantI S1 32 99999#32))))) k = 1#1 :=
    fun k => IntOp.andi_eq_one.2 (hsel _)
  -- and their conjunction along the column's one-element axis is 1 on every row
  have hred : ∀ j : S1600000.Idx, Host.reduce IntOp.andi
        (andi (cmpi .sge (wrapIdx s) (broadcastInDim S1600000x1 ![] bcast_S_S1600000x1 (constantI S_ 32 0#32)))
              (cmpi .sle (wrapIdx s) (broadcastInDim S1600000x1 ![0, 1] bcast_S1x1_S1600000x1_0_1 (broadcastInDim S1x1 ![1] bcast_S1_S1x1_1 (constantI S1 32 99999#32)))))
        (constantI S_ 1 1#1) reducesTo_S1600000x1_S1600000_d1 h_S_ j = 1#1 := by
    intro j
    rw [Host.reduce_eq_foldl]
    exact foldl_andi_one _ hbit _
  funext i
  unfold takeFill
  rw [select_apply]
  rw [bcast_row_one _ hred i]
  exact select_one _ _

/-- The source-node indices: row 0 of the edge list. -/
def srcOf (a1 : IVec S2x1600000 32) : IVec S1600000 32 :=
  shapeCast S1600000 (extractStridedSlice S1x1600000 ![0, 0] a1 slices_S2x1600000_S1x1600000_0_0) shapeCasts_S1x1600000_S1600000

/-- The precondition's last two conjuncts, read back: every source-node index lies in `[-100000, 100000)`. Each is a
    `jnp.all` — a reduce by `and` over all of a compare's bits — so its being 1 makes every compared bit 1. -/
theorem src_range (m : (ℓ : Loc nD τ sig) → Buf (Elt Ideal) ℓ) (hpre : Cert.Pre_KernelIdeal (hPre_finite_inputs := Cert.Pre_finite_inputs.Gen.facts) m) (c : Dev nD) (e : S1600000.Idx) :
    IntOp.cmpi .sge (srcOf (m ((c.tc : Thread nD τ).loc main_arg1)) e) 4294867296#32 = 1#1 ∧ IntOp.cmpi .slt (srcOf (m ((c.tc : Thread nD τ).loc main_arg1)) e) 100000#32 = 1#1 := by
  have h := congrFun (hpre c) (fun a => a.elim0)
  unfold Cert.Pre_finite_inputs.fn Cert.Pre_finite_inputs.fn_part1 Cert.Pre_finite_inputs.fn_part2 Cert.Pre_finite_inputs.fn_part3 Cert.Pre_finite_inputs.fn_part4 at h
  obtain ⟨h64, h69⟩ := IntOp.andi_eq_one.1 h
  obtain ⟨-, h63⟩ := IntOp.andi_eq_one.1 h64
  haveI : Subsingleton Cert.Pre_finite_inputs.S_.Idx := ⟨fun a b => funext fun d => d.elim0⟩
  exact ⟨Host.reduce_andi_all _ _ _ _ _ h63 e, Host.reduce_andi_all _ _ _ _ _ h69 e⟩

end

end Cert.Take
-- ==== Proof.RefStages.lean ====
import proofs.«400771_j49452253447022_2_alg».proof.Proof.Gen.ReferenceIdeal.Run
import proofs.«400771_j49452253447022_2_alg».proof.Proof.Gen.ReferenceIdeal.Read
import proofs.«400771_j49452253447022_2_alg».proof.Proof.Spec
import Idealize.ShloMosaic.Lib.ValueIdx
import Idealize.ShloMosaic.PureOps.Ideal.Laws

/-
  The reference program's layers are the specification's layers.

  Each encoder, message and update layer of the reference is a product with a weight (two products for the
  message and update layers), a bias row added to every row, and the positive part; the head is the product
  with a one-column weight plus a bias, kept where the mask bit is set and replaced by the fill value
  elsewhere.  Read at an index, every stage of the reference is the corresponding function of the
  specification at that index: the contraction is the same finite sum term by term, and the bias row is read
  at the same column.
-/

noncomputable section

open scoped BigOperators

namespace Cert.RefStages

open Cert.ReferenceIdeal Cert.ReferenceIdeal.Read Idealize.ShloMosaic Idealize.ShloMosaic.ValueIdx

/-- An index of a two-axis array with the coordinates `a` and `b` is `ix2 a b`. -/
theorem idx_eq {n0 n1 : Nat} (j : (⟨2, ![n0, n1]⟩ : Shape).Idx) (a : Fin n0) (b : Fin n1)
    (h0 : j 0 = a) (h1 : j 1 = b) : j = ix2 a b := by
  funext d
  match d with
  | ⟨0, _⟩ => exact h0
  | ⟨1, _⟩ => exact h1

/-- A sum over `k` of products `x (r, k) * w (k, c)`, the operands read at any indices with those coordinates,
    is the entry `(r, c)` of the matrix product. -/
theorem prod_eq (R K C : Nat) (x : FVec Ideal ⟨2, ![R, K]⟩ .f32) (w : FVec Ideal ⟨2, ![K, C]⟩ .f32)
    (i : (⟨2, ![R, C]⟩ : Shape).Idx)
    (li : Fin K → (⟨2, ![R, K]⟩ : Shape).Idx) (ri : Fin K → (⟨2, ![K, C]⟩ : Shape).Idx)
    (hl0 : ∀ k, li k 0 = i 0) (hl1 : ∀ k, li k 1 = k) (hr0 : ∀ k, ri k 0 = k) (hr1 : ∀ k, ri k 1 = i 1) :
    (∑ k : Fin K, x (li k) * w (ri k)) = Cert.Spec.prod R K C x w i := by
  unfold Cert.Spec.prod
  refine Finset.sum_congr rfl fun k _ => ?_
  rw [idx_eq (li k) _ _ (hl0 k) (hl1 k), idx_eq (ri k) _ _ (hr0 k) (hr1 k)]

/-- The positive part of one product plus a bias row, the zero written as the float with the pattern `0`, is
    the one-product layer. -/
theorem dense1_eq (R K C : Nat) (x : FVec Ideal ⟨2, ![R, K]⟩ .f32) (w : FVec Ideal ⟨2, ![K, C]⟩ .f32)
    (b : FVec Ideal ⟨2, ![1, C]⟩ .f32) (i : (⟨2, ![R, C]⟩ : Shape).Idx)
    (li : Fin K → (⟨2, ![R, K]⟩ : Shape).Idx) (ri : Fin K → (⟨2, ![K, C]⟩ : Shape).Idx)
    (bi : (⟨2, ![1, C]⟩ : Shape).Idx)
    (hl0 : ∀ k, li k 0 = i 0) (hl1 : ∀ k, li k 1 = k) (hr0 : ∀ k, ri k 0 = k) (hr1 : ∀ k, ri k 1 = i 1)
    (hb0 : bi 0 = (0 : Fin 1)) (hb1 : bi 1 = i 1) :
    max ((∑ k : Fin K, x (li k) * w (ri k)) + b bi) (Ideal.ofBits .f32 0x00000000#32)
      = Cert.Spec.dense1 R K C x w b i := by
  rw [Ideal.ofBits_zero_f32, prod_eq R K C x w i li ri hl0 hl1 hr0 hr1, idx_eq bi 0 (i 1) hb0 hb1]
  rfl

/-- The positive part of the sum of two products plus a bias row is the two-product layer. -/
theorem dense2_eq (R K C : Nat) (x₁ : FVec Ideal ⟨2, ![R, K]⟩ .f32) (w₁ : FVec Ideal ⟨2, ![K, C]⟩ .f32)
    (x₂ : FVec Ideal ⟨2, ![R, K]⟩ .f32) (w₂ : FVec Ideal ⟨2, ![K, C]⟩ .f32)
    (b : FVec Ideal ⟨2, ![1, C]⟩ .f32) (i : (⟨2, ![R, C]⟩ : Shape).Idx)
    (l₁ : Fin K → (⟨2, ![R, K]⟩ : Shape).Idx) (r₁ : Fin K → (⟨2, ![K, C]⟩ : Shape).Idx)
    (l₂ : Fin K → (⟨2, ![R, K]⟩ : Shape).Idx) (r₂ : Fin K → (⟨2, ![K, C]⟩ : Shape).Idx)
    (bi : (⟨2, ![1, C]⟩ : Shape).Idx)
    (hl0 : ∀ k, l₁ k 0 = i 0) (hl1 : ∀ k, l₁ k 1 = k) (hr0 : ∀ k, r₁ k 0 = k) (hr1 : ∀ k, r₁ k 1 = i 1)
    (gl0 : ∀ k, l₂ k 0 = i 0) (gl1 : ∀ k, l₂ k 1 = k) (gr0 : ∀ k, r₂ k 0 = k) (gr1 : ∀ k, r₂ k 1 = i 1)
    (hb0 : bi 0 = (0 : Fin 1)) (hb1 : bi 1 = i 1) :
    max (((∑ k : Fin K, x₁ (l₁ k) * w₁ (r₁ k)) + (∑ k : Fin K, x₂ (l₂ k) * w₂ (r₂ k))) + b bi)
        (Ideal.ofBits .f32 0x00000000#32)
      = Cert.Spec.dense2 R K C x₁ w₁ x₂ w₂ b i := by
  rw [Ideal.ofBits_zero_f32, prod_eq R K C x₁ w₁ i l₁ r₁ hl0 hl1 hr0 hr1,
    prod_eq R K C x₂ w₂ i l₂ r₂ gl0 gl1 gr0 gr1, idx_eq bi 0 (i 1) hb0 hb1]
  rfl

/-- Not being zero, for a bit extended by zeros to a word, is the bit itself. -/
theorem ne_zero_setWidth (c : BitVec 1) : IntOp.cmpi .ne (c.setWidth 32) 0#32 = c := by
  rcases BitVec.eq_zero_or_eq_one c with h | h <;> subst h <;> decide

/-- The product with a one-column weight plus the bias, kept where the bit `c` is set and replaced by the fill
    value elsewhere, is the head, when the mask word at the index is `c` extended by zeros. -/
theorem head_eq (R K : Nat) (x : FVec Ideal ⟨2, ![R, K]⟩ .f32) (w : FVec Ideal ⟨2, ![K, 1]⟩ .f32)
    (b : FVec Ideal ⟨2, ![1, 1]⟩ .f32) (mask : IVec ⟨2, ![R, 1]⟩ 32) (c : BitVec 1)
    (i : (⟨2, ![R, 1]⟩ : Shape).Idx)
    (li : Fin K → (⟨2, ![R, K]⟩ : Shape).Idx) (ri : Fin K → (⟨2, ![K, 1]⟩ : Shape).Idx)
    (bi : (⟨2, ![1, 1]⟩ : Shape).Idx)
    (hl0 : ∀ k, li k 0 = i 0) (hl1 : ∀ k, li k 1 = k) (hr0 : ∀ k, ri k 0 = k) (hr1 : ∀ k, ri k 1 = i 1)
    (hb0 : bi 0 = (0 : Fin 1)) (hb1 : bi 1 = i 1) (hm : mask i = c.setWidth 32) :
    Scalar.select c ((∑ k : Fin K, x (li k) * w (ri k)) + b bi) (Ideal.ofBits .f32 0xCE6E6B28#32)
      = Cert.Spec.head R K x w b mask i := by
  unfold Cert.Spec.head
  rw [hm, ne_zero_setWidth, prod_eq R K 1 x w i li ri hl0 hl1 hr0 hr1, idx_eq bi 0 (i 1) hb0 hb1]

/-- The node encoder is `max (x · w + b, 0)`. -/
theorem nodeEnc (x0 : (⟨S100000x64, .f32⟩ : BufTy).Contents (Elt Ideal)) (x4 : (⟨S64x64, .f32⟩ : BufTy).Contents (Elt Ideal)) (x5 : (⟨S64, .f32⟩ : BufTy).Contents (Elt Ideal)) :
    val_main_v4 (F := Ideal) x0 x4 x5
      = Cert.Spec.dense1 100000 64 64 x0 x4 (val_main_v1 (F := Ideal) x5) := by
  funext i
  rw [val_main_v4_apply, val_main_v3_apply, val_main_v0_apply, val_main_v2_apply, val_main_call0_v0_apply,
    val_main_call0_cst_apply]
  exact dense1_eq 100000 64 64 x0 x4 (val_main_v1 (F := Ideal) x5) i (lidx_main_v0 i) (ridx_main_v0 i)
    (idx_main_v2 i) (fun _ => rfl) (fun _ => rfl) (fun _ => rfl) (fun _ => rfl) rfl rfl

/-- The edge encoder is `max (x · w + b, 0)`. -/
theorem edgeEnc (x2 : (⟨S1600000x32, .f32⟩ : BufTy).Contents (Elt Ideal)) (x6 : (⟨S32x64, .f32⟩ : BufTy).Contents (Elt Ideal)) (x7 : (⟨S64, .f32⟩ : BufTy).Contents (Elt Ideal)) :
    val_main_v9 (F := Ideal) x2 x6 x7
      = Cert.Spec.dense1 1600000 32 64 x2 x6 (val_main_v6 (F := Ideal) x7) := by
  funext i
  rw [val_main_v9_apply, val_main_v8_apply, val_main_v5_apply, val_main_v7_apply, val_main_call1_v0_apply,
    val_main_call1_cst_apply]
  exact dense1_eq 1600000 32 64 x2 x6 (val_main_v6 (F := Ideal) x7) i (lidx_main_v5 i) (ridx_main_v5 i)
    (idx_main_v7 i) (fun _ => rfl) (fun _ => rfl) (fun _ => rfl) (fun _ => rfl) rfl rfl

/-- The first round's message is `max ((n · w₁ + e · w₂) + b, 0)` on the gathered node rows `n` and the edge
    rows `e`. -/
theorem msg0 (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x4 : (⟨S64x64, .f32⟩ : BufTy).Contents (Elt Ideal)) (x5 : (⟨S64, .f32⟩ : BufTy).Contents (Elt Ideal)) (x6 : (⟨S32x64, .f32⟩ : BufTy).Contents (Elt Ideal)) (x7 : (⟨S64, .f32⟩ : BufTy).Contents (Elt Ideal)) (x8 : (⟨S2x128x64, .f32⟩ : BufTy).Contents (Elt Ideal)) (x9 : (⟨S2x64, .f32⟩ : BufTy).Contents (Elt Ideal)) :
    val_main_v33 (F := Ideal) x0 x1 x2 x4 x5 x6 x7 x8 x9
      = Cert.Spec.dense2 1600000 64 64 (val_main_v20 (F := Ideal) x0 x1 x4 x5) (val_main_v22 (F := Ideal) x8)
          (val_main_v9 (F := Ideal) x2 x6 x7) (val_main_v25 (F := Ideal) x8) (val_main_v30 (F := Ideal) x9) := by
  funext i
  rw [val_main_v33_apply, val_main_v32_apply, val_main_v27_apply, val_main_v23_apply, val_main_v26_apply,
    val_main_v31_apply, val_main_call2_v0_apply, val_main_call2_cst_apply]
  exact dense2_eq 1600000 64 64 (val_main_v20 (F := Ideal) x0 x1 x4 x5) (val_main_v22 (F := Ideal) x8)
    (val_main_v9 (F := Ideal) x2 x6 x7) (val_main_v25 (F := Ideal) x8) (val_main_v30 (F := Ideal) x9) i
    (lidx_main_v23 i) (ridx_main_v23 i) (lidx_main_v26 i) (ridx_main_v26 i) (idx_main_v31 i)
    (fun _ => rfl) (fun _ => rfl) (fun _ => rfl) (fun _ => rfl) (fun _ => rfl) (fun _ => rfl) (fun _ => rfl) (fun _ => rfl) rfl rfl

/-- The first round's update is `max ((n · w₁ + a · w₂) + b, 0)` on the node rows `n` and the aggregated
    messages `a`. -/
theorem upd0 (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x4 : (⟨S64x64, .f32⟩ : BufTy).Contents (Elt Ideal)) (x5 : (⟨S64, .f32⟩ : BufTy).Contents (Elt Ideal)) (x6 : (⟨S32x64, .f32⟩ : BufTy).Contents (Elt Ideal)) (x7 : (⟨S64, .f32⟩ : BufTy).Contents (Elt Ideal)) (x8 : (⟨S2x128x64, .f32⟩ : BufTy).Contents (Elt Ideal)) (x9 : (⟨S2x64, .f32⟩ : BufTy).Contents (Elt Ideal)) (x10 : (⟨S2x128x64, .f32⟩ : BufTy).Contents (Elt Ideal)) (x11 : (⟨S2x64, .f32⟩ : BufTy).Contents (Elt Ideal)) :
    val_main_v49 (F := Ideal) x0 x1 x2 x4 x5 x6 x7 x8 x9 x10 x11
      = Cert.Spec.dense2 100000 64 64 (val_main_v4 (F := Ideal) x0 x4 x5) (val_main_v38 (F := Ideal) x10)
          (val_main_v36 (F := Ideal) x0 x1 x2 x4 x5 x6 x7 x8 x9) (val_main_v41 (F := Ideal) x10) (val_main_v46 (F := Ideal) x11) := by
  funext i
  rw [val_main_v49_apply, val_main_v48_apply, val_main_v43_apply, val_main_v39_apply, val_main_v42_apply,
    val_main_v47_apply, val_main_call3_v0_apply, val_main_call3_cst_apply]
  exact dense2_eq 100000 64 64 (val_main_v4 (F := Ideal) x0 x4 x5) (val_main_v38 (F := Ideal) x10)
    (val_main_v36 (F := Ideal) x0 x1 x2 x4 x5 x6 x7 x8 x9) (val_main_v41 (F := Ideal) x10) (val_main_v46 (F := Ideal) x11) i
    (lidx_main_v39 i) (ridx_main_v39 i) (lidx_main_v42 i) (ridx_main_v42 i) (idx_main_v47 i)
    (fun _ => rfl) (fun _ => rfl) (fun _ => rfl) (fun _ => rfl) (fun _ => rfl) (fun _ => rfl) (fun _ => rfl) (fun _ => rfl) rfl rfl

/-- The second round's message is `max ((n · w₁ + e · w₂) + b, 0)` on the gathered node rows `n` and the edge
    rows `e`. -/
theorem msg1 (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x4 : (⟨S64x64, .f32⟩ : BufTy).Contents (Elt Ideal)) (x5 : (⟨S64, .f32⟩ : BufTy).Contents (Elt Ideal)) (x6 : (⟨S32x64, .f32⟩ : BufTy).Contents (Elt Ideal)) (x7 : (⟨S64, .f32⟩ : BufTy).Contents (Elt Ideal)) (x8 : (⟨S2x128x64, .f32⟩ : BufTy).Contents (Elt Ideal)) (x9 : (⟨S2x64, .f32⟩ : BufTy).Contents (Elt Ideal)) (x10 : (⟨S2x128x64, .f32⟩ : BufTy).Contents (Elt Ideal)) (x11 : (⟨S2x64, .f32⟩ : BufTy).Contents (Elt Ideal)) :
    val_main_v69 (F := Ideal) x0 x1 x2 x4 x5 x6 x7 x8 x9 x10 x11
      = Cert.Spec.dense2 1600000 64 64 (val_main_v56 (F := Ideal) x0 x1 x2 x4 x5 x6 x7 x8 x9 x10 x11) (val_main_v58 (F := Ideal) x8)
          (val_main_v9 (F := Ideal) x2 x6 x7) (val_main_v61 (F := Ideal) x8) (val_main_v66 (F := Ideal) x9) := by
  funext i
  rw [val_main_v69_apply, val_main_v68_apply, val_main_v63_apply, val_main_v59_apply, val_main_v62_apply,
    val_main_v67_apply, val_main_call4_v0_apply, val_main_call4_cst_apply]
  exact dense2_eq 1600000 64 64 (val_main_v56 (F := Ideal) x0 x1 x2 x4 x5 x6 x7 x8 x9 x10 x11) (val_main_v58 (F := Ideal) x8)
    (val_main_v9 (F := Ideal) x2 x6 x7) (val_main_v61 (F := Ideal) x8) (val_main_v66 (F := Ideal) x9) i
    (lidx_main_v59 i) (ridx_main_v59 i) (lidx_main_v62 i) (ridx_main_v62 i) (idx_main_v67 i)
    (fun _ => rfl) (fun _ => rfl) (fun _ => rfl) (fun _ => rfl) (fun _ => rfl) (fun _ => rfl) (fun _ => rfl) (fun _ => rfl) rfl rfl

/-- The second round's update is `max ((n · w₁ + a · w₂) + b, 0)` on the node rows `n` and the aggregated
    messages `a`. -/
theorem upd1 (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x4 : (⟨S64x64, .f32⟩ : BufTy).Contents (Elt Ideal)) (x5 : (⟨S64, .f32⟩ : BufTy).Contents (Elt Ideal)) (x6 : (⟨S32x64, .f32⟩ : BufTy).Contents (Elt Ideal)) (x7 : (⟨S64, .f32⟩ : BufTy).Contents (Elt Ideal)) (x8 : (⟨S2x128x64, .f32⟩ : BufTy).Contents (Elt Ideal)) (x9 : (⟨S2x64, .f32⟩ : BufTy).Contents (Elt Ideal)) (x10 : (⟨S2x128x64, .f32⟩ : BufTy).Contents (Elt Ideal)) (x11 : (⟨S2x64, .f32⟩ : BufTy).Contents (Elt Ideal)) :
    val_main_v85 (F := Ideal) x0 x1 x2 x4 x5 x6 x7 x8 x9 x10 x11
      = Cert.Spec.dense2 100000 64 64 (val_main_v49 (F := Ideal) x0 x1 x2 x4 x5 x6 x7 x8 x9 x10 x11) (val_main_v74 (F := Ideal) x10)
          (val_main_v72 (F := Ideal) x0 x1 x2 x4 x5 x6 x7 x8 x9 x10 x11) (val_main_v77 (F := Ideal) x10) (val_main_v82 (F := Ideal) x11) := by
  funext i
  rw [val_main_v85_apply, val_main_v84_apply, val_main_v79_apply, val_main_v75_apply, val_main_v78_apply,
    val_main_v83_apply, val_main_call5_v0_apply, val_main_call5_cst_apply]
  exact dense2_eq 100000 64 64 (val_main_v49 (F := Ideal) x0 x1 x2 x4 x5 x6 x7 x8 x9 x10 x11) (val_main_v74 (F := Ideal) x10)
    (val_main_v72 (F := Ideal) x0 x1 x2 x4 x5 x6 x7 x8 x9 x10 x11) (val_main_v77 (F := Ideal) x10) (val_main_v82 (F := Ideal) x11) i
    (lidx_main_v75 i) (ridx_main_v75 i) (lidx_main_v78 i) (ridx_main_v78 i) (idx_main_v83 i)
    (fun _ => rfl) (fun _ => rfl) (fun _ => rfl) (fun _ => rfl) (fun _ => rfl) (fun _ => rfl) (fun _ => rfl) (fun _ => rfl) rfl rfl

/-- The reference's output at row `r` is the head at `(r, 0)`: `n · w + b` where the mask bit is set, the fill
    value elsewhere, the mask word being the bit extended by zeros. -/
theorem headRef (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x3 : (⟨S100000, .i1⟩ : BufTy).Contents (Elt Ideal)) (x4 : (⟨S64x64, .f32⟩ : BufTy).Contents (Elt Ideal)) (x5 : (⟨S64, .f32⟩ : BufTy).Contents (Elt Ideal)) (x6 : (⟨S32x64, .f32⟩ : BufTy).Contents (Elt Ideal)) (x7 : (⟨S64, .f32⟩ : BufTy).Contents (Elt Ideal)) (x8 : (⟨S2x128x64, .f32⟩ : BufTy).Contents (Elt Ideal)) (x9 : (⟨S2x64, .f32⟩ : BufTy).Contents (Elt Ideal)) (x10 : (⟨S2x128x64, .f32⟩ : BufTy).Contents (Elt Ideal)) (x11 : (⟨S2x64, .f32⟩ : BufTy).Contents (Elt Ideal)) (x12 : (⟨S64x1, .f32⟩ : BufTy).Contents (Elt Ideal)) (x13 : (⟨S1, .f32⟩ : BufTy).Contents (Elt Ideal))
    (msk : IVec ⟨2, ![100000, 1]⟩ 32)
    (hm : ∀ r : Fin 100000, msk (ix2 r 0) = (x3 (ix1 r)).setWidth 32) (r : Fin 100000) :
    val_main_v91 (F := Ideal) x0 x1 x2 x3 x4 x5 x6 x7 x8 x9 x10 x11 x12 x13 (ix1 r)
      = Cert.Spec.head 100000 64 (val_main_v85 (F := Ideal) x0 x1 x2 x4 x5 x6 x7 x8 x9 x10 x11) x12 (val_main_v87 (F := Ideal) x13) msk (ix2 r 0) := by
  have h90 : idx_main_v90 (ix1 r) = ix2 r 0 := idx_eq _ _ _ (Fin.ext (Nat.div_one _)) rfl
  rw [val_main_v91_apply, val_main_v90_apply, val_main_call6_v1_apply, val_main_call6_v0_apply,
    val_main_cst_4_apply, h90, val_main_v89_apply, val_main_v86_apply, val_main_v88_apply]
  exact head_eq 100000 64 (val_main_v85 (F := Ideal) x0 x1 x2 x4 x5 x6 x7 x8 x9 x10 x11) x12 (val_main_v87 (F := Ideal) x13) msk (x3 (ix1 r)) (ix2 r 0)
    (lidx_main_v86 (ix2 r 0)) (ridx_main_v86 (ix2 r 0)) (idx_main_v88 (ix2 r 0))
    (fun _ => rfl) (fun _ => rfl) (fun _ => rfl) (fun _ => rfl) rfl rfl (hm r)

end Cert.RefStages

end
-- ==== Proof.Chain.lean ====
/-
  The kernel program's run, read forward against the reference's own stages.

  The program is eighteen segments: stretches of host operations and seven launches.  The contents of the buffers at
  each boundary are a fold from the launch memory; this module reads that fold one boundary at a time and shows,
  for every buffer a later segment reads, that it holds the SAME array as the stage of the reference program that
  computes the corresponding quantity: the encoded nodes and edges, the gathered source rows, the messages, their
  sums per target node, the updated nodes (two rounds), and the masked head.  Three things make the two sides
  meet: a launch's output array is its layer's whole-array function of its input arrays (the launch modules) and
  so is the reference's stage (its composition of a product, a broadcast bias and a positive part); the gather
  with the out-of-range fill is the plain gather once every source index is in range (the precondition); and a
  bias vector read as a one-row matrix is the same array whether it was reshaped or broadcast.  The argument
  arrays are written by no segment, so every boundary holds them as launched.
-/
import proofs.«400771_j49452253447022_2_alg».proof.Proof.Region0
import proofs.«400771_j49452253447022_2_alg».proof.Proof.Region1
import proofs.«400771_j49452253447022_2_alg».proof.Proof.Region2
import proofs.«400771_j49452253447022_2_alg».proof.Proof.Region3
import proofs.«400771_j49452253447022_2_alg».proof.Proof.Region4
import proofs.«400771_j49452253447022_2_alg».proof.Proof.Region5
import proofs.«400771_j49452253447022_2_alg».proof.Proof.Region6
import proofs.«400771_j49452253447022_2_alg».proof.Proof.Take
import proofs.«400771_j49452253447022_2_alg».proof.Proof.RefStages
import Idealize.ShloMosaic.Lib.ValueLayout

set_option maxRecDepth 16384

noncomputable section

namespace Cert.Chain

open Cert.KernelIdeal Cert.KernelIdeal.Gen
open Idealize.ShloMosaic Idealize.ShloMosaic.TcCoe Idealize.ShloMosaic.ValueIdx Idealize.SL.Sem
open Cert.ReferenceIdeal.Read

/-- A buffer that no operation of a host stretch writes keeps its contents across the stretch. -/
macro "stretch_keeps" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))))

/-! ## The argument arrays are as launched at every boundary -/

/-- The argument arrays' references. -/
def argRefs : List (Ref sig .tc) :=
  [main_arg0, main_arg1, main_arg2, main_arg3, main_arg4, main_arg5, main_arg6, main_arg7, main_arg8, main_arg9,
   main_arg10, main_arg11, main_arg12, main_arg13]

theorem ne_of_arg {r x : Ref sig .tc} (hr : r ∈ argRefs) (hx : x ∉ argRefs) : r ≠ x := fun h => hx (h ▸ hr)

theorem mem_arg0 : main_arg0 ∈ argRefs := by decide
theorem mem_arg1 : main_arg1 ∈ argRefs := by decide
theorem mem_arg2 : main_arg2 ∈ argRefs := by decide
theorem mem_arg3 : main_arg3 ∈ argRefs := by decide
theorem mem_arg4 : main_arg4 ∈ argRefs := by decide
theorem mem_arg5 : main_arg5 ∈ argRefs := by decide
theorem mem_arg6 : main_arg6 ∈ argRefs := by decide
theorem mem_arg7 : main_arg7 ∈ argRefs := by decide
theorem mem_arg8 : main_arg8 ∈ argRefs := by decide
theorem mem_arg9 : main_arg9 ∈ argRefs := by decide
theorem mem_arg10 : main_arg10 ∈ argRefs := by decide
theorem mem_arg11 : main_arg11 ∈ argRefs := by decide
theorem mem_arg12 : main_arg12 ∈ argRefs := by decide
theorem mem_arg13 : main_arg13 ∈ argRefs := by decide

/-! No operation of a host stretch writes an argument array. -/

theorem keep_hostOps0 {r : Ref sig .tc} (hr : r ∈ argRefs) (W : Valuation τ sig (Elt Ideal)) :
    StableHlo.after hostOps0 W (Proc.devRef .tc r) = W (Proc.devRef .tc r) :=
  StableHlo.after_of_forall_not_mem (b := Proc.devRef .tc r) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (ne_of_arg hr (by decide))))
theorem keep_hostOps1 {r : Ref sig .tc} (hr : r ∈ argRefs) (W : Valuation τ sig (Elt Ideal)) :
    StableHlo.after hostOps1 W (Proc.devRef .tc r) = W (Proc.devRef .tc r) :=
  StableHlo.after_of_forall_not_mem (b := Proc.devRef .tc r) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (ne_of_arg hr (by decide))))
theorem keep_hostOps2 {r : Ref sig .tc} (hr : r ∈ argRefs) (W : Valuation τ sig (Elt Ideal)) :
    StableHlo.after hostOps2 W (Proc.devRef .tc r) = W (Proc.devRef .tc r) :=
  StableHlo.after_of_forall_not_mem (b := Proc.devRef .tc r) _ _ (List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (ne_of_arg hr (by decide))))
theorem keep_hostOps2_1 {r : Ref sig .tc} (hr : r ∈ argRefs) (W : Valuation τ sig (Elt Ideal)) :
    StableHlo.after hostOps2_1 W (Proc.devRef .tc r) = W (Proc.devRef .tc r) :=
  StableHlo.after_of_forall_not_mem (b := Proc.devRef .tc r) _ _ (List.forall_iff_forall_mem.mp (by
    simp only [hostOps2_1, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (ne_of_arg hr (by decide))))
theorem keep_hostOps2_2 {r : Ref sig .tc} (hr : r ∈ argRefs) (W : Valuation τ sig (Elt Ideal)) :
    StableHlo.after hostOps2_2 W (Proc.devRef .tc r) = W (Proc.devRef .tc r) :=
  StableHlo.after_of_forall_not_mem (b := Proc.devRef .tc r) _ _ (List.forall_iff_forall_mem.mp (by
    simp only [hostOps2_2, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (ne_of_arg hr (by decide))))
theorem keep_hostOps3 {r : Ref sig .tc} (hr : r ∈ argRefs) (W : Valuation τ sig (Elt Ideal)) :
    StableHlo.after hostOps3 W (Proc.devRef .tc r) = W (Proc.devRef .tc r) :=
  StableHlo.after_of_forall_not_mem (b := Proc.devRef .tc r) _ _ (List.forall_iff_forall_mem.mp (by
    simp only [hostOps3, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (ne_of_arg hr (by decide))))
theorem keep_hostOps4 {r : Ref sig .tc} (hr : r ∈ argRefs) (W : Valuation τ sig (Elt Ideal)) :
    StableHlo.after hostOps4 W (Proc.devRef .tc r) = W (Proc.devRef .tc r) :=
  StableHlo.after_of_forall_not_mem (b := Proc.devRef .tc r) _ _ (List.forall_iff_forall_mem.mp (by
    simp only [hostOps4, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (ne_of_arg hr (by decide))))
theorem keep_hostOps4_1 {r : Ref sig .tc} (hr : r ∈ argRefs) (W : Valuation τ sig (Elt Ideal)) :
    StableHlo.after hostOps4_1 W (Proc.devRef .tc r) = W (Proc.devRef .tc r) :=
  StableHlo.after_of_forall_not_mem (b := Proc.devRef .tc r) _ _ (List.forall_iff_forall_mem.mp (by
    simp only [hostOps4_1, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (ne_of_arg hr (by decide))))
theorem keep_hostOps5 {r : Ref sig .tc} (hr : r ∈ argRefs) (W : Valuation τ sig (Elt Ideal)) :
    StableHlo.after hostOps5 W (Proc.devRef .tc r) = W (Proc.devRef .tc r) :=
  StableHlo.after_of_forall_not_mem (b := Proc.devRef .tc r) _ _ (List.forall_iff_forall_mem.mp (by
    simp only [hostOps5, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (ne_of_arg hr (by decide))))
theorem keep_hostOps6 {r : Ref sig .tc} (hr : r ∈ argRefs) (W : Valuation τ sig (Elt Ideal)) :
    StableHlo.after hostOps6 W (Proc.devRef .tc r) = W (Proc.devRef .tc r) :=
  StableHlo.after_of_forall_not_mem (b := Proc.devRef .tc r) _ _ (List.forall_iff_forall_mem.mp (by
    simp only [hostOps6, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (ne_of_arg hr (by decide))))
theorem keep_hostOps7 {r : Ref sig .tc} (hr : r ∈ argRefs) (W : Valuation τ sig (Elt Ideal)) :
    StableHlo.after hostOps7 W (Proc.devRef .tc r) = W (Proc.devRef .tc r) :=
  StableHlo.after_of_forall_not_mem (b := Proc.devRef .tc r) _ _ (List.forall_iff_forall_mem.mp (by
    simp only [hostOps7, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (ne_of_arg hr (by decide))))

/-- Contents carried to a typed reference's buffer and back are unchanged. -/
theorem ofBuf_toBuf {T : BufTy} (x : StableHlo.TRef sig T) (v : T.Contents (Elt Ideal)) : x.ofBuf (x.toBuf v) = v := by
  obtain ⟨r, h, h1, h2⟩ := x
  subst h
  rfl

/-! ## What each host stretch computes, from any contents `F` of the buffers it starts from -/

section Stretches
variable (F : Valuation τ sig (Elt Ideal))

theorem bias0 : StableHlo.after hostOps0 F (Proc.devRef .tc main_v0) = shapeCast S1x64 (F (Proc.devRef .tc main_arg5)) shapeCasts_S64_S1x64 := by
  dsimp only [hostOps0]; after_results; rfl
theorem bias1 : StableHlo.after hostOps1 F (Proc.devRef .tc main_v2) = shapeCast S1x64 (F (Proc.devRef .tc main_arg7)) shapeCasts_S64_S1x64 := by
  dsimp only [hostOps1]; after_results; rfl
theorem srcRow : StableHlo.after hostOps2 F (Proc.devRef .tc main_v5) = Cert.Take.srcOf (F (Proc.devRef .tc main_arg1)) := by
  dsimp only [hostOps2]; after_results; rfl
theorem tgtRow : StableHlo.after hostOps2 F (Proc.devRef .tc main_v7)
    = shapeCast S1600000 (extractStridedSlice S1x1600000 ![1, 0] (F (Proc.devRef .tc main_arg1)) slices_S2x1600000_S1x1600000_1_0) shapeCasts_S1x1600000_S1600000 := by
  dsimp only [hostOps2]; after_results; rfl
set_option maxHeartbeats 8000000 in
/-- The stretch that gathers the source rows (the first round's): its result is the gather with the out-of-range fill
    of the node states and the source indices it starts from.  The operations' results are first brought to the
    same expression as the definition's (the typed references' transports cancelled), then the two are compared. -/
theorem take0 : StableHlo.after hostOps2_1 F (Proc.devRef .tc main_v8) = Cert.Take.takeFill (F (Proc.devRef .tc main_v1)) (F (Proc.devRef .tc main_v5)) := by
  have e5 : (StableHlo.TRef.of main_v5 : StableHlo.TRef sig ⟨S1600000, .i32⟩).ofBuf (F (Proc.devRef .tc main_v5)) = F (Proc.devRef .tc main_v5) := rfl
  have e1 : (StableHlo.TRef.of main_v1 : StableHlo.TRef sig ⟨S100000x64, .f32⟩).ofBuf (F (Proc.devRef .tc main_v1)) = F (Proc.devRef .tc main_v1) := rfl
  dsimp only [hostOps2_1]; after_results_simp; simp only [ofBuf_toBuf, e5, e1]
  exact (eq_of_heq (cast_heq _ _)).trans rfl
set_option maxHeartbeats 8000000 in
/-- The same stretch of the second round. -/
theorem take1 : StableHlo.after hostOps4 F (Proc.devRef .tc main_v28) = Cert.Take.takeFill (F (Proc.devRef .tc main_v27)) (F (Proc.devRef .tc main_v5)) := by
  have e5 : (StableHlo.TRef.of main_v5 : StableHlo.TRef sig ⟨S1600000, .i32⟩).ofBuf (F (Proc.devRef .tc main_v5)) = F (Proc.devRef .tc main_v5) := rfl
  have e1 : (StableHlo.TRef.of main_v27 : StableHlo.TRef sig ⟨S100000x64, .f32⟩).ofBuf (F (Proc.devRef .tc main_v27)) = F (Proc.devRef .tc main_v27) := rfl
  dsimp only [hostOps4]; after_results_simp; simp only [ofBuf_toBuf, e5, e1]
  exact (eq_of_heq (cast_heq _ _)).trans rfl
theorem msgW0 : StableHlo.after hostOps2_2 F (Proc.devRef .tc main_v10)
    = shapeCast S64x64 (extractStridedSlice S1x64x64 ![0, 0, 0] (F (Proc.devRef .tc main_arg8)) slices_S2x128x64_S1x64x64_0_0_0) shapeCasts_S1x64x64_S64x64 := by
  dsimp only [hostOps2_2]; after_results; rfl
theorem msgW0e : StableHlo.after hostOps2_2 F (Proc.devRef .tc main_v12)
    = shapeCast S64x64 (extractStridedSlice S1x64x64 ![0, 64, 0] (F (Proc.devRef .tc main_arg8)) slices_S2x128x64_S1x64x64_0_64_0) shapeCasts_S1x64x64_S64x64 := by
  dsimp only [hostOps2_2]; after_results; rfl
theorem updW0 : StableHlo.after hostOps3 F (Proc.devRef .tc main_v21)
    = shapeCast S64x64 (extractStridedSlice S1x64x64 ![0, 0, 0] (F (Proc.devRef .tc main_arg10)) slices_S2x128x64_S1x64x64_0_0_0) shapeCasts_S1x64x64_S64x64 := by
  dsimp only [hostOps3]; after_results; rfl
theorem updW0e : StableHlo.after hostOps3 F (Proc.devRef .tc main_v23)
    = shapeCast S64x64 (extractStridedSlice S1x64x64 ![0, 64, 0] (F (Proc.devRef .tc main_arg10)) slices_S2x128x64_S1x64x64_0_64_0) shapeCasts_S1x64x64_S64x64 := by
  dsimp only [hostOps3]; after_results; rfl
theorem msgW1 : StableHlo.after hostOps4_1 F (Proc.devRef .tc main_v30)
    = shapeCast S64x64 (extractStridedSlice S1x64x64 ![1, 0, 0] (F (Proc.devRef .tc main_arg8)) slices_S2x128x64_S1x64x64_1_0_0) shapeCasts_S1x64x64_S64x64 := by
  dsimp only [hostOps4_1]; after_results; rfl
theorem msgW1e : StableHlo.after hostOps4_1 F (Proc.devRef .tc main_v32)
    = shapeCast S64x64 (extractStridedSlice S1x64x64 ![1, 64, 0] (F (Proc.devRef .tc main_arg8)) slices_S2x128x64_S1x64x64_1_64_0) shapeCasts_S1x64x64_S64x64 := by
  dsimp only [hostOps4_1]; after_results; rfl
theorem updW1 : StableHlo.after hostOps5 F (Proc.devRef .tc main_v41)
    = shapeCast S64x64 (extractStridedSlice S1x64x64 ![1, 0, 0] (F (Proc.devRef .tc main_arg10)) slices_S2x128x64_S1x64x64_1_0_0) shapeCasts_S1x64x64_S64x64 := by
  dsimp only [hostOps5]; after_results; rfl
theorem updW1e : StableHlo.after hostOps5 F (Proc.devRef .tc main_v43)
    = shapeCast S64x64 (extractStridedSlice S1x64x64 ![1, 64, 0] (F (Proc.devRef .tc main_arg10)) slices_S2x128x64_S1x64x64_1_64_0) shapeCasts_S1x64x64_S64x64 := by
  dsimp only [hostOps5]; after_results; rfl
theorem msgB0 : StableHlo.after hostOps2_2 F (Proc.devRef .tc main_v15)
    = shapeCast S1x64 (shapeCast S64 (extractStridedSlice S1x64 ![0, 0] (F (Proc.devRef .tc main_arg9)) slices_S2x64_S1x64_0_0) shapeCasts_S1x64_S64) shapeCasts_S64_S1x64 := by
  dsimp only [hostOps2_2]; after_results; rfl
theorem updB0 : StableHlo.after hostOps3 F (Proc.devRef .tc main_v26)
    = shapeCast S1x64 (shapeCast S64 (extractStridedSlice S1x64 ![0, 0] (F (Proc.devRef .tc main_arg11)) slices_S2x64_S1x64_0_0) shapeCasts_S1x64_S64) shapeCasts_S64_S1x64 := by
  dsimp only [hostOps3]; after_results; rfl
theorem msgB1 : StableHlo.after hostOps4_1 F (Proc.devRef .tc main_v35)
    = shapeCast S1x64 (shapeCast S64 (extractStridedSlice S1x64 ![1, 0] (F (Proc.devRef .tc main_arg9)) slices_S2x64_S1x64_1_0) shapeCasts_S1x64_S64) shapeCasts_S64_S1x64 := by
  dsimp only [hostOps4_1]; after_results; rfl
theorem updB1 : StableHlo.after hostOps5 F (Proc.devRef .tc main_v46)
    = shapeCast S1x64 (shapeCast S64 (extractStridedSlice S1x64 ![1, 0] (F (Proc.devRef .tc main_arg11)) slices_S2x64_S1x64_1_0) shapeCasts_S1x64_S64) shapeCasts_S64_S1x64 := by
  dsimp only [hostOps5]; after_results; rfl
theorem agg0 : StableHlo.after hostOps3 F (Proc.devRef .tc main_v19)
    = Host.scatterAdd scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 (F (Proc.devRef .tc main_v7))) (F (Proc.devRef .tc main_v16)) := by
  dsimp only [hostOps3]; after_results
theorem agg1 : StableHlo.after hostOps5 F (Proc.devRef .tc main_v39)
    = Host.scatterAdd scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 (F (Proc.devRef .tc main_v7))) (F (Proc.devRef .tc main_v36)) := by
  dsimp only [hostOps5]; after_results
theorem headB : StableHlo.after hostOps6 F (Proc.devRef .tc main_v49) = shapeCast S1x1 (F (Proc.devRef .tc main_arg13)) shapeCasts_S1_S1x1 := by
  dsimp only [hostOps6]; after_results; rfl
theorem headM : StableHlo.after hostOps6 F (Proc.devRef .tc main_v50)
    = shapeCast S100000x1 (extui 32 (F (Proc.devRef .tc main_arg3)) natLt_1_32) shapeCasts_S100000_S100000x1 := by
  dsimp only [hostOps6]; after_results; rfl
theorem result : StableHlo.after hostOps7 F (Proc.devRef .tc main_v52) = shapeCast S100000 (F (Proc.devRef .tc main_v51)) shapeCasts_S100000x1_S100000 := by
  dsimp only [hostOps7]; after_results; rfl

end Stretches

variable (m : (ℓ : Loc nD τ sig) → Buf (Elt Ideal) ℓ) (ρ : Dev nD → PrngReg) (c : Dev nD)

/-! A launch leaves an argument array as it found it: it is either none of the launch's arrays or one of its inputs. -/

theorem keep_region0 {r : Ref sig .tc} (hr : r ∈ argRefs) :
    W2 m ρ c (Proc.devRef .tc r) = W1 m ρ c (Proc.devRef .tc r) := by
  simp only [argRefs, List.mem_cons, List.not_mem_nil, or_false] at hr
  rcases hr with rfl | rfl | rfl | rfl | rfl | rfl | rfl | rfl | rfl | rfl | rfl | rfl | rfl | rfl
  all_goals first
    | exact W2_of_ne m ρ c _ (by decide)
    | exact (W2_arr m ρ c 0).trans (((dat0 (V1 m ρ) c).arrAt_in 0 rfl _).trans (A_eq0 (V1 m ρ) c 0))
    | exact (W2_arr m ρ c 1).trans (((dat0 (V1 m ρ) c).arrAt_in 1 rfl _).trans (A_eq0 (V1 m ρ) c 1))
    | exact (W2_arr m ρ c 2).trans (((dat0 (V1 m ρ) c).arrAt_in 2 rfl _).trans (A_eq0 (V1 m ρ) c 2))
theorem keep_region1 {r : Ref sig .tc} (hr : r ∈ argRefs) :
    W4 m ρ c (Proc.devRef .tc r) = W3 m ρ c (Proc.devRef .tc r) := by
  simp only [argRefs, List.mem_cons, List.not_mem_nil, or_false] at hr
  rcases hr with rfl | rfl | rfl | rfl | rfl | rfl | rfl | rfl | rfl | rfl | rfl | rfl | rfl | rfl
  all_goals first
    | exact W4_of_ne m ρ c _ (by decide)
    | exact (W4_arr m ρ c 0).trans (((dat1 (V3 m ρ) c).arrAt_in 0 rfl _).trans (A_eq1 (V3 m ρ) c 0))
    | exact (W4_arr m ρ c 1).trans (((dat1 (V3 m ρ) c).arrAt_in 1 rfl _).trans (A_eq1 (V3 m ρ) c 1))
    | exact (W4_arr m ρ c 2).trans (((dat1 (V3 m ρ) c).arrAt_in 2 rfl _).trans (A_eq1 (V3 m ρ) c 2))
theorem keep_region2 {r : Ref sig .tc} (hr : r ∈ argRefs) :
    W8 m ρ c (Proc.devRef .tc r) = W7 m ρ c (Proc.devRef .tc r) := by
  simp only [argRefs, List.mem_cons, List.not_mem_nil, or_false] at hr
  rcases hr with rfl | rfl | rfl | rfl | rfl | rfl | rfl | rfl | rfl | rfl | rfl | rfl | rfl | rfl
  all_goals first
    | exact W8_of_ne m ρ c _ (by decide)
    | exact (W8_arr m ρ c 0).trans (((dat2 (V7 m ρ) c).arrAt_in 0 rfl _).trans (A_eq2 (V7 m ρ) c 0))
    | exact (W8_arr m ρ c 1).trans (((dat2 (V7 m ρ) c).arrAt_in 1 rfl _).trans (A_eq2 (V7 m ρ) c 1))
    | exact (W8_arr m ρ c 2).trans (((dat2 (V7 m ρ) c).arrAt_in 2 rfl _).trans (A_eq2 (V7 m ρ) c 2))
    | exact (W8_arr m ρ c 3).trans (((dat2 (V7 m ρ) c).arrAt_in 3 rfl _).trans (A_eq2 (V7 m ρ) c 3))
    | exact (W8_arr m ρ c 4).trans (((dat2 (V7 m ρ) c).arrAt_in 4 rfl _).trans (A_eq2 (V7 m ρ) c 4))
theorem keep_region3 {r : Ref sig .tc} (hr : r ∈ argRefs) :
    W10 m ρ c (Proc.devRef .tc r) = W9 m ρ c (Proc.devRef .tc r) := by
  simp only [argRefs, List.mem_cons, List.not_mem_nil, or_false] at hr
  rcases hr with rfl | rfl | rfl | rfl | rfl | rfl | rfl | rfl | rfl | rfl | rfl | rfl | rfl | rfl
  all_goals first
    | exact W10_of_ne m ρ c _ (by decide)
    | exact (W10_arr m ρ c 0).trans (((dat3 (V9 m ρ) c).arrAt_in 0 rfl _).trans (A_eq3 (V9 m ρ) c 0))
    | exact (W10_arr m ρ c 1).trans (((dat3 (V9 m ρ) c).arrAt_in 1 rfl _).trans (A_eq3 (V9 m ρ) c 1))
    | exact (W10_arr m ρ c 2).trans (((dat3 (V9 m ρ) c).arrAt_in 2 rfl _).trans (A_eq3 (V9 m ρ) c 2))
    | exact (W10_arr m ρ c 3).trans (((dat3 (V9 m ρ) c).arrAt_in 3 rfl _).trans (A_eq3 (V9 m ρ) c 3))
    | exact (W10_arr m ρ c 4).trans (((dat3 (V9 m ρ) c).arrAt_in 4 rfl _).trans (A_eq3 (V9 m ρ) c 4))
theorem keep_region4 {r : Ref sig .tc} (hr : r ∈ argRefs) :
    W13 m ρ c (Proc.devRef .tc r) = W12 m ρ c (Proc.devRef .tc r) := by
  simp only [argRefs, List.mem_cons, List.not_mem_nil, or_false] at hr
  rcases hr with rfl | rfl | rfl | rfl | rfl | rfl | rfl | rfl | rfl | rfl | rfl | rfl | rfl | rfl
  all_goals first
    | exact W13_of_ne m ρ c _ (by decide)
    | exact (W13_arr m ρ c 0).trans (((dat4 (V12 m ρ) c).arrAt_in 0 rfl _).trans (A_eq4 (V12 m ρ) c 0))
    | exact (W13_arr m ρ c 1).trans (((dat4 (V12 m ρ) c).arrAt_in 1 rfl _).trans (A_eq4 (V12 m ρ) c 1))
    | exact (W13_arr m ρ c 2).trans (((dat4 (V12 m ρ) c).arrAt_in 2 rfl _).trans (A_eq4 (V12 m ρ) c 2))
    | exact (W13_arr m ρ c 3).trans (((dat4 (V12 m ρ) c).arrAt_in 3 rfl _).trans (A_eq4 (V12 m ρ) c 3))
    | exact (W13_arr m ρ c 4).trans (((dat4 (V12 m ρ) c).arrAt_in 4 rfl _).trans (A_eq4 (V12 m ρ) c 4))
theorem keep_region5 {r : Ref sig .tc} (hr : r ∈ argRefs) :
    W15 m ρ c (Proc.devRef .tc r) = W14 m ρ c (Proc.devRef .tc r) := by
  simp only [argRefs, List.mem_cons, List.not_mem_nil, or_false] at hr
  rcases hr with rfl | rfl | rfl | rfl | rfl | rfl | rfl | rfl | rfl | rfl | rfl | rfl | rfl | rfl
  all_goals first
    | exact W15_of_ne m ρ c _ (by decide)
    | exact (W15_arr m ρ c 0).trans (((dat5 (V14 m ρ) c).arrAt_in 0 rfl _).trans (A_eq5 (V14 m ρ) c 0))
    | exact (W15_arr m ρ c 1).trans (((dat5 (V14 m ρ) c).arrAt_in 1 rfl _).trans (A_eq5 (V14 m ρ) c 1))
    | exact (W15_arr m ρ c 2).trans (((dat5 (V14 m ρ) c).arrAt_in 2 rfl _).trans (A_eq5 (V14 m ρ) c 2))
    | exact (W15_arr m ρ c 3).trans (((dat5 (V14 m ρ) c).arrAt_in 3 rfl _).trans (A_eq5 (V14 m ρ) c 3))
    | exact (W15_arr m ρ c 4).trans (((dat5 (V14 m ρ) c).arrAt_in 4 rfl _).trans (A_eq5 (V14 m ρ) c 4))
theorem keep_region6 {r : Ref sig .tc} (hr : r ∈ argRefs) :
    W17 m ρ c (Proc.devRef .tc r) = W16 m ρ c (Proc.devRef .tc r) := by
  simp only [argRefs, List.mem_cons, List.not_mem_nil, or_false] at hr
  rcases hr with rfl | rfl | rfl | rfl | rfl | rfl | rfl | rfl | rfl | rfl | rfl | rfl | rfl | rfl
  all_goals first
    | exact W17_of_ne m ρ c _ (by decide)
    | exact (W17_arr m ρ c 0).trans (((dat6 (V16 m ρ) c).arrAt_in 0 rfl _).trans (A_eq6 (V16 m ρ) c 0))
    | exact (W17_arr m ρ c 1).trans (((dat6 (V16 m ρ) c).arrAt_in 1 rfl _).trans (A_eq6 (V16 m ρ) c 1))
    | exact (W17_arr m ρ c 2).trans (((dat6 (V16 m ρ) c).arrAt_in 2 rfl _).trans (A_eq6 (V16 m ρ) c 2))
    | exact (W17_arr m ρ c 3).trans (((dat6 (V16 m ρ) c).arrAt_in 3 rfl _).trans (A_eq6 (V16 m ρ) c 3))

theorem args0 {r : Ref sig .tc} (hr : r ∈ argRefs) : W0 m ρ c (Proc.devRef .tc r) = m ((c : Thread nD τ).loc r) := rfl
theorem args1 {r : Ref sig .tc} (hr : r ∈ argRefs) : W1 m ρ c (Proc.devRef .tc r) = m ((c : Thread nD τ).loc r) :=
  (keep_hostOps0 hr _).trans (args0 m ρ c hr)
theorem args2 {r : Ref sig .tc} (hr : r ∈ argRefs) : W2 m ρ c (Proc.devRef .tc r) = m ((c : Thread nD τ).loc r) :=
  (keep_region0 m ρ c hr).trans (args1 m ρ c hr)
theorem args3 {r : Ref sig .tc} (hr : r ∈ argRefs) : W3 m ρ c (Proc.devRef .tc r) = m ((c : Thread nD τ).loc r) :=
  (keep_hostOps1 hr _).trans (args2 m ρ c hr)
theorem args4 {r : Ref sig .tc} (hr : r ∈ argRefs) : W4 m ρ c (Proc.devRef .tc r) = m ((c : Thread nD τ).loc r) :=
  (keep_region1 m ρ c hr).trans (args3 m ρ c hr)
theorem args5 {r : Ref sig .tc} (hr : r ∈ argRefs) : W5 m ρ c (Proc.devRef .tc r) = m ((c : Thread nD τ).loc r) :=
  (keep_hostOps2 hr _).trans (args4 m ρ c hr)
theorem args6 {r : Ref sig .tc} (hr : r ∈ argRefs) : W6 m ρ c (Proc.devRef .tc r) = m ((c : Thread nD τ).loc r) :=
  (keep_hostOps2_1 hr _).trans (args5 m ρ c hr)
theorem args7 {r : Ref sig .tc} (hr : r ∈ argRefs) : W7 m ρ c (Proc.devRef .tc r) = m ((c : Thread nD τ).loc r) :=
  (keep_hostOps2_2 hr _).trans (args6 m ρ c hr)
theorem args8 {r : Ref sig .tc} (hr : r ∈ argRefs) : W8 m ρ c (Proc.devRef .tc r) = m ((c : Thread nD τ).loc r) :=
  (keep_region2 m ρ c hr).trans (args7 m ρ c hr)
theorem args9 {r : Ref sig .tc} (hr : r ∈ argRefs) : W9 m ρ c (Proc.devRef .tc r) = m ((c : Thread nD τ).loc r) :=
  (keep_hostOps3 hr _).trans (args8 m ρ c hr)
theorem args10 {r : Ref sig .tc} (hr : r ∈ argRefs) : W10 m ρ c (Proc.devRef .tc r) = m ((c : Thread nD τ).loc r) :=
  (keep_region3 m ρ c hr).trans (args9 m ρ c hr)
theorem args11 {r : Ref sig .tc} (hr : r ∈ argRefs) : W11 m ρ c (Proc.devRef .tc r) = m ((c : Thread nD τ).loc r) :=
  (keep_hostOps4 hr _).trans (args10 m ρ c hr)
theorem args12 {r : Ref sig .tc} (hr : r ∈ argRefs) : W12 m ρ c (Proc.devRef .tc r) = m ((c : Thread nD τ).loc r) :=
  (keep_hostOps4_1 hr _).trans (args11 m ρ c hr)
theorem args13 {r : Ref sig .tc} (hr : r ∈ argRefs) : W13 m ρ c (Proc.devRef .tc r) = m ((c : Thread nD τ).loc r) :=
  (keep_region4 m ρ c hr).trans (args12 m ρ c hr)
theorem args14 {r : Ref sig .tc} (hr : r ∈ argRefs) : W14 m ρ c (Proc.devRef .tc r) = m ((c : Thread nD τ).loc r) :=
  (keep_hostOps5 hr _).trans (args13 m ρ c hr)
theorem args15 {r : Ref sig .tc} (hr : r ∈ argRefs) : W15 m ρ c (Proc.devRef .tc r) = m ((c : Thread nD τ).loc r) :=
  (keep_region5 m ρ c hr).trans (args14 m ρ c hr)
theorem args16 {r : Ref sig .tc} (hr : r ∈ argRefs) : W16 m ρ c (Proc.devRef .tc r) = m ((c : Thread nD τ).loc r) :=
  (keep_hostOps6 hr _).trans (args15 m ρ c hr)

/-! ## Two layout facts -/

/-- A vector of 64 entries reshaped to one row is the vector broadcast along a new leading axis. -/
theorem row_of_vec (b : FVec Ideal S64 .f32) : shapeCast S1x64 b shapeCasts_S64_S1x64 = val_main_v1 (F := Ideal) b := by
  funext j
  obtain ⟨z, q, rfl⟩ : ∃ (z : Fin 1) (q : Fin 64), j = ix2 z q := ⟨j 0, j 1, eq_ix2 j⟩
  rw [val_main_v1_apply]
  exact (shapeCast_a_1a_apply b shapeCasts_S64_S1x64 z q).trans
    (congrArg b (funext fun a => Fin.ext (by match a with | ⟨0, _⟩ => rfl)))

/-- The same for a vector of one entry. -/
theorem one_of_vec (b : FVec Ideal S1 .f32) : shapeCast S1x1 b shapeCasts_S1_S1x1 = val_main_v87 (F := Ideal) b := by
  funext j
  obtain ⟨z, q, rfl⟩ : ∃ (z : Fin 1) (q : Fin 1), j = ix2 z q := ⟨j 0, j 1, eq_ix2 j⟩
  rw [val_main_v87_apply]
  have hq : q = 0 := Subsingleton.elim _ _
  subst hq
  exact (shapeCast_a_1a_apply b shapeCasts_S1_S1x1 z 0).trans
    (congrArg b (funext fun a => Fin.ext (by match a with | ⟨0, _⟩ => rfl)))

/-! ## The encoders -/

theorem W1_v0 : W1 m ρ c (Proc.devRef .tc main_v0) = val_main_v1 (F := Ideal) (m ((c : Thread nD τ).loc main_arg5)) :=
  (bias0 (W0 m ρ c)).trans (row_of_vec _)

/-- The node encoder's output is the reference's encoded nodes. -/
theorem W2_v1 : W2 m ρ c (Proc.devRef .tc main_v1) = val_main_v4 (F := Ideal) (m ((c : Thread nD τ).loc main_arg0)) (m ((c : Thread nD τ).loc main_arg4)) (m ((c : Thread nD τ).loc main_arg5)) := by
  refine (W2_arr m ρ c 3).trans ((NodeEnc.final (V1 m ρ) c).trans ?_)
  show Cert.Spec.dense1 100000 64 64 (W1 m ρ c (Proc.devRef .tc main_arg0)) (W1 m ρ c (Proc.devRef .tc main_arg4)) (W1 m ρ c (Proc.devRef .tc main_v0)) = _
  rw [args1 m ρ c mem_arg0, args1 m ρ c mem_arg4, W1_v0]
  exact (Cert.RefStages.nodeEnc _ _ _).symm

theorem W3_v2 : W3 m ρ c (Proc.devRef .tc main_v2) = val_main_v6 (F := Ideal) (m ((c : Thread nD τ).loc main_arg7)) := by
  refine (bias1 (W2 m ρ c)).trans ?_
  rw [args2 m ρ c mem_arg7]; exact (row_of_vec _).trans rfl
theorem W3_v1 : W3 m ρ c (Proc.devRef .tc main_v1) = val_main_v4 (F := Ideal) (m ((c : Thread nD τ).loc main_arg0)) (m ((c : Thread nD τ).loc main_arg4)) (m ((c : Thread nD τ).loc main_arg5)) :=
  (by stretch_keeps hostOps1 : W3 m ρ c (Proc.devRef .tc main_v1) = W2 m ρ c (Proc.devRef .tc main_v1)).trans (W2_v1 m ρ c)

/-- The edge encoder's output is the reference's encoded edges. -/
theorem W4_v3 : W4 m ρ c (Proc.devRef .tc main_v3) = val_main_v9 (F := Ideal) (m ((c : Thread nD τ).loc main_arg2)) (m ((c : Thread nD τ).loc main_arg6)) (m ((c : Thread nD τ).loc main_arg7)) := by
  refine (W4_arr m ρ c 3).trans ((EdgeEnc.final (V3 m ρ) c).trans ?_)
  show Cert.Spec.dense1 1600000 32 64 (W3 m ρ c (Proc.devRef .tc main_arg2)) (W3 m ρ c (Proc.devRef .tc main_arg6)) (W3 m ρ c (Proc.devRef .tc main_v2)) = _
  rw [args3 m ρ c mem_arg2, args3 m ρ c mem_arg6, W3_v2]
  exact (Cert.RefStages.edgeEnc _ _ _).symm
theorem W4_v1 : W4 m ρ c (Proc.devRef .tc main_v1) = val_main_v4 (F := Ideal) (m ((c : Thread nD τ).loc main_arg0)) (m ((c : Thread nD τ).loc main_arg4)) (m ((c : Thread nD τ).loc main_arg5)) :=
  (W4_of_ne m ρ c main_v1 (by decide)).trans (W3_v1 m ρ c)

/-! ## The edge list's two rows -/

theorem W5_v5 : W5 m ρ c (Proc.devRef .tc main_v5) = val_main_v11 (F := Ideal) (m ((c : Thread nD τ).loc main_arg1)) := by
  refine (srcRow (W4 m ρ c)).trans ?_
  rw [args4 m ρ c mem_arg1]; rfl
theorem W5_v7 : W5 m ρ c (Proc.devRef .tc main_v7) = val_main_v13 (F := Ideal) (m ((c : Thread nD τ).loc main_arg1)) := by
  refine (tgtRow (W4 m ρ c)).trans ?_
  rw [args4 m ρ c mem_arg1]; rfl
theorem W5_v1 : W5 m ρ c (Proc.devRef .tc main_v1) = val_main_v4 (F := Ideal) (m ((c : Thread nD τ).loc main_arg0)) (m ((c : Thread nD τ).loc main_arg4)) (m ((c : Thread nD τ).loc main_arg5)) :=
  (by stretch_keeps hostOps2 : W5 m ρ c (Proc.devRef .tc main_v1) = W4 m ρ c (Proc.devRef .tc main_v1)).trans (W4_v1 m ρ c)
theorem W5_v3 : W5 m ρ c (Proc.devRef .tc main_v3) = val_main_v9 (F := Ideal) (m ((c : Thread nD τ).loc main_arg2)) (m ((c : Thread nD τ).loc main_arg6)) (m ((c : Thread nD τ).loc main_arg7)) :=
  (by stretch_keeps hostOps2 : W5 m ρ c (Proc.devRef .tc main_v3) = W4 m ρ c (Proc.devRef .tc main_v3)).trans (W4_v3 m ρ c)

/-! ## The first round -/

/-- The gathered source rows: with every source index in range the fill never shows, and the rows are the reference's. -/
theorem W6_v8 (hpre : Cert.Pre_KernelIdeal (hPre_finite_inputs := Cert.Pre_finite_inputs.Gen.facts) m) : W6 m ρ c (Proc.devRef .tc main_v8) = val_main_v20 (F := Ideal) (m ((c : Thread nD τ).loc main_arg0)) (m ((c : Thread nD τ).loc main_arg1)) (m ((c : Thread nD τ).loc main_arg4)) (m ((c : Thread nD τ).loc main_arg5)) := by
  refine (take0 (W5 m ρ c)).trans ?_
  rw [W5_v1 m ρ c, W5_v5 m ρ c]
  refine (Cert.Take.takeFill_eq_gather _ _ (fun e => Cert.Take.src_range m hpre c e)).trans ?_
  rfl
theorem W6_v3 : W6 m ρ c (Proc.devRef .tc main_v3) = val_main_v9 (F := Ideal) (m ((c : Thread nD τ).loc main_arg2)) (m ((c : Thread nD τ).loc main_arg6)) (m ((c : Thread nD τ).loc main_arg7)) :=
  (by stretch_keeps hostOps2_1 : W6 m ρ c (Proc.devRef .tc main_v3) = W5 m ρ c (Proc.devRef .tc main_v3)).trans (W5_v3 m ρ c)
theorem W6_v1 : W6 m ρ c (Proc.devRef .tc main_v1) = val_main_v4 (F := Ideal) (m ((c : Thread nD τ).loc main_arg0)) (m ((c : Thread nD τ).loc main_arg4)) (m ((c : Thread nD τ).loc main_arg5)) :=
  (by stretch_keeps hostOps2_1 : W6 m ρ c (Proc.devRef .tc main_v1) = W5 m ρ c (Proc.devRef .tc main_v1)).trans (W5_v1 m ρ c)
theorem W6_v5 : W6 m ρ c (Proc.devRef .tc main_v5) = val_main_v11 (F := Ideal) (m ((c : Thread nD τ).loc main_arg1)) :=
  (by stretch_keeps hostOps2_1 : W6 m ρ c (Proc.devRef .tc main_v5) = W5 m ρ c (Proc.devRef .tc main_v5)).trans (W5_v5 m ρ c)
theorem W6_v7 : W6 m ρ c (Proc.devRef .tc main_v7) = val_main_v13 (F := Ideal) (m ((c : Thread nD τ).loc main_arg1)) :=
  (by stretch_keeps hostOps2_1 : W6 m ρ c (Proc.devRef .tc main_v7) = W5 m ρ c (Proc.devRef .tc main_v7)).trans (W5_v7 m ρ c)

theorem W7_v8 (hpre : Cert.Pre_KernelIdeal (hPre_finite_inputs := Cert.Pre_finite_inputs.Gen.facts) m) : W7 m ρ c (Proc.devRef .tc main_v8) = val_main_v20 (F := Ideal) (m ((c : Thread nD τ).loc main_arg0)) (m ((c : Thread nD τ).loc main_arg1)) (m ((c : Thread nD τ).loc main_arg4)) (m ((c : Thread nD τ).loc main_arg5)) :=
  (by stretch_keeps hostOps2_2 : W7 m ρ c (Proc.devRef .tc main_v8) = W6 m ρ c (Proc.devRef .tc main_v8)).trans (W6_v8 m ρ c hpre)
theorem W7_v3 : W7 m ρ c (Proc.devRef .tc main_v3) = val_main_v9 (F := Ideal) (m ((c : Thread nD τ).loc main_arg2)) (m ((c : Thread nD τ).loc main_arg6)) (m ((c : Thread nD τ).loc main_arg7)) :=
  (by stretch_keeps hostOps2_2 : W7 m ρ c (Proc.devRef .tc main_v3) = W6 m ρ c (Proc.devRef .tc main_v3)).trans (W6_v3 m ρ c)
theorem W7_v1 : W7 m ρ c (Proc.devRef .tc main_v1) = val_main_v4 (F := Ideal) (m ((c : Thread nD τ).loc main_arg0)) (m ((c : Thread nD τ).loc main_arg4)) (m ((c : Thread nD τ).loc main_arg5)) :=
  (by stretch_keeps hostOps2_2 : W7 m ρ c (Proc.devRef .tc main_v1) = W6 m ρ c (Proc.devRef .tc main_v1)).trans (W6_v1 m ρ c)
theorem W7_v5 : W7 m ρ c (Proc.devRef .tc main_v5) = val_main_v11 (F := Ideal) (m ((c : Thread nD τ).loc main_arg1)) :=
  (by stretch_keeps hostOps2_2 : W7 m ρ c (Proc.devRef .tc main_v5) = W6 m ρ c (Proc.devRef .tc main_v5)).trans (W6_v5 m ρ c)
theorem W7_v7 : W7 m ρ c (Proc.devRef .tc main_v7) = val_main_v13 (F := Ideal) (m ((c : Thread nD τ).loc main_arg1)) :=
  (by stretch_keeps hostOps2_2 : W7 m ρ c (Proc.devRef .tc main_v7) = W6 m ρ c (Proc.devRef .tc main_v7)).trans (W6_v7 m ρ c)
theorem W7_v10 : W7 m ρ c (Proc.devRef .tc main_v10) = val_main_v22 (F := Ideal) (m ((c : Thread nD τ).loc main_arg8)) := by
  refine (msgW0 (W6 m ρ c)).trans ?_
  rw [args6 m ρ c mem_arg8]; rfl
theorem W7_v12 : W7 m ρ c (Proc.devRef .tc main_v12) = val_main_v25 (F := Ideal) (m ((c : Thread nD τ).loc main_arg8)) := by
  refine (msgW0e (W6 m ρ c)).trans ?_
  rw [args6 m ρ c mem_arg8]; rfl
theorem W7_v15 : W7 m ρ c (Proc.devRef .tc main_v15) = val_main_v30 (F := Ideal) (m ((c : Thread nD τ).loc main_arg9)) := by
  refine (msgB0 (W6 m ρ c)).trans ?_
  rw [args6 m ρ c mem_arg9]; exact (row_of_vec _).trans rfl

/-- The first message layer's output is the reference's messages. -/
theorem W8_v16 (hpre : Cert.Pre_KernelIdeal (hPre_finite_inputs := Cert.Pre_finite_inputs.Gen.facts) m) : W8 m ρ c (Proc.devRef .tc main_v16) = val_main_v33 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W8_arr m ρ c 5).trans ((Message0.final (V7 m ρ) c).trans ?_)
  show Cert.Spec.dense2 1600000 64 64 (W7 m ρ c (Proc.devRef .tc main_v8)) (W7 m ρ c (Proc.devRef .tc main_v10)) (W7 m ρ c (Proc.devRef .tc main_v3)) (W7 m ρ c (Proc.devRef .tc main_v12)) (W7 m ρ c (Proc.devRef .tc main_v15)) = _
  rw [W7_v8 m ρ c hpre, W7_v10, W7_v3, W7_v12, W7_v15]
  exact (Cert.RefStages.msg0 _ _ _ _ _ _ _ _ _).symm
theorem W8_v1 : W8 m ρ c (Proc.devRef .tc main_v1) = val_main_v4 (F := Ideal) (m ((c : Thread nD τ).loc main_arg0)) (m ((c : Thread nD τ).loc main_arg4)) (m ((c : Thread nD τ).loc main_arg5)) :=
  (W8_of_ne m ρ c main_v1 (by decide)).trans (W7_v1 m ρ c)
theorem W8_v5 : W8 m ρ c (Proc.devRef .tc main_v5) = val_main_v11 (F := Ideal) (m ((c : Thread nD τ).loc main_arg1)) :=
  (W8_of_ne m ρ c main_v5 (by decide)).trans (W7_v5 m ρ c)
theorem W8_v7 : W8 m ρ c (Proc.devRef .tc main_v7) = val_main_v13 (F := Ideal) (m ((c : Thread nD τ).loc main_arg1)) :=
  (W8_of_ne m ρ c main_v7 (by decide)).trans (W7_v7 m ρ c)
theorem W8_v3 : W8 m ρ c (Proc.devRef .tc main_v3) = val_main_v9 (F := Ideal) (m ((c : Thread nD τ).loc main_arg2)) (m ((c : Thread nD τ).loc main_arg6)) (m ((c : Thread nD τ).loc main_arg7)) :=
  ((W8_arr m ρ c 2).trans (((dat2 (V7 m ρ) c).arrAt_in 2 rfl _).trans (A_eq2 (V7 m ρ) c 2))).trans (W7_v3 m ρ c)

/-- The messages summed per target node are the reference's sums: the same scatter of the same messages. -/
theorem W9_v19 (hpre : Cert.Pre_KernelIdeal (hPre_finite_inputs := Cert.Pre_finite_inputs.Gen.facts) m) : W9 m ρ c (Proc.devRef .tc main_v19) = val_main_v36 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (agg0 (W8 m ρ c)).trans ?_
  rw [W8_v7 m ρ c, W8_v16 m ρ c hpre]
  rfl
theorem W9_v21 : W9 m ρ c (Proc.devRef .tc main_v21) = val_main_v38 (F := Ideal) (m ((c : Thread nD τ).loc main_arg10)) := by
  refine (updW0 (W8 m ρ c)).trans ?_
  rw [args8 m ρ c mem_arg10]; rfl
theorem W9_v23 : W9 m ρ c (Proc.devRef .tc main_v23) = val_main_v41 (F := Ideal) (m ((c : Thread nD τ).loc main_arg10)) := by
  refine (updW0e (W8 m ρ c)).trans ?_
  rw [args8 m ρ c mem_arg10]; rfl
theorem W9_v26 : W9 m ρ c (Proc.devRef .tc main_v26) = val_main_v46 (F := Ideal) (m ((c : Thread nD τ).loc main_arg11)) := by
  refine (updB0 (W8 m ρ c)).trans ?_
  rw [args8 m ρ c mem_arg11]; exact (row_of_vec _).trans rfl
theorem W9_v1 : W9 m ρ c (Proc.devRef .tc main_v1) = val_main_v4 (F := Ideal) (m ((c : Thread nD τ).loc main_arg0)) (m ((c : Thread nD τ).loc main_arg4)) (m ((c : Thread nD τ).loc main_arg5)) :=
  (by stretch_keeps hostOps3 : W9 m ρ c (Proc.devRef .tc main_v1) = W8 m ρ c (Proc.devRef .tc main_v1)).trans (W8_v1 m ρ c)
theorem W9_v3 : W9 m ρ c (Proc.devRef .tc main_v3) = val_main_v9 (F := Ideal) (m ((c : Thread nD τ).loc main_arg2)) (m ((c : Thread nD τ).loc main_arg6)) (m ((c : Thread nD τ).loc main_arg7)) :=
  (by stretch_keeps hostOps3 : W9 m ρ c (Proc.devRef .tc main_v3) = W8 m ρ c (Proc.devRef .tc main_v3)).trans (W8_v3 m ρ c)
theorem W9_v5 : W9 m ρ c (Proc.devRef .tc main_v5) = val_main_v11 (F := Ideal) (m ((c : Thread nD τ).loc main_arg1)) :=
  (by stretch_keeps hostOps3 : W9 m ρ c (Proc.devRef .tc main_v5) = W8 m ρ c (Proc.devRef .tc main_v5)).trans (W8_v5 m ρ c)
theorem W9_v7 : W9 m ρ c (Proc.devRef .tc main_v7) = val_main_v13 (F := Ideal) (m ((c : Thread nD τ).loc main_arg1)) :=
  (by stretch_keeps hostOps3 : W9 m ρ c (Proc.devRef .tc main_v7) = W8 m ρ c (Proc.devRef .tc main_v7)).trans (W8_v7 m ρ c)

/-- The first update layer's output is the reference's updated nodes. -/
theorem W10_v27 (hpre : Cert.Pre_KernelIdeal (hPre_finite_inputs := Cert.Pre_finite_inputs.Gen.facts) m) : W10 m ρ c (Proc.devRef .tc main_v27) = val_main_v49 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W10_arr m ρ c 5).trans ((Update0.final (V9 m ρ) c).trans ?_)
  show Cert.Spec.dense2 100000 64 64 (W9 m ρ c (Proc.devRef .tc main_v1)) (W9 m ρ c (Proc.devRef .tc main_v21)) (W9 m ρ c (Proc.devRef .tc main_v19)) (W9 m ρ c (Proc.devRef .tc main_v23)) (W9 m ρ c (Proc.devRef .tc main_v26)) = _
  rw [W9_v1, W9_v21, W9_v19 m ρ c hpre, W9_v23, W9_v26]
  exact (Cert.RefStages.upd0 _ _ _ _ _ _ _ _ _ _ _).symm
theorem W10_v3 : W10 m ρ c (Proc.devRef .tc main_v3) = val_main_v9 (F := Ideal) (m ((c : Thread nD τ).loc main_arg2)) (m ((c : Thread nD τ).loc main_arg6)) (m ((c : Thread nD τ).loc main_arg7)) :=
  (W10_of_ne m ρ c main_v3 (by decide)).trans (W9_v3 m ρ c)
theorem W10_v5 : W10 m ρ c (Proc.devRef .tc main_v5) = val_main_v11 (F := Ideal) (m ((c : Thread nD τ).loc main_arg1)) :=
  (W10_of_ne m ρ c main_v5 (by decide)).trans (W9_v5 m ρ c)
theorem W10_v7 : W10 m ρ c (Proc.devRef .tc main_v7) = val_main_v13 (F := Ideal) (m ((c : Thread nD τ).loc main_arg1)) :=
  (W10_of_ne m ρ c main_v7 (by decide)).trans (W9_v7 m ρ c)

/-! ## The second round -/

theorem W11_v28 (hpre : Cert.Pre_KernelIdeal (hPre_finite_inputs := Cert.Pre_finite_inputs.Gen.facts) m) : W11 m ρ c (Proc.devRef .tc main_v28) = val_main_v56 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (take1 (W10 m ρ c)).trans ?_
  rw [W10_v27 m ρ c hpre, W10_v5 m ρ c]
  refine (Cert.Take.takeFill_eq_gather _ _ (fun e => Cert.Take.src_range m hpre c e)).trans ?_
  rfl
theorem W11_v3 : W11 m ρ c (Proc.devRef .tc main_v3) = val_main_v9 (F := Ideal) (m ((c : Thread nD τ).loc main_arg2)) (m ((c : Thread nD τ).loc main_arg6)) (m ((c : Thread nD τ).loc main_arg7)) :=
  (by stretch_keeps hostOps4 : W11 m ρ c (Proc.devRef .tc main_v3) = W10 m ρ c (Proc.devRef .tc main_v3)).trans (W10_v3 m ρ c)
theorem W11_v7 : W11 m ρ c (Proc.devRef .tc main_v7) = val_main_v13 (F := Ideal) (m ((c : Thread nD τ).loc main_arg1)) :=
  (by stretch_keeps hostOps4 : W11 m ρ c (Proc.devRef .tc main_v7) = W10 m ρ c (Proc.devRef .tc main_v7)).trans (W10_v7 m ρ c)
theorem W11_v27 (hpre : Cert.Pre_KernelIdeal (hPre_finite_inputs := Cert.Pre_finite_inputs.Gen.facts) m) : W11 m ρ c (Proc.devRef .tc main_v27) = val_main_v49 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (by stretch_keeps hostOps4 : W11 m ρ c (Proc.devRef .tc main_v27) = W10 m ρ c (Proc.devRef .tc main_v27)).trans (W10_v27 m ρ c hpre)

theorem W12_v28 (hpre : Cert.Pre_KernelIdeal (hPre_finite_inputs := Cert.Pre_finite_inputs.Gen.facts) m) : W12 m ρ c (Proc.devRef .tc main_v28) = val_main_v56 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (by stretch_keeps hostOps4_1 : W12 m ρ c (Proc.devRef .tc main_v28) = W11 m ρ c (Proc.devRef .tc main_v28)).trans (W11_v28 m ρ c hpre)
theorem W12_v3 : W12 m ρ c (Proc.devRef .tc main_v3) = val_main_v9 (F := Ideal) (m ((c : Thread nD τ).loc main_arg2)) (m ((c : Thread nD τ).loc main_arg6)) (m ((c : Thread nD τ).loc main_arg7)) :=
  (by stretch_keeps hostOps4_1 : W12 m ρ c (Proc.devRef .tc main_v3) = W11 m ρ c (Proc.devRef .tc main_v3)).trans (W11_v3 m ρ c)
theorem W12_v7 : W12 m ρ c (Proc.devRef .tc main_v7) = val_main_v13 (F := Ideal) (m ((c : Thread nD τ).loc main_arg1)) :=
  (by stretch_keeps hostOps4_1 : W12 m ρ c (Proc.devRef .tc main_v7) = W11 m ρ c (Proc.devRef .tc main_v7)).trans (W11_v7 m ρ c)
theorem W12_v27 (hpre : Cert.Pre_KernelIdeal (hPre_finite_inputs := Cert.Pre_finite_inputs.Gen.facts) m) : W12 m ρ c (Proc.devRef .tc main_v27) = val_main_v49 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (by stretch_keeps hostOps4_1 : W12 m ρ c (Proc.devRef .tc main_v27) = W11 m ρ c (Proc.devRef .tc main_v27)).trans (W11_v27 m ρ c hpre)
theorem W12_v30 : W12 m ρ c (Proc.devRef .tc main_v30) = val_main_v58 (F := Ideal) (m ((c : Thread nD τ).loc main_arg8)) := by
  refine (msgW1 (W11 m ρ c)).trans ?_
  rw [args11 m ρ c mem_arg8]; rfl
theorem W12_v32 : W12 m ρ c (Proc.devRef .tc main_v32) = val_main_v61 (F := Ideal) (m ((c : Thread nD τ).loc main_arg8)) := by
  refine (msgW1e (W11 m ρ c)).trans ?_
  rw [args11 m ρ c mem_arg8]; rfl
theorem W12_v35 : W12 m ρ c (Proc.devRef .tc main_v35) = val_main_v66 (F := Ideal) (m ((c : Thread nD τ).loc main_arg9)) := by
  refine (msgB1 (W11 m ρ c)).trans ?_
  rw [args11 m ρ c mem_arg9]; exact (row_of_vec _).trans rfl

/-- The second message layer's output is the reference's second messages. -/
theorem W13_v36 (hpre : Cert.Pre_KernelIdeal (hPre_finite_inputs := Cert.Pre_finite_inputs.Gen.facts) m) : W13 m ρ c (Proc.devRef .tc main_v36) = val_main_v69 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W13_arr m ρ c 5).trans ((Message1.final (V12 m ρ) c).trans ?_)
  show Cert.Spec.dense2 1600000 64 64 (W12 m ρ c (Proc.devRef .tc main_v28)) (W12 m ρ c (Proc.devRef .tc main_v30)) (W12 m ρ c (Proc.devRef .tc main_v3)) (W12 m ρ c (Proc.devRef .tc main_v32)) (W12 m ρ c (Proc.devRef .tc main_v35)) = _
  rw [W12_v28 m ρ c hpre, W12_v30, W12_v3, W12_v32, W12_v35]
  exact (Cert.RefStages.msg1 _ _ _ _ _ _ _ _ _ _ _).symm
theorem W13_v7 : W13 m ρ c (Proc.devRef .tc main_v7) = val_main_v13 (F := Ideal) (m ((c : Thread nD τ).loc main_arg1)) :=
  (W13_of_ne m ρ c main_v7 (by decide)).trans (W12_v7 m ρ c)
theorem W13_v27 (hpre : Cert.Pre_KernelIdeal (hPre_finite_inputs := Cert.Pre_finite_inputs.Gen.facts) m) : W13 m ρ c (Proc.devRef .tc main_v27) = val_main_v49 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W13_of_ne m ρ c main_v27 (by decide)).trans (W12_v27 m ρ c hpre)

theorem W14_v39 (hpre : Cert.Pre_KernelIdeal (hPre_finite_inputs := Cert.Pre_finite_inputs.Gen.facts) m) : W14 m ρ c (Proc.devRef .tc main_v39) = val_main_v72 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (agg1 (W13 m ρ c)).trans ?_
  rw [W13_v7 m ρ c, W13_v36 m ρ c hpre]
  rfl
theorem W14_v41 : W14 m ρ c (Proc.devRef .tc main_v41) = val_main_v74 (F := Ideal) (m ((c : Thread nD τ).loc main_arg10)) := by
  refine (updW1 (W13 m ρ c)).trans ?_
  rw [args13 m ρ c mem_arg10]; rfl
theorem W14_v43 : W14 m ρ c (Proc.devRef .tc main_v43) = val_main_v77 (F := Ideal) (m ((c : Thread nD τ).loc main_arg10)) := by
  refine (updW1e (W13 m ρ c)).trans ?_
  rw [args13 m ρ c mem_arg10]; rfl
theorem W14_v46 : W14 m ρ c (Proc.devRef .tc main_v46) = val_main_v82 (F := Ideal) (m ((c : Thread nD τ).loc main_arg11)) := by
  refine (updB1 (W13 m ρ c)).trans ?_
  rw [args13 m ρ c mem_arg11]; exact (row_of_vec _).trans rfl
theorem W14_v27 (hpre : Cert.Pre_KernelIdeal (hPre_finite_inputs := Cert.Pre_finite_inputs.Gen.facts) m) : W14 m ρ c (Proc.devRef .tc main_v27) = val_main_v49 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (by stretch_keeps hostOps5 : W14 m ρ c (Proc.devRef .tc main_v27) = W13 m ρ c (Proc.devRef .tc main_v27)).trans (W13_v27 m ρ c hpre)

/-- The second update layer's output is the reference's final node states. -/
theorem W15_v47 (hpre : Cert.Pre_KernelIdeal (hPre_finite_inputs := Cert.Pre_finite_inputs.Gen.facts) m) : W15 m ρ c (Proc.devRef .tc main_v47) = val_main_v85 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W15_arr m ρ c 5).trans ((Update1.final (V14 m ρ) c).trans ?_)
  show Cert.Spec.dense2 100000 64 64 (W14 m ρ c (Proc.devRef .tc main_v27)) (W14 m ρ c (Proc.devRef .tc main_v41)) (W14 m ρ c (Proc.devRef .tc main_v39)) (W14 m ρ c (Proc.devRef .tc main_v43)) (W14 m ρ c (Proc.devRef .tc main_v46)) = _
  rw [W14_v27 m ρ c hpre, W14_v41, W14_v39 m ρ c hpre, W14_v43, W14_v46]
  exact (Cert.RefStages.upd1 _ _ _ _ _ _ _ _ _ _ _).symm

/-! ## The head -/

/-- The candidate mask as the launch reads it: each bit widened to a word, as a column. -/
def maskCol (a3 : IVec S100000 1) : IVec S100000x1 32 :=
  shapeCast S100000x1 (extui 32 a3 natLt_1_32) shapeCasts_S100000_S100000x1

theorem maskCol_apply (a3 : IVec S100000 1) (r : Fin 100000) : maskCol a3 (ix2 r 0) = (a3 (ix1 r)).setWidth 32 := by
  unfold maskCol
  refine (shapeCast_apply (extui 32 a3 natLt_1_32) shapeCasts_S100000_S100000x1 (ix2 r 0) (ix1 r) ?_).trans rfl
  rw [Shape.rowMajor_val_two, Shape.rowMajor_val_one]
  show r.val = r.val * 1 + 0
  omega

theorem W16_v47 (hpre : Cert.Pre_KernelIdeal (hPre_finite_inputs := Cert.Pre_finite_inputs.Gen.facts) m) : W16 m ρ c (Proc.devRef .tc main_v47) = val_main_v85 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (by stretch_keeps hostOps6 : W16 m ρ c (Proc.devRef .tc main_v47) = W15 m ρ c (Proc.devRef .tc main_v47)).trans (W15_v47 m ρ c hpre)
theorem W16_v49 : W16 m ρ c (Proc.devRef .tc main_v49) = val_main_v87 (F := Ideal) (m ((c : Thread nD τ).loc main_arg13)) := by
  refine (headB (W15 m ρ c)).trans ?_
  rw [args15 m ρ c mem_arg13]; exact one_of_vec _
theorem W16_v50 : W16 m ρ c (Proc.devRef .tc main_v50) = maskCol (m ((c : Thread nD τ).loc main_arg3)) := by
  refine (headM (W15 m ρ c)).trans ?_
  rw [args15 m ρ c mem_arg3]; rfl

/-- The head launch's output: the head's whole-array function of the final node states, its weight and bias, and the mask. -/
theorem W17_v51 (hpre : Cert.Pre_KernelIdeal (hPre_finite_inputs := Cert.Pre_finite_inputs.Gen.facts) m) : W17 m ρ c (Proc.devRef .tc main_v51)
    = Cert.Spec.head 100000 64 (val_main_v85 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg12)) (val_main_v87 (F := Ideal) (m ((c : Thread nD τ).loc main_arg13))) (maskCol (m ((c : Thread nD τ).loc main_arg3))) := by
  refine (W17_arr m ρ c 4).trans ((Head.final (V16 m ρ) c).trans ?_)
  show Cert.Spec.head 100000 64 (W16 m ρ c (Proc.devRef .tc main_v47)) (W16 m ρ c (Proc.devRef .tc main_arg12)) (W16 m ρ c (Proc.devRef .tc main_v49)) (W16 m ρ c (Proc.devRef .tc main_v50)) = _
  rw [W16_v47 m ρ c hpre, args16 m ρ c mem_arg12, W16_v49, W16_v50]

/-- THE RESULT: the kernel program's result buffer at the last boundary is the reference's result. -/
theorem W18_v52 (hpre : Cert.Pre_KernelIdeal (hPre_finite_inputs := Cert.Pre_finite_inputs.Gen.facts) m) : W18 m ρ c (Proc.devRef .tc main_v52) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (result (W17 m ρ c)).trans ?_
  rw [W17_v51 m ρ c hpre]
  funext i
  obtain ⟨r, rfl⟩ : ∃ r : Fin 100000, i = ix1 r := ⟨i 0, eq_ix1 i⟩
  rw [Cert.RefStages.headRef _ _ _ _ _ _ _ _ _ _ _ _ _ _ (maskCol (m ((c : Thread nD τ).loc main_arg3))) (maskCol_apply _) r]
  refine shapeCast_apply _ shapeCasts_S100000x1_S100000 (ix1 r) (ix2 r 0) ?_
  rw [Shape.rowMajor_val_two, Shape.rowMajor_val_one]
  show r.val * 1 + 0 = r.val
  omega

end Cert.Chain

end
-- ==== Proof.lean ====
/-
  A message-passing network on a graph, as a tiled kernel program and as its plain reference: the two compute the
  same scores.

  Both programs encode the nodes and the edges by an affine map and a positive part, run two rounds of
  "gather each edge's source node, apply the message layer to the pair (source state, edge state), sum the messages
  per target node, apply the update layer to the pair (node state, sum)", and finish with a one-column affine head
  whose score is kept for candidate nodes and replaced by the fill value -1e9 elsewhere.  The kernel program runs
  each layer as a launch over row blocks, with the matrix unit's product accumulated into zero; at the exact values
  that product is the plain sum over the contracted axis, the same sum the reference's product is, and the blocks
  tile their arrays, so each launch leaves its layer's whole-array function of its inputs.  The gathers and the
  per-target sums are the same host operations on both sides.  One difference is real: the kernel's gather fills
  rows at out-of-range indices with a not-a-number pattern where the reference clamps the index; with every source
  index in range (-100000 ≤ index < 100000, negative indices counted from the end by both), which the precondition
  states, the fill never shows.  Nothing else of the precondition is used: the two sides are the same expression,
  term by term, so no law that needs finiteness is applied.

  The three frame claims are the programs' own runs with the results dropped; the idealization rewrote nothing, so
  the preservation claim is trivial; the value claim is the kernel program's run with its result buffer read at
  the last boundary, that boundary's contents followed forward against the reference's stages, and the
  reference's run.
-/
import proofs.«400771_j49452253447022_2_alg».proof.Defs
import proofs.«400771_j49452253447022_2_alg».proof.Proof.Gen.Kernel
import proofs.«400771_j49452253447022_2_alg».proof.Proof.Gen.Kernel.Frame
import proofs.«400771_j49452253447022_2_alg».proof.Proof.Gen.KernelIdeal
import proofs.«400771_j49452253447022_2_alg».proof.Proof.Gen.KernelIdeal.Frame
import proofs.«400771_j49452253447022_2_alg».proof.Proof.Gen.ReferenceIdeal
import proofs.«400771_j49452253447022_2_alg».proof.Proof.Gen.ReferenceIdeal.Run
import proofs.«400771_j49452253447022_2_alg».proof.Proof.Gen.ReferenceIdeal.Read
import proofs.«400771_j49452253447022_2_alg».proof.Proof.Gen.Pre_finite_inputs
import proofs.«400771_j49452253447022_2_alg».proof.Proof.RunValue
import proofs.«400771_j49452253447022_2_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same scores: the kernel program's result
    buffer holds the last boundary's contents, which are the reference's last stage of the same arguments. -/
theorem algebraic : Cert.algebraic_KernelIdeal_ReferenceIdeal := by
  intro m ρ m' ρ' hpre hagree
  refine ⟨fun c => Cert.KernelIdeal.Gen.W18 m ρ c (Proc.devRef .tc Cert.KernelIdeal.main_v52),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v91_eq, h0, h1, h2, h3, h4, h5, h6, h7, h8, h9, h10, h11, h12, h13]
  exact (Cert.Chain.W18_v52 m ρ c hpre).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
